-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v80)) (v2 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_v84) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S8192x4 : Shape := ⟨2, ![8192, 4]⟩
abbrev S8192x3x1 : Shape := ⟨3, ![8192, 3, 1]⟩
abbrev S8192x3x3 : Shape := ⟨3, ![8192, 3, 3]⟩
abbrev S8192x2048x3 : Shape := ⟨3, ![8192, 2048, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S8192x4 : S_.BroadcastsInDim S8192x4 (![] : Fin 0 → Fin S8192x4.rank)
  reducesTo_S8192x4_S_d0_1 : S8192x4.ReducesTo [0, 1] S_
  bcast_S_S8192x3x1 : S_.BroadcastsInDim S8192x3x1 (![] : Fin 0 → Fin S8192x3x1.rank)
  reducesTo_S8192x3x1_S_d0_1_2 : S8192x3x1.ReducesTo [0, 1, 2] S_
  bcast_S_S8192x3x3 : S_.BroadcastsInDim S8192x3x3 (![] : Fin 0 → Fin S8192x3x3.rank)
  reducesTo_S8192x3x3_S_d0_1_2 : S8192x3x3.ReducesTo [0, 1, 2] S_
  bcast_S_S8192x2048x3 : S_.BroadcastsInDim S8192x2048x3 (![] : Fin 0 → Fin S8192x2048x3.rank)
  reducesTo_S8192x2048x3_S_d0_1_2 : S8192x2048x3.ReducesTo [0, 1, 2] S_

variable [Facts]

def fn_part1 {F : FTy → Type} [FloatOps F] (main_arg4 : FVec F S8192x3x3 .f32) (main_arg5 : FVec F S8192x2048x3 .f32) (main_v13 : IVec S_ 1) (main_v16 : IVec S8192x4 1) : IVec S_ 1 :=
  let main_c_5 : IVec S_ 1 := constantI S_ 1 1#1
  let main_v17 : IVec S_ 1 := (fun x v => Host.reduce IntOp.andi x v reducesTo_S8192x4_S_d0_1 h_S_) main_v16 main_c_5
  let main_v18 : IVec S_ 1 := andi main_v13 main_v17
  let main_v19 : FVec F S8192x3x3 .f32 := Host.absf main_arg4
  let main_cst_6 : FVec F S_ .f32 := constant S_ .f32 0x7F800000#32
  let main_v20 : FVec F S8192x3x3 .f32 := broadcastInDim S8192x3x3 ![] bcast_S_S8192x3x3 main_cst_6
  let main_v21 : IVec S8192x3x3 1 := cmpf .olt main_v19 main_v20
  let main_c_7 : IVec S_ 1 := constantI S_ 1 1#1
  let main_v22 : IVec S_ 1 := (fun x v => Host.reduce IntOp.andi x v reducesTo_S8192x3x3_S_d0_1_2 h_S_) main_v21 main_c_7
  let main_v23 : IVec S_ 1 := andi main_v18 main_v22
  let main_v24 : FVec F S8192x2048x3 .f32 := Host.absf main_arg5
  let main_cst_8 : FVec F S_ .f32 := constant S_ .f32 0x7F800000#32
  let main_v25 : FVec F S8192x2048x3 .f32 := broadcastInDim S8192x2048x3 ![] bcast_S_S8192x2048x3 main_cst_8
  let main_v26 : IVec S8192x2048x3 1 := cmpf .olt main_v24 main_v25
  let main_c_9 : IVec S_ 1 := constantI S_ 1 1#1
  let main_v27 : IVec S_ 1 := (fun x v => Host.reduce IntOp.andi x v reducesTo_S8192x2048x3_S_d0_1_2 h_S_) main_v26 main_c_9
  let main_v28 : IVec S_ 1 := andi main_v23 main_v27
  main_v28

def fn {F : FTy → Type} [FloatOps F] (main_arg0 : FVec F S8192x3 .f32) (main_arg1 : FVec F S8192x4 .f32) (main_arg2 : FVec F S8192x3x1 .f32) (main_arg3 : FVec F S8192x4 .f32) (main_arg4 : FVec F S8192x3x3 .f32) (main_arg5 : FVec F S8192x2048x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x4 .f32 := Host.absf main_arg1
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  let main_v9 : FVec F S8192x3x1 .f32 := Host.absf main_arg2
  let main_cst_2 : FVec F S_ .f32 := constant S_ .f32 0x7F800000#32
  let main_v10 : FVec F S8192x3x1 .f32 := broadcastInDim S8192x3x1 ![] bcast_S_S8192x3x1 main_cst_2
  let main_v11 : IVec S8192x3x1 1 := cmpf .olt main_v9 main_v10
  let main_c_3 : IVec S_ 1 := constantI S_ 1 1#1
  let main_v12 : IVec S_ 1 := (fun x v => Host.reduce IntOp.andi x v reducesTo_S8192x3x1_S_d0_1_2 h_S_) main_v11 main_c_3
  let main_v13 : IVec S_ 1 := andi main_v8 main_v12
  let main_v14 : FVec F S8192x4 .f32 := Host.absf main_arg3
  let main_cst_4 : FVec F S_ .f32 := constant S_ .f32 0x7F800000#32
  let main_v15 : FVec F S8192x4 .f32 := broadcastInDim S8192x4 ![] bcast_S_S8192x4 main_cst_4
  let main_v16 : IVec S8192x4 1 := cmpf .olt main_v14 main_v15
  fn_part1 (F := F) main_arg4 main_arg5 main_v13 main_v16
-- ==== Kernel.lean ====
abbrev S8192x3 : Shape := ⟨2, ![8192, 3]⟩
abbrev S8192x4 : Shape := ⟨2, ![8192, 4]⟩
abbrev S8192x3x1 : Shape := ⟨3, ![8192, 3, 1]⟩
abbrev S8192x3x3 : Shape := ⟨3, ![8192, 3, 3]⟩
abbrev S8192x2048x3 : Shape := ⟨3, ![8192, 2048, 3]⟩
abbrev S4 : Shape := ⟨1, ![4]⟩
abbrev S_ : Shape := ⟨0, ![]⟩
abbrev S8192 : Shape := ⟨1, ![8192]⟩
abbrev S8192x1 : Shape := ⟨2, ![8192, 1]⟩
abbrev S1x4 : Shape := ⟨2, ![1, 4]⟩
abbrev S8192x9 : Shape := ⟨2, ![8192, 9]⟩
abbrev S8192x3x2048 : Shape := ⟨3, ![8192, 3, 2048]⟩
abbrev S128x3x2048 : Shape := ⟨3, ![128, 3, 2048]⟩
abbrev S128x3x3 : Shape := ⟨3, ![128, 3, 3]⟩
abbrev S128x3 : Shape := ⟨2, ![128, 3]⟩
abbrev S128x1 : Shape := ⟨2, ![128, 1]⟩
abbrev S128x1x2048 : Shape := ⟨3, ![128, 1, 2048]⟩
abbrev S128x2048 : Shape := ⟨2, ![128, 2048]⟩
abbrev S128x1x1 : Shape := ⟨3, ![128, 1, 1]⟩
abbrev S128 : Shape := ⟨1, ![128]⟩

abbrev nBuf : Space → Nat
  | .hbm => 125
  | .vmem => 12
  | .smem => 0
  | _ => 0

abbrev bufTy : (tb : Table) → Fin (tcTables nBuf tb) → BufTy
  | .hbm, ⟨0, _⟩ => ⟨S8192x3, .f32⟩
  | .hbm, ⟨1, _⟩ => ⟨S8192x4, .f32⟩
  | .hbm, ⟨2, _⟩ => ⟨S8192x3x1, .f32⟩
  | .hbm, ⟨3, _⟩ => ⟨S8192x4, .f32⟩
  | .hbm, ⟨4, _⟩ => ⟨S8192x3x3, .f32⟩
  | .hbm, ⟨5, _⟩ => ⟨S8192x2048x3, .f32⟩
  | .hbm, ⟨6, _⟩ => ⟨S4, .f32⟩
  | .hbm, ⟨7, _⟩ => ⟨S8192x4, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x1, .f32⟩
  | .hbm, ⟨12, _⟩ => ⟨S8192x4, .f32⟩
  | .hbm, ⟨13, _⟩ => ⟨S8192x4, .f32⟩
  | .hbm, ⟨14, _⟩ => ⟨S1x4, .f32⟩
  | .hbm, ⟨15, _⟩ => ⟨S8192x4, .f32⟩
  | .hbm, ⟨16, _⟩ => ⟨S8192x4, .f32⟩
  | .hbm, ⟨17, _⟩ => ⟨S8192x1, .f32⟩
  | .hbm, ⟨18, _⟩ => ⟨S8192, .f32⟩
  | .hbm, ⟨19, _⟩ => ⟨S8192x1, .f32⟩
  | .hbm, ⟨20, _⟩ => ⟨S8192, .f32⟩
  | .hbm, ⟨21, _⟩ => ⟨S8192x1, .f32⟩
  | .hbm, ⟨22, _⟩ => ⟨S8192, .f32⟩
  | .hbm, ⟨23, _⟩ => ⟨S8192x1, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192x1, .f32⟩
  | .hbm, ⟨89, _⟩ => ⟨S8192x1, .f32⟩
  | .hbm, ⟨90, _⟩ => ⟨S8192x1, .f32⟩
  | .hbm, ⟨91, _⟩ => ⟨S8192x1, .f32⟩
  | .hbm, ⟨92, _⟩ => ⟨S8192x1, .f32⟩
  | .hbm, ⟨93, _⟩ => ⟨S8192x1, .f32⟩
  | .hbm, ⟨94, _⟩ => ⟨S8192x1, .f32⟩
  | .hbm, ⟨95, _⟩ => ⟨S8192x1, .f32⟩
  | .hbm, ⟨96, _⟩ => ⟨S8192x1, .f32⟩
  | .hbm, ⟨97, _⟩ => ⟨S8192x9, .f32⟩
  | .hbm, ⟨98, _⟩ => ⟨S8192x3x3, .f32⟩
  | .hbm, ⟨99, _⟩ => ⟨S8192x3, .f32⟩
  | .hbm, ⟨100, _⟩ => ⟨S8192x3, .f32⟩
  | .hbm, ⟨101, _⟩ => ⟨S8192x3, .f32⟩
  | .hbm, ⟨102, _⟩ => ⟨S_, .f32⟩
  | .hbm, ⟨103, _⟩ => ⟨S8192, .f32⟩
  | .hbm, ⟨104, _⟩ => ⟨S8192, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S8192x4, .f32⟩
  | .hbm, ⟨110, _⟩ => ⟨S8192x4, .f32⟩
  | .hbm, ⟨111, _⟩ => ⟨S_, .f32⟩
  | .hbm, ⟨112, _⟩ => ⟨S8192, .f32⟩
  | .hbm, ⟨113, _⟩ => ⟨S8192, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S8192x3x2048, .f32⟩
  | .hbm, ⟨119, _⟩ => ⟨S8192x1, .f32⟩
  | .hbm, ⟨120, _⟩ => ⟨S8192, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .local _ .vmem, ⟨0, _⟩ => ⟨S128x3x2048, .f32⟩
  | .local _ .vmem, ⟨1, _⟩ => ⟨S128x3x2048, .f32⟩
  | .local _ .vmem, ⟨2, _⟩ => ⟨S128x3x3, .f32⟩
  | .local _ .vmem, ⟨3, _⟩ => ⟨S128x3x3, .f32⟩
  | .local _ .vmem, ⟨4, _⟩ => ⟨S128x3x3, .f32⟩
  | .local _ .vmem, ⟨5, _⟩ => ⟨S128x3x3, .f32⟩
  | .local _ .vmem, ⟨6, _⟩ => ⟨S128x3, .f32⟩
  | .local _ .vmem, ⟨7, _⟩ => ⟨S128x3, .f32⟩
  | .local _ .vmem, ⟨8, _⟩ => ⟨S128x3, .f32⟩
  | .local _ .vmem, ⟨9, _⟩ => ⟨S128x3, .f32⟩
  | .local _ .vmem, ⟨10, _⟩ => ⟨S128x1, .f32⟩
  | .local _ .vmem, ⟨11, _⟩ => ⟨S128x1, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_call1_v0 : Ref sig .tc := ⟨.hbm, 101, rfl⟩
abbrev main_call1_cst : Ref sig .tc := ⟨.hbm, 102, rfl⟩
abbrev main_call1_v1 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_cst_13 : Ref sig .tc := ⟨.hbm, 107, rfl⟩
abbrev main_v80 : Ref sig .tc := ⟨.hbm, 108, rfl⟩
abbrev main_v81 : Ref sig .tc := ⟨.hbm, 109, rfl⟩
abbrev main_call2_v0 : Ref sig .tc := ⟨.hbm, 110, rfl⟩
abbrev main_call2_cst : Ref sig .tc := ⟨.hbm, 111, rfl⟩
abbrev main_call2_v1 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_16 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S8192x4_S8192_d1 : S8192x4.ReducesTo [1] S8192
  h_S_ : 0 < S_.numel
  bcast_S8192_S8192x1_0 : S8192.BroadcastsInDim S8192x1 (![0] : Fin 1 → Fin S8192x1.rank)
  bcast_S8192x1_S8192x4_0_1 : S8192x1.BroadcastsInDim S8192x4 (![0, 1] : Fin 2 → Fin S8192x4.rank)
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  slices_S8192x4_S8192x1_0_0 : S8192x4.Slices ![0, 0] S8192x1
  shapeCasts_S8192x1_S8192 : S8192x1.ShapeCasts S8192
  slices_S8192x4_S8192x1_0_1 : S8192x4.Slices ![0, 1] S8192x1
  slices_S8192x4_S8192x1_0_2 : S8192x4.Slices ![0, 2] S8192x1
  slices_S8192x4_S8192x1_0_3 : S8192x4.Slices ![0, 3] S8192x1
  bcast_S_S8192 : S_.BroadcastsInDim S8192 (![] : Fin 0 → Fin S8192.rank)
  concatenates_S8192x1_S8192x1_S8192x1_S8192x1_S8192x1_S8192x1_S8192x1_S8192x1_S8192x1_S8192x9_d1 : Shape.Concatenates [S8192x1, S8192x1, S8192x1, S8192x1, S8192x1, S8192x1, S8192x1, S8192x1, S8192x1] S8192x9 1
  shapeCasts_S8192x9_S8192x3x3 : S8192x9.ShapeCasts S8192x3x3
  shapeCasts_S8192x3x1_S8192x3 : S8192x3x1.ShapeCasts S8192x3
  reducesTo_S8192x3_S8192_d1 : S8192x3.ReducesTo [1] S8192
  reducesTo_S8192_S_d0 : S8192.ReducesTo [0] S_
  transposes_S8192x2048x3_S8192x3x2048_0_2_1 : S8192x2048x3.Transposes [0, 2, 1] S8192x3x2048
  inb_S128x3x2048_S128x3x2048_0_0_0 : ∀ a, (![0, 0, 0] : Fin 3 → Nat) a + S128x3x2048.size a ≤ S128x3x2048.size a
  h_S128x3x2048 : 0 < S128x3x2048.numel
  shapeCasts_S128x3x2048_S128x3x2048 : S128x3x2048.ShapeCasts S128x3x2048
  slices_S128x3x2048_o0_0_0_S128x1x2048 : S128x3x2048.Slices ![0, 0, 0] S128x1x2048
  shapeCasts_S128x1x2048_S128x2048 : S128x1x2048.ShapeCasts S128x2048
  slices_S128x3x2048_o0_1_0_S128x1x2048 : S128x3x2048.Slices ![0, 1, 0] S128x1x2048
  slices_S128x3x2048_o0_2_0_S128x1x2048 : S128x3x2048.Slices ![0, 2, 0] S128x1x2048
  inb_S128x3_S128x3_0_0 : ∀ a, (![0, 0] : Fin 2 → Nat) a + S128x3.size a ≤ S128x3.size a
  h_S128x3 : 0 < S128x3.numel
  shapeCasts_S128x3_S128x3 : S128x3.ShapeCasts S128x3
  slices_S128x3_o0_0_S128x1 : S128x3.Slices ![0, 0] S128x1
  slices_S128x3_o0_1_S128x1 : S128x3.Slices ![0, 1] S128x1
  slices_S128x3_o0_2_S128x1 : S128x3.Slices ![0, 2] S128x1
  broadcasts_S128x1_S128x2048 : S128x1.Broadcasts S128x2048
  inb_S128x3x3_S128x3x3_0_0_0 : ∀ a, (![0, 0, 0] : Fin 3 → Nat) a + S128x3x3.size a ≤ S128x3x3.size a
  h_S128x3x3 : 0 < S128x3x3.numel
  shapeCasts_S128x3x3_S128x3x3 : S128x3x3.ShapeCasts S128x3x3
  slices_S128x3x3_o0_0_0_S128x1x1 : S128x3x3.Slices ![0, 0, 0] S128x1x1
  shapeCasts_S128x1x1_S128x1 : S128x1x1.ShapeCasts S128x1
  slices_S128x3x3_o0_0_1_S128x1x1 : S128x3x3.Slices ![0, 0, 1] S128x1x1
  slices_S128x3x3_o0_0_2_S128x1x1 : S128x3x3.Slices ![0, 0, 2] S128x1x1
  slices_S128x3x3_o0_1_0_S128x1x1 : S128x3x3.Slices ![0, 1, 0] S128x1x1
  slices_S128x3x3_o0_1_1_S128x1x1 : S128x3x3.Slices ![0, 1, 1] S128x1x1
  slices_S128x3x3_o0_1_2_S128x1x1 : S128x3x3.Slices ![0, 1, 2] S128x1x1
  slices_S128x3x3_o0_2_0_S128x1x1 : S128x3x3.Slices ![0, 2, 0] S128x1x1
  slices_S128x3x3_o0_2_1_S128x1x1 : S128x3x3.Slices ![0, 2, 1] S128x1x1
  slices_S128x3x3_o0_2_2_S128x1x1 : S128x3x3.Slices ![0, 2, 2] S128x1x1
  reduces_S128x2048_S128 : S128x2048.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3x2048.size a ≤ S8192x3x2048.size a
  hwx0_0 : ∀ i : grid0.Coords, EltTy.bits .f32 = 32 ∨ (Rect.block (s := S8192x3x2048) S128x3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3x3.size a ≤ S8192x3x3.size a
  hwx0_1 : ∀ i : grid0.Coords, EltTy.bits .f32 = 32 ∨ (Rect.block (s := S8192x3x3) S128x3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x3x3.size a ≤ S8192x3x3.size a
  hwx0_2 : ∀ i : grid0.Coords, EltTy.bits .f32 = 32 ∨ (Rect.block (s := S8192x3x3) S128x3x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x3.size a ≤ S8192x3.size a
  hwx0_3 : ∀ i : grid0.Coords, EltTy.bits .f32 = 32 ∨ (Rect.block (s := S8192x3) S128x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x3.size a ≤ S8192x3.size a
  hwx0_4 : ∀ i : grid0.Coords, EltTy.bits .f32 = 32 ∨ (Rect.block (s := S8192x3) S128x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S8192x1.size a
  hwx0_5 : ∀ i : grid0.Coords, EltTy.bits .f32 = 32 ∨ (Rect.block (s := S8192x1) S128x1.size (cc0_transform_5 i) (hinb0_5 i)).WholeWords (EltTy.packing .f32)

variable [Facts₀]

abbrev win0_0 : Pipeline.Window sig grid0 :=
  Pipeline.Window.ofSpec (Memref.whole main_v85) S128x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x3x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v75) S128x3x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S128x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v76) S128x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v86) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x3 : Shape := ⟨2, ![8192, 3]⟩
abbrev S8192x4 : Shape := ⟨2, ![8192, 4]⟩
abbrev S8192x3x1 : Shape := ⟨3, ![8192, 3, 1]⟩
abbrev S8192x3x3 : Shape := ⟨3, ![8192, 3, 3]⟩
abbrev S8192x2048x3 : Shape := ⟨3, ![8192, 2048, 3]⟩
abbrev S4 : Shape := ⟨1, ![4]⟩
abbrev S_ : Shape := ⟨0, ![]⟩
abbrev S8192 : Shape := ⟨1, ![8192]⟩
abbrev S8192x1 : Shape := ⟨2, ![8192, 1]⟩
abbrev S1x4 : Shape := ⟨2, ![1, 4]⟩
abbrev S8192x9 : Shape := ⟨2, ![8192, 9]⟩
abbrev S8192x1x3 : Shape := ⟨3, ![8192, 1, 3]⟩
abbrev S8192x2048x2 : Shape := ⟨3, ![8192, 2048, 2]⟩
abbrev S8192x2048x1 : Shape := ⟨3, ![8192, 2048, 1]⟩
abbrev S8192x2048 : Shape := ⟨2, ![8192, 2048]⟩

abbrev nBuf : Space → Nat
  | .hbm => 164
  | .vmem => 0
  | .smem => 0
  | _ => 0

abbrev hbmTy0_0 (i : Nat) : BufTy := match i % 128 with
  | 0 => ⟨S8192x3, .f32⟩
  | 1 => ⟨S8192x4, .f32⟩
  | 2 => ⟨S8192x3x1, .f32⟩
  | 3 => ⟨S8192x4, .f32⟩
  | 4 => ⟨S8192x3x3, .f32⟩
  | 5 => ⟨S8192x2048x3, .f32⟩
  | 6 => ⟨S4, .f32⟩
  | 7 => ⟨S8192x4, .f32⟩
  | 8 => ⟨S_, .f32⟩
  | 9 => ⟨S8192, .f32⟩
  | 10 => ⟨S8192x1, .f32⟩
  | 11 => ⟨S8192x1, .f32⟩
  | 12 => ⟨S8192x4, .f32⟩
  | 13 => ⟨S8192x4, .f32⟩
  | 14 => ⟨S1x4, .f32⟩
  | 15 => ⟨S8192x4, .f32⟩
  | 16 => ⟨S8192x4, .f32⟩
  | 17 => ⟨S8192x1, .f32⟩
  | 18 => ⟨S8192, .f32⟩
  | 19 => ⟨S8192x1, .f32⟩
  | 20 => ⟨S8192, .f32⟩
  | 21 => ⟨S8192x1, .f32⟩
  | 22 => ⟨S8192, .f32⟩
  | 23 => ⟨S8192x1, .f32⟩
  | 24 => ⟨S8192, .f32⟩
  | 25 => ⟨S8192, .f32⟩
  | 26 => ⟨S8192, .f32⟩
  | 27 => ⟨S8192, .f32⟩
  | 28 => ⟨S_, .f32⟩
  | 29 => ⟨S8192, .f32⟩
  | 30 => ⟨S8192, .f32⟩
  | 31 => ⟨S_, .f32⟩
  | 32 => ⟨S8192, .f32⟩
  | 33 => ⟨S8192, .f32⟩
  | 34 => ⟨S8192, .f32⟩
  | 35 => ⟨S8192, .f32⟩
  | 36 => ⟨S8192, .f32⟩
  | 37 => ⟨S_, .f32⟩
  | 38 => ⟨S8192, .f32⟩
  | 39 => ⟨S8192, .f32⟩
  | 40 => ⟨S8192, .f32⟩
  | 41 => ⟨S8192, .f32⟩
  | 42 => ⟨S8192, .f32⟩
  | 43 => ⟨S_, .f32⟩
  | 44 => ⟨S8192, .f32⟩
  | 45 => ⟨S8192, .f32⟩
  | 46 => ⟨S8192, .f32⟩
  | 47 => ⟨S8192, .f32⟩
  | 48 => ⟨S8192, .f32⟩
  | 49 => ⟨S_, .f32⟩
  | 50 => ⟨S8192, .f32⟩
  | 51 => ⟨S8192, .f32⟩
  | 52 => ⟨S8192, .f32⟩
  | 53 => ⟨S8192, .f32⟩
  | 54 => ⟨S8192, .f32⟩
  | 55 => ⟨S_, .f32⟩
  | 56 => ⟨S8192, .f32⟩
  | 57 => ⟨S8192, .f32⟩
  | 58 => ⟨S_, .f32⟩
  | 59 => ⟨S8192, .f32⟩
  | 60 => ⟨S8192, .f32⟩
  | 61 => ⟨S8192, .f32⟩
  | 62 => ⟨S8192, .f32⟩
  | 63 => ⟨S8192, .f32⟩
  | 64 => ⟨S_, .f32⟩
  | 65 => ⟨S8192, .f32⟩
  | 66 => ⟨S8192, .f32⟩
  | 67 => ⟨S8192, .f32⟩
  | 68 => ⟨S8192, .f32⟩
  | 69 => ⟨S8192, .f32⟩
  | 70 => ⟨S_, .f32⟩
  | 71 => ⟨S8192, .f32⟩
  | 72 => ⟨S8192, .f32⟩
  | 73 => ⟨S8192, .f32⟩
  | 74 => ⟨S8192, .f32⟩
  | 75 => ⟨S8192, .f32⟩
  | 76 => ⟨S_, .f32⟩
  | 77 => ⟨S8192, .f32⟩
  | 78 => ⟨S8192, .f32⟩
  | 79 => ⟨S8192, .f32⟩
  | 80 => ⟨S8192, .f32⟩
  | 81 => ⟨S8192, .f32⟩
  | 82 => ⟨S_, .f32⟩
  | 83 => ⟨S8192, .f32⟩
  | 84 => ⟨S8192, .f32⟩
  | 85 => ⟨S_, .f32⟩
  | 86 => ⟨S8192, .f32⟩
  | 87 => ⟨S8192, .f32⟩
  | 88 => ⟨S8192x1, .f32⟩
  | 89 => ⟨S8192x1, .f32⟩
  | 90 => ⟨S8192x1, .f32⟩
  | 91 => ⟨S8192x1, .f32⟩
  | 92 => ⟨S8192x1, .f32⟩
  | 93 => ⟨S8192x1, .f32⟩
  | 94 => ⟨S8192x1, .f32⟩
  | 95 => ⟨S8192x1, .f32⟩
  | 96 => ⟨S8192x1, .f32⟩
  | 97 => ⟨S8192x9, .f32⟩
  | 98 => ⟨S8192x3x3, .f32⟩
  | 99 => ⟨S8192x3, .f32⟩
  | 100 => ⟨S8192x3, .f32⟩
  | 101 => ⟨S8192x3, .f32⟩
  | 102 => ⟨S_, .f32⟩
  | 103 => ⟨S8192, .f32⟩
  | 104 => ⟨S8192, .f32⟩
  | 105 => ⟨S_, .f32⟩
  | 106 => ⟨S_, .f32⟩
  | 107 => ⟨S_, .f32⟩
  | 108 => ⟨S_, .f32⟩
  | 109 => ⟨S8192x4, .f32⟩
  | 110 => ⟨S8192x4, .f32⟩
  | 111 => ⟨S_, .f32⟩
  | 112 => ⟨S8192, .f32⟩
  | 113 => ⟨S8192, .f32⟩
  | 114 => ⟨S_, .f32⟩
  | 115 => ⟨S_, .f32⟩
  | 116 => ⟨S_, .f32⟩
  | 117 => ⟨S_, .f32⟩
  | 118 => ⟨S8192x3, .f32⟩
  | 119 => ⟨S8192x1x3, .f32⟩
  | 120 => ⟨S8192x2048x3, .f32⟩
  | 121 => ⟨S8192x2048x3, .f32⟩
  | 122 => ⟨S8192x1x3, .f32⟩
  | 123 => ⟨S8192x2048x3, .f32⟩
  | 124 => ⟨S8192x2048x3, .f32⟩
  | 125 => ⟨S8192x2048x3, .f32⟩
  | 126 => ⟨S8192x2048x3, .f32⟩
  | 127 => ⟨S8192x2048x2, .f32⟩
  | _ => ⟨S8192x3, .f32⟩

abbrev hbmTy0_1 (i : Nat) : BufTy := match i % 128 with
  | 0 => ⟨S8192x2048x1, .f32⟩
  | 1 => ⟨S8192x2048x2, .f32⟩
  | 2 => ⟨S8192x2048x2, .f32⟩
  | 3 => ⟨S8192x2048x2, .f32⟩
  | 4 => ⟨S8192x2048x1, .f32⟩
  | 5 => ⟨S8192x2048x2, .f32⟩
  | 6 => ⟨S8192x2048x2, .f32⟩
  | 7 => ⟨S8192x2048x2, .f32⟩
  | 8 => ⟨S8192x2048x2, .f32⟩
  | 9 => ⟨S_, .f32⟩
  | 10 => ⟨S8192x2048, .f32⟩
  | 11 => ⟨S_, .f32⟩
  | 12 => ⟨S8192, .f32⟩
  | 13 => ⟨S_, .f32⟩
  | 14 => ⟨S8192, .f32⟩
  | 15 => ⟨S8192, .f32⟩
  | 16 => ⟨S8192, .i1⟩
  | 17 => ⟨S_, .f32⟩
  | 18 => ⟨S8192, .f32⟩
  | 19 => ⟨S8192, .f32⟩
  | 20 => ⟨S_, .f32⟩
  | 21 => ⟨S8192, .f32⟩
  | 22 => ⟨S8192, .i1⟩
  | 23 => ⟨S_, .f32⟩
  | 24 => ⟨S8192, .f32⟩
  | 25 => ⟨S8192, .f32⟩
  | 26 => ⟨S_, .f32⟩
  | 27 => ⟨S8192, .f32⟩
  | 28 => ⟨S8192, .i1⟩
  | 29 => ⟨S_, .f32⟩
  | 30 => ⟨S8192, .f32⟩
  | 31 => ⟨S8192, .f32⟩
  | 32 => ⟨S_, .f32⟩
  | 33 => ⟨S_, .f32⟩
  | 34 => ⟨S_, .f32⟩
  | 35 => ⟨S_, .f32⟩
  | _ => ⟨S8192x3, .f32⟩

abbrev hbmTy (i : Nat) : BufTy := match i / 128 with
  | 0 => hbmTy0_0 i
  | 1 => hbmTy0_1 i
  | _ => ⟨S8192x3, .f32⟩

abbrev bufTy : (tb : Table) → Fin (tcTables nBuf tb) → BufTy
  | .hbm, ⟨i, _⟩ => hbmTy i
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_call1_v0 : Ref sig .tc := ⟨.hbm, 101, rfl⟩
abbrev main_call1_cst : Ref sig .tc := ⟨.hbm, 102, rfl⟩
abbrev main_call1_v1 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_cst_13 : Ref sig .tc := ⟨.hbm, 107, rfl⟩
abbrev main_v80 : Ref sig .tc := ⟨.hbm, 108, rfl⟩
abbrev main_v81 : Ref sig .tc := ⟨.hbm, 109, rfl⟩
abbrev main_call2_v0 : Ref sig .tc := ⟨.hbm, 110, rfl⟩
abbrev main_call2_cst : Ref sig .tc := ⟨.hbm, 111, rfl⟩
abbrev main_call2_v1 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_16 : Ref sig .tc := ⟨.hbm, 137, rfl⟩
abbrev main_v104 : Ref sig .tc := ⟨.hbm, 138, rfl⟩
abbrev main_cst_17 : Ref sig .tc := ⟨.hbm, 139, rfl⟩
abbrev main_v105 : Ref sig .tc := ⟨.hbm, 140, rfl⟩
abbrev main_cst_18 : Ref sig .tc := ⟨.hbm, 141, rfl⟩
abbrev main_v106 : Ref sig .tc := ⟨.hbm, 142, rfl⟩
abbrev main_v107 : Ref sig .tc := ⟨.hbm, 143, rfl⟩
abbrev main_call3_v0 : Ref sig .tc := ⟨.hbm, 144, rfl⟩
abbrev main_call3_cst : Ref sig .tc := ⟨.hbm, 145, rfl⟩
abbrev main_call3_call0_v0 : Ref sig .tc := ⟨.hbm, 146, rfl⟩
abbrev main_call3_v1 : Ref sig .tc := ⟨.hbm, 147, rfl⟩
abbrev main_call3_cst_0 : Ref sig .tc := ⟨.hbm, 148, rfl⟩
abbrev main_call3_v2 : Ref sig .tc := ⟨.hbm, 149, rfl⟩
abbrev main_call3_v3 : Ref sig .tc := ⟨.hbm, 150, rfl⟩
abbrev main_call3_cst_1 : Ref sig .tc := ⟨.hbm, 151, rfl⟩
abbrev main_call3_call1_v0 : Ref sig .tc := ⟨.hbm, 152, rfl⟩
abbrev main_call3_v4 : Ref sig .tc := ⟨.hbm, 153, rfl⟩
abbrev main_call3_cst_2 : Ref sig .tc := ⟨.hbm, 154, rfl⟩
abbrev main_call3_v5 : Ref sig .tc := ⟨.hbm, 155, rfl⟩
abbrev main_call3_v6 : Ref sig .tc := ⟨.hbm, 156, rfl⟩
abbrev main_call3_cst_3 : Ref sig .tc := ⟨.hbm, 157, rfl⟩
abbrev main_call3_call2_v0 : Ref sig .tc := ⟨.hbm, 158, rfl⟩
abbrev main_v108 : Ref sig .tc := ⟨.hbm, 159, rfl⟩
abbrev main_cst_19 : Ref sig .tc := ⟨.hbm, 160, rfl⟩
abbrev main_v109 : Ref sig .tc := ⟨.hbm, 161, rfl⟩
abbrev main_cst_20 : Ref sig .tc := ⟨.hbm, 162, rfl⟩
abbrev main_v110 : Ref sig .tc := ⟨.hbm, 163, rfl⟩

abbrev nD : Nat := 1
abbrev τ : Topo := Topo.v7x

variable {F : FTy → Type} [FloatOps F]

class Facts₀ : Prop where
  reducesTo_S8192x4_S8192_d1 : S8192x4.ReducesTo [1] S8192
  h_S_ : 0 < S_.numel
  bcast_S8192_S8192x1_0 : S8192.BroadcastsInDim S8192x1 (![0] : Fin 1 → Fin S8192x1.rank)
  bcast_S8192x1_S8192x4_0_1 : S8192x1.BroadcastsInDim S8192x4 (![0, 1] : Fin 2 → Fin S8192x4.rank)
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  slices_S8192x4_S8192x1_0_0 : S8192x4.Slices ![0, 0] S8192x1
  shapeCasts_S8192x1_S8192 : S8192x1.ShapeCasts S8192
  slices_S8192x4_S8192x1_0_1 : S8192x4.Slices ![0, 1] S8192x1
  slices_S8192x4_S8192x1_0_2 : S8192x4.Slices ![0, 2] S8192x1
  slices_S8192x4_S8192x1_0_3 : S8192x4.Slices ![0, 3] S8192x1
  bcast_S_S8192 : S_.BroadcastsInDim S8192 (![] : Fin 0 → Fin S8192.rank)
  concatenates_S8192x1_S8192x1_S8192x1_S8192x1_S8192x1_S8192x1_S8192x1_S8192x1_S8192x1_S8192x9_d1 : Shape.Concatenates [S8192x1, S8192x1, S8192x1, S8192x1, S8192x1, S8192x1, S8192x1, S8192x1, S8192x1] S8192x9 1
  shapeCasts_S8192x9_S8192x3x3 : S8192x9.ShapeCasts S8192x3x3
  shapeCasts_S8192x3x1_S8192x3 : S8192x3x1.ShapeCasts S8192x3
  reducesTo_S8192x3_S8192_d1 : S8192x3.ReducesTo [1] S8192
  reducesTo_S8192_S_d0 : S8192.ReducesTo [0] S_
  bcast_S8192x3_S8192x1x3_0_2 : S8192x3.BroadcastsInDim S8192x1x3 (![0, 2] : Fin 2 → Fin S8192x1x3.rank)
  bcast_S8192x1x3_S8192x2048x3_0_1_2 : S8192x1x3.BroadcastsInDim S8192x2048x3 (![0, 1, 2] : Fin 3 → Fin S8192x2048x3.rank)
  slices_S8192x2048x3_S8192x2048x2_0_0_0 : S8192x2048x3.Slices ![0, 0, 0] S8192x2048x2
  slices_S8192x2048x3_S8192x2048x1_0_0_2 : S8192x2048x3.Slices ![0, 0, 2] S8192x2048x1
  bcast_S8192x2048x1_S8192x2048x2_0_1_2 : S8192x2048x1.BroadcastsInDim S8192x2048x2 (![0, 1, 2] : Fin 3 → Fin S8192x2048x2.rank)
  reducesTo_S8192x2048x2_S8192x2048_d2 : S8192x2048x2.ReducesTo [2] S8192x2048
  reducesTo_S8192x2048_S8192_d1 : S8192x2048.ReducesTo [1] S8192
  dot_S8192x2048x3_S8192x3x3_S8192x2048x3_2_2_1_1_0_0_wf : DotDims.WF S8192x2048x3 S8192x3x3 S8192x2048x3 [2] [2] [1] [1] [0] [0]

variable [Facts₀]

def dot_S8192x2048x3_S8192x3x3_S8192x2048x3_2_2_1_1_0_0 : DotDims S8192x2048x3 S8192x3x3 S8192x2048x3 where
  lhsContracting := [2]
  rhsContracting := [2]
  lhsNonContracting := [1]
  rhsNonContracting := [1]
  lhsBatch := [0]
  rhsBatch := [0]
  wf := dot_S8192x2048x3_S8192x3x3_S8192x2048x3_2_2_1_1_0_0_wf

class Facts : Prop extends Facts₀ where

variable [Facts]
-- ==== Proof.KMainBits.lean ====
/-
  @main around its one region.  Before the region run the host operations that normalise the quaternion, build the
  predicted rotation matrices, compute the two pose losses and transpose the world points; after it, the five
  operations that average the per-sample values.  `V0` is a core's buffer contents when the region is entered (the fold
  of the operations before it over the launch memory); none of those operations writes an argument array, and the
  operations after the region write no array the region stages.
-/
import proofs.«133085_j17540646437328_1_alg».proof.Proof.Gen.Kernel.Launch
import proofs.«133085_j17540646437328_1_alg».proof.Proof.Gen.Kernel.Skeleton
import proofs.«133085_j17540646437328_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the host operations before
    the region. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

/-! ### No operation of @main allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the operations before the region, the region, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main
    [hostOps0, hostOps0_1, hostOps0_2, hostOps0_3, hostOps0_4, hostOps0_5, hostOps0_6] [hostOps1]
    (by simp only [List.Forall]
        exact ⟨hostOps0_sub, hostOps0_1_sub, hostOps0_2_sub, hostOps0_3_sub, hostOps0_4_sub, hostOps0_5_sub, hostOps0_6_sub⟩)
    (by simp only [List.Forall]
        exact ⟨hostOps0_fresh, hostOps0_1_fresh, hostOps0_2_fresh, hostOps0_3_fresh, hostOps0_4_fresh, hostOps0_5_fresh, hostOps0_6_fresh⟩)
    main_chain

/-- The operations after the region touch the region's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  -- nothing is prefetched and the arrays are unscoped, so these are all the unscoped references; a host operation
  -- names no scoped buffer
  rw [Pipeline.tailRefs_none spec0 launch0.win.arr_unscoped]
  intro ops hops op hop
  obtain rfl : ops = hostOps1 := by simpa only [List.mem_cons, List.mem_nil_iff, or_false] using hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  obtain rfl : ops = hostOps1 := by simpa only [List.mem_cons, List.mem_nil_iff, or_false] using hops
  exact (List.forall_iff_forall_mem.mp hostOps1_fresh) op hop
/-- And write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa only [List.mem_cons, List.mem_nil_iff, or_false] using hops
  -- each of the five writes its own result only (the per-sample values reshaped, two constants, their sum over the
  -- batch, the mean), and none of these is one of the six arrays the region stages
  simp only [hostOps1, List.mem_cons, List.mem_nil_iff, or_false] at hop
  rcases hop with rfl | rfl | rfl | rfl | rfl
  all_goals
    intro w
    fin_cases w <;>
      simp only [StableHlo.nullary_writes, StableHlo.binary_writes, StableHlo.reshape_writes, Finset.mem_singleton] <;>
      exact StableHlo.devRef_ne_of_ne (by decide)

/-! ## The argument arrays are as launched when the region is entered -/

/-- The six argument arrays of @main. -/
abbrev argRefs : List (Ref sig .tc) := [main_arg0, main_arg1, main_arg2, main_arg3, main_arg4, main_arg5]

/-- For a line of operations given as a literal list: every operation writes one buffer, its own result, and that
    result is none of the six arguments.  The line is split into its operations; for each, the written set is the
    singleton of the result's buffer, and the result differs from every member of `argRefs` as a reference. -/
local macro "line_keeps_args" : tactic =>
  `(tactic| (simp only [List.Forall]
             repeat' constructor
             all_goals
               intro r hr
               simp only [StableHlo.nullary_writes, StableHlo.unary_writes, StableHlo.binary_writes, StableHlo.reshape_writes,
                 StableHlo.nary_writes, Finset.mem_singleton]
               exact StableHlo.devRef_ne_of_ne (ne_of_mem_of_not_mem hr (by decide))))

theorem hostOps0_keeps : (hostOps0 : List (HloOp τ sig (Elt F))).Forall fun op => ∀ r ∈ argRefs, Proc.devRef .tc r ∉ op.writes := by
  line_keeps_args
theorem hostOps0_1_keeps : (hostOps0_1 : List (HloOp τ sig (Elt F))).Forall fun op => ∀ r ∈ argRefs, Proc.devRef .tc r ∉ op.writes := by
  line_keeps_args
theorem hostOps0_2_keeps : (hostOps0_2 : List (HloOp τ sig (Elt F))).Forall fun op => ∀ r ∈ argRefs, Proc.devRef .tc r ∉ op.writes := by
  line_keeps_args
theorem hostOps0_3_keeps : (hostOps0_3 : List (HloOp τ sig (Elt F))).Forall fun op => ∀ r ∈ argRefs, Proc.devRef .tc r ∉ op.writes := by
  line_keeps_args
theorem hostOps0_4_keeps : (hostOps0_4 : List (HloOp τ sig (Elt F))).Forall fun op => ∀ r ∈ argRefs, Proc.devRef .tc r ∉ op.writes := by
  line_keeps_args
theorem hostOps0_5_keeps : (hostOps0_5 : List (HloOp τ sig (Elt F))).Forall fun op => ∀ r ∈ argRefs, Proc.devRef .tc r ∉ op.writes := by
  line_keeps_args
theorem hostOps0_6_keeps : (hostOps0_6 : List (HloOp τ sig (Elt F))).Forall fun op => ∀ r ∈ argRefs, Proc.devRef .tc r ∉ op.writes := by
  line_keeps_args

/-- So an argument array holds its launch contents when the region is entered: a buffer that no operation of a line
    writes keeps its contents along the line, and an operation before the region lies in one of the seven lines. -/
theorem V_arg (c : Dev nD) {r : Ref sig .tc} (hr : r ∈ argRefs) : V m c r = m ((c : Thread nD τ).loc r) := by
  refine StableHlo.after_of_forall_not_mem _ _ fun op hop => ?_
  obtain ⟨ops, hops, hop⟩ := List.mem_flatten.mp hop
  simp only [List.mem_cons, List.mem_nil_iff, or_false] at hops
  rcases hops with rfl | rfl | rfl | rfl | rfl | rfl | rfl
  · exact (List.forall_iff_forall_mem.mp hostOps0_keeps) op hop r hr
  · exact (List.forall_iff_forall_mem.mp hostOps0_1_keeps) op hop r hr
  · exact (List.forall_iff_forall_mem.mp hostOps0_2_keeps) op hop r hr
  · exact (List.forall_iff_forall_mem.mp hostOps0_3_keeps) op hop r hr
  · exact (List.forall_iff_forall_mem.mp hostOps0_4_keeps) op hop r hr
  · exact (List.forall_iff_forall_mem.mp hostOps0_5_keeps) op hop r hr
  · exact (List.forall_iff_forall_mem.mp hostOps0_6_keeps) op hop r hr

theorem V_main_arg0 (c : Dev nD) : V m c main_arg0 = m ((c : Thread nD τ).loc main_arg0) := V_arg m c (by decide)
theorem V_main_arg1 (c : Dev nD) : V m c main_arg1 = m ((c : Thread nD τ).loc main_arg1) := V_arg m c (by decide)
theorem V_main_arg2 (c : Dev nD) : V m c main_arg2 = m ((c : Thread nD τ).loc main_arg2) := V_arg m c (by decide)
theorem V_main_arg3 (c : Dev nD) : V m c main_arg3 = m ((c : Thread nD τ).loc main_arg3) := V_arg m c (by decide)
theorem V_main_arg4 (c : Dev nD) : V m c main_arg4 = m ((c : Thread nD τ).loc main_arg4) := V_arg m c (by decide)
theorem V_main_arg5 (c : Dev nD) : V m c main_arg5 = m ((c : Thread nD τ).loc main_arg5) := V_arg m c (by decide)

end Cert.Kernel.HF

end
-- ==== Proof.KBodyBits.lean ====
/-
  The value the kernel body stores, as one function of the five blocks it loads: the block of world points
  (128 samples × 3 coordinates × 2048 points), the target pose's matrices, the predicted pose's matrices, the predicted
  translations and the target translations.  It is the composition of the body's named pieces in the order the body
  threads them: the coordinate differences, the matrix entries broadcast along the points, the six camera-frame
  coordinates, the four quotients, the L1 distance, its mean over the points and `nan_to_num`.
-/
import proofs.«133085_j17540646437328_1_alg».proof.Proof.Gen.Kernel.Skeleton

noncomputable section

namespace Cert.Kernel.HF

open Idealize.ShloMosaic Cert.Kernel Cert.Kernel.Gen

variable {F : FTy → Type} [FloatOps F]

/-- The stored 128×1 block from the loaded blocks `x0` (points), `x1` (target matrices), `x2` (predicted matrices),
    `x3` (predicted translations), `x4` (target translations). -/
def bodyVal (x0 : Vec F S128x3x2048 .f32) (x1 x2 : Vec F S128x3x3 .f32) (x3 x4 : Vec F S128x3 .f32) : FVec F S128x1 .f32 :=
  k0_pay1 (k0_pay10 x0 x3) (k0_pay11 x0 x3) (k0_pay12 x0 x3)
    (k0_pay21 (k0_pay13 x2)) (k0_pay22 (k0_pay13 x2)) (k0_pay23 (k0_pay13 x2))
    (k0_pay24 (k0_pay7 x0 x4) (k0_pay8 x0 x4) (k0_pay9 x0 x4) (k0_pay14 x1) (k0_pay15 x1) (k0_pay16 x1))
    (k0_pay25 (k0_pay7 x0 x4) (k0_pay8 x0 x4) (k0_pay9 x0 x4) (k0_pay17 x1) (k0_pay18 x1) (k0_pay19 x1))
    (k0_pay26 (k0_pay7 x0 x4) (k0_pay8 x0 x4) (k0_pay9 x0 x4) x1 (k0_pay20 x1))
    (k0_pay27 (k0_pay10 x0 x3) (k0_pay11 x0 x3) (k0_pay12 x0 x3) (k0_pay13 x2))
    (k0_pay28 (k0_pay10 x0 x3) (k0_pay11 x0 x3) (k0_pay13 x2))
    (k0_pay29 (k0_pay13 x2))

end Cert.Kernel.HF

end
-- ==== Proof.KFrameBits.lean ====
/-
  The frame of the program around its one region.  At every grid point the body loads the five input blocks whole,
  loads the output buffer (a value it never uses) and stores one 128×1 block, `bodyVal` of the loaded blocks; so the
  output window's buffer after the body is that block, every input window's buffer is left as fetched, and the launch
  theorem for a region followed by host operations gives the run: every staged array at what its blocks were written
  with, every other buffer as the operations after the region leave it.
-/
import proofs.«133085_j17540646437328_1_alg».proof.Proof.KMainBits
import proofs.«133085_j17540646437328_1_alg».proof.Proof.KBodyBits

set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the output window's buffer -/

abbrev rPts : Rect S128x3x2048 := Rect.unit (s := S128x3x2048) ![0, 0, 0] S128x3x2048.size inb_S128x3x2048_S128x3x2048_0_0_0
abbrev rMat : Rect S128x3x3 := Rect.unit (s := S128x3x3) ![0, 0, 0] S128x3x3.size inb_S128x3x3_S128x3x3_0_0_0
abbrev rVec : Rect S128x3 := Rect.unit (s := S128x3) ![0, 0] S128x3.size inb_S128x3_S128x3_0_0
abbrev rOut : Rect S128x1 := Rect.unit (s := S128x1) ![0, 0] S128x1.size inb_S128x1_S128x1_0_0

/-- The output window's staging buffer after the body, from the input windows' blocks: its one store as a piece. -/
def outBlk (x0 : Vec F S128x3x2048 .f32) (x1 x2 : Vec F S128x3x3 .f32) (x3 x4 : Vec F S128x3 .f32) : Vec F S128x1 .f32 :=
  View.canon [⟨rOut, bodyVal (View.ld x0 rPts) (View.ld x1 rMat) (View.ld x2 rMat) (View.ld x3 rVec) (View.ld x4 rVec)⟩]

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_5 (c : Dev nD) (t : Fin cfg0.N) :
    (dats m 0 c).after 5 t = outBlk (iblk m c 0 t) (iblk m c 1 t) (iblk m c 2 t) (iblk m c 3 t) (iblk m c 4 t) := by dsimp only [dats]

/-- What the body leaves in each input window's buffer: the block it was handed. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input window's current staging buffer holds its block at every point: the window is fetched whole, is never
    idle, and the body leaves the block in place, so what is found there is what a fetch puts there. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body's triple -/

/-- The one store is of the whole 128×1 buffer, so it covers it. -/
theorem cover_out (p0 : Vec F S128x1 .f32) (y : S128x1.Idx) :
    ∃ pc ∈ ([⟨rOut, p0⟩] : List (View.Piece (Elt F) S128x1 .f32)), y ∈ pc.1.set :=
  View.cover_of_tiled [⟨rOut, p0⟩] S128x1.size (by rfl) y

set_option maxHeartbeats 1000000 in
/-- The kernel body on whole staging memrefs, the five inputs' at contents `x0 … x4` and the output's at anything, runs
    to the continuation holding the inputs' as they were and the output's at `outBlk` of the inputs': five whole loads,
    a load of the output buffer whose value goes nowhere, and one whole store of the composed value. -/
theorem sound_kernel (c : Dev nD) (E : Set ℕ) (i : grid0.Coords)
    (arg1 : Memref sig .tc .vmem S128x3x2048 .f32) (harg1 : arg1.IsWhole)
    (arg2 : Memref sig .tc .vmem S128x3x3 .f32) (harg2 : arg2.IsWhole)
    (arg3 : Memref sig .tc .vmem S128x3x3 .f32) (harg3 : arg3.IsWhole)
    (arg4 : Memref sig .tc .vmem S128x3 .f32) (harg4 : arg4.IsWhole)
    (arg5 : Memref sig .tc .vmem S128x3 .f32) (harg5 : arg5.IsWhole)
    (arg6 : Memref sig .tc .vmem S128x1 .f32) (harg6 : arg6.IsWhole)
    (x0 : Vec F S128x3x2048 .f32) (x1 x2 : Vec F S128x3x3 .f32) (x3 x4 : Vec F S128x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4)) -∗ K ⟨⟩))
      ⊢ wp frame (wpE (defs₀ (F := F)) Variants.none c none) E
          (cc0__reproj_kernel i arg1 harg1 arg2 harg2 arg3 harg3 arg4 harg4 arg5 harg5 arg6 harg6) K := by
  simp only [cc0__reproj_kernel_eq_skeleton]; unfold cc0__reproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The body obligation, at a generic point -/

/-- What the body is called with at point `t`: the invariant, the core's debt, and each window's current staging
    memref whole — an input's at what the pipeline put there, the output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the same with every memref at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- The run: every staged array at what the library computes from the proof data, every other unscoped buffer as the
    operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The argument arrays at the end -/

/-- The five buffers the operations after the region write: the flattened per-sample values, the two scalar constants,
    the sum and the mean. -/
def tailWrites : List (Ref sig .tc) := [main_v87, main_cst_16, main_v88, main_cst_17, main_v89]

/-- Every operation after the region writes one of them. -/
theorem tail_writes_sub : (([hostOps1] : List (List (HloOp τ sig (Elt F)))).flatten).Forall
    fun op => op.writes ⊆ (tailWrites.map (Proc.devRef (τ := τ) .tc)).toFinset := by
  simp only [hostOps1, List.flatten_cons, List.flatten_nil, List.append_nil, List.Forall, StableHlo.nullary_writes,
    StableHlo.binary_writes, StableHlo.reshape_writes, Finset.singleton_subset_iff, List.mem_toFinset]
  repeat' apply And.intro
  all_goals exact List.mem_map_of_mem (by decide)

/-- A buffer that is no array of the region and is written by no operation after it ends at its region-entry
    contents. -/
theorem tail_keeps (c : Dev nD) (b : Ref sig .tc) (hb : b ∉ tailWrites) (ha : ∀ w, Pipeline.arrRef spec0 w ≠ b) :
    Pipeline.afterTail₀ cfgs (dats m) 0 (V0 m) [hostOps1] c b = V m c b := by
  unfold Pipeline.afterTail₀
  rw [StableHlo.after_of_writes_sub _ _ tail_writes_sub hb, Pipeline.withArrays_of_ne _ c (V0 m c) _ b ha]

/-- The run's post read at the six argument arrays: the two the region stages as inputs (the target matrices and the
    predicted translations) are at their entry contents because an input array is never written back; the other four
    bypass the region and no later operation writes them; and at the region's entry every argument array is as launched. -/
theorem kept_of_post (r : PUnit × MemSt nD τ sig (Elt F))
    (h : Pipeline.FramePost cfgs (dats m) 0 (Pipeline.afterTail₀ cfgs (dats m) 0 (V0 m) [hostOps1]) r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := fun c =>
  ⟨((h c).1 3).trans (((dats m 0 c).arrAt_in 3 rfl _).trans ((A_eq m c 3).trans (V_main_arg0 m c))),
    ((h c).2 main_arg1 (Pipeline.mem_restRefs_of main_arg1 (by decide) (by decide))).trans
      ((tail_keeps m c main_arg1 (by decide) (by decide)).trans (V_main_arg1 m c)),
    ((h c).2 main_arg2 (Pipeline.mem_restRefs_of main_arg2 (by decide) (by decide))).trans
      ((tail_keeps m c main_arg2 (by decide) (by decide)).trans (V_main_arg2 m c)),
    ((h c).2 main_arg3 (Pipeline.mem_restRefs_of main_arg3 (by decide) (by decide))).trans
      ((tail_keeps m c main_arg3 (by decide) (by decide)).trans (V_main_arg3 m c)),
    ((h c).1 1).trans (((dats m 0 c).arrAt_in 1 rfl _).trans ((A_eq m c 1).trans (V_main_arg4 m c))),
    ((h c).2 main_arg5 (Pipeline.mem_restRefs_of main_arg5 (by decide) (by decide))).trans
      ((tail_keeps m c main_arg5 (by decide) (by decide)).trans (V_main_arg5 m c))⟩

/-- The frame: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h => kept_of_post m r h) (run_main m ρ)

end Cert.Kernel.HF

end
-- ==== Proof.KMain.lean ====
/-
  @main around its one region.  Before the region run the host operations that normalise the quaternion, build the
  predicted rotation matrices, compute the two pose losses and transpose the world points; after it, the five
  operations that average the per-sample values.  `V0` is a core's buffer contents when the region is entered (the fold
  of the operations before it over the launch memory); none of those operations writes an argument array, and the
  operations after the region write no array the region stages.
-/
import proofs.«133085_j17540646437328_1_alg».proof.Proof.Gen.KernelIdeal.Launch
import proofs.«133085_j17540646437328_1_alg».proof.Proof.Gen.KernelIdeal.Skeleton
import proofs.«133085_j17540646437328_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the host operations before
    the region. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

/-! ### No operation of @main allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the operations before the region, the region, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main
    [hostOps0, hostOps0_1, hostOps0_2, hostOps0_3, hostOps0_4, hostOps0_5, hostOps0_6] [hostOps1]
    (by simp only [List.Forall]
        exact ⟨hostOps0_sub, hostOps0_1_sub, hostOps0_2_sub, hostOps0_3_sub, hostOps0_4_sub, hostOps0_5_sub, hostOps0_6_sub⟩)
    (by simp only [List.Forall]
        exact ⟨hostOps0_fresh, hostOps0_1_fresh, hostOps0_2_fresh, hostOps0_3_fresh, hostOps0_4_fresh, hostOps0_5_fresh, hostOps0_6_fresh⟩)
    main_chain

/-- The operations after the region touch the region's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  -- nothing is prefetched and the arrays are unscoped, so these are all the unscoped references; a host operation
  -- names no scoped buffer
  rw [Pipeline.tailRefs_none spec0 launch0.win.arr_unscoped]
  intro ops hops op hop
  obtain rfl : ops = hostOps1 := by simpa only [List.mem_cons, List.mem_nil_iff, or_false] using hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  obtain rfl : ops = hostOps1 := by simpa only [List.mem_cons, List.mem_nil_iff, or_false] using hops
  exact (List.forall_iff_forall_mem.mp hostOps1_fresh) op hop
/-- And write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa only [List.mem_cons, List.mem_nil_iff, or_false] using hops
  -- each of the five writes its own result only (the per-sample values reshaped, two constants, their sum over the
  -- batch, the mean), and none of these is one of the six arrays the region stages
  simp only [hostOps1, List.mem_cons, List.mem_nil_iff, or_false] at hop
  rcases hop with rfl | rfl | rfl | rfl | rfl
  all_goals
    intro w
    fin_cases w <;>
      simp only [StableHlo.nullary_writes, StableHlo.binary_writes, StableHlo.reshape_writes, Finset.mem_singleton] <;>
      exact StableHlo.devRef_ne_of_ne (by decide)

/-! ## The argument arrays are as launched when the region is entered -/

/-- The six argument arrays of @main. -/
abbrev argRefs : List (Ref sig .tc) := [main_arg0, main_arg1, main_arg2, main_arg3, main_arg4, main_arg5]

/-- For a line of operations given as a literal list: every operation writes one buffer, its own result, and that
    result is none of the six arguments.  The line is split into its operations; for each, the written set is the
    singleton of the result's buffer, and the result differs from every member of `argRefs` as a reference. -/
local macro "line_keeps_args" : tactic =>
  `(tactic| (simp only [List.Forall]
             repeat' constructor
             all_goals
               intro r hr
               simp only [StableHlo.nullary_writes, StableHlo.unary_writes, StableHlo.binary_writes, StableHlo.reshape_writes,
                 StableHlo.nary_writes, Finset.mem_singleton]
               exact StableHlo.devRef_ne_of_ne (ne_of_mem_of_not_mem hr (by decide))))

theorem hostOps0_keeps : (hostOps0 : List (HloOp τ sig (Elt F))).Forall fun op => ∀ r ∈ argRefs, Proc.devRef .tc r ∉ op.writes := by
  line_keeps_args
theorem hostOps0_1_keeps : (hostOps0_1 : List (HloOp τ sig (Elt F))).Forall fun op => ∀ r ∈ argRefs, Proc.devRef .tc r ∉ op.writes := by
  line_keeps_args
theorem hostOps0_2_keeps : (hostOps0_2 : List (HloOp τ sig (Elt F))).Forall fun op => ∀ r ∈ argRefs, Proc.devRef .tc r ∉ op.writes := by
  line_keeps_args
theorem hostOps0_3_keeps : (hostOps0_3 : List (HloOp τ sig (Elt F))).Forall fun op => ∀ r ∈ argRefs, Proc.devRef .tc r ∉ op.writes := by
  line_keeps_args
theorem hostOps0_4_keeps : (hostOps0_4 : List (HloOp τ sig (Elt F))).Forall fun op => ∀ r ∈ argRefs, Proc.devRef .tc r ∉ op.writes := by
  line_keeps_args
theorem hostOps0_5_keeps : (hostOps0_5 : List (HloOp τ sig (Elt F))).Forall fun op => ∀ r ∈ argRefs, Proc.devRef .tc r ∉ op.writes := by
  line_keeps_args
theorem hostOps0_6_keeps : (hostOps0_6 : List (HloOp τ sig (Elt F))).Forall fun op => ∀ r ∈ argRefs, Proc.devRef .tc r ∉ op.writes := by
  line_keeps_args

/-- So an argument array holds its launch contents when the region is entered: a buffer that no operation of a line
    writes keeps its contents along the line, and an operation before the region lies in one of the seven lines. -/
theorem V_arg (c : Dev nD) {r : Ref sig .tc} (hr : r ∈ argRefs) : V m c r = m ((c : Thread nD τ).loc r) := by
  refine StableHlo.after_of_forall_not_mem _ _ fun op hop => ?_
  obtain ⟨ops, hops, hop⟩ := List.mem_flatten.mp hop
  simp only [List.mem_cons, List.mem_nil_iff, or_false] at hops
  rcases hops with rfl | rfl | rfl | rfl | rfl | rfl | rfl
  · exact (List.forall_iff_forall_mem.mp hostOps0_keeps) op hop r hr
  · exact (List.forall_iff_forall_mem.mp hostOps0_1_keeps) op hop r hr
  · exact (List.forall_iff_forall_mem.mp hostOps0_2_keeps) op hop r hr
  · exact (List.forall_iff_forall_mem.mp hostOps0_3_keeps) op hop r hr
  · exact (List.forall_iff_forall_mem.mp hostOps0_4_keeps) op hop r hr
  · exact (List.forall_iff_forall_mem.mp hostOps0_5_keeps) op hop r hr
  · exact (List.forall_iff_forall_mem.mp hostOps0_6_keeps) op hop r hr

theorem V_main_arg0 (c : Dev nD) : V m c main_arg0 = m ((c : Thread nD τ).loc main_arg0) := V_arg m c (by decide)
theorem V_main_arg1 (c : Dev nD) : V m c main_arg1 = m ((c : Thread nD τ).loc main_arg1) := V_arg m c (by decide)
theorem V_main_arg2 (c : Dev nD) : V m c main_arg2 = m ((c : Thread nD τ).loc main_arg2) := V_arg m c (by decide)
theorem V_main_arg3 (c : Dev nD) : V m c main_arg3 = m ((c : Thread nD τ).loc main_arg3) := V_arg m c (by decide)
theorem V_main_arg4 (c : Dev nD) : V m c main_arg4 = m ((c : Thread nD τ).loc main_arg4) := V_arg m c (by decide)
theorem V_main_arg5 (c : Dev nD) : V m c main_arg5 = m ((c : Thread nD τ).loc main_arg5) := V_arg m c (by decide)

end Cert.KernelIdeal.HF

end
-- ==== Proof.KBody.lean ====
/-
  The value the kernel body stores, as one function of the five blocks it loads: the block of world points
  (128 samples × 3 coordinates × 2048 points), the target pose's matrices, the predicted pose's matrices, the predicted
  translations and the target translations.  It is the composition of the body's named pieces in the order the body
  threads them: the coordinate differences, the matrix entries broadcast along the points, the six camera-frame
  coordinates, the four quotients, the L1 distance, its mean over the points and `nan_to_num`.
-/
import proofs.«133085_j17540646437328_1_alg».proof.Proof.Gen.KernelIdeal.Skeleton

noncomputable section

namespace Cert.KernelIdeal.HF

open Idealize.ShloMosaic Cert.KernelIdeal Cert.KernelIdeal.Gen

variable {F : FTy → Type} [FloatOps F]

/-- The stored 128×1 block from the loaded blocks `x0` (points), `x1` (target matrices), `x2` (predicted matrices),
    `x3` (predicted translations), `x4` (target translations). -/
def bodyVal (x0 : Vec F S128x3x2048 .f32) (x1 x2 : Vec F S128x3x3 .f32) (x3 x4 : Vec F S128x3 .f32) : FVec F S128x1 .f32 :=
  k0_pay1 (k0_pay10 x0 x3) (k0_pay11 x0 x3) (k0_pay12 x0 x3)
    (k0_pay21 (k0_pay13 x2)) (k0_pay22 (k0_pay13 x2)) (k0_pay23 (k0_pay13 x2))
    (k0_pay24 (k0_pay7 x0 x4) (k0_pay8 x0 x4) (k0_pay9 x0 x4) (k0_pay14 x1) (k0_pay15 x1) (k0_pay16 x1))
    (k0_pay25 (k0_pay7 x0 x4) (k0_pay8 x0 x4) (k0_pay9 x0 x4) (k0_pay17 x1) (k0_pay18 x1) (k0_pay19 x1))
    (k0_pay26 (k0_pay7 x0 x4) (k0_pay8 x0 x4) (k0_pay9 x0 x4) x1 (k0_pay20 x1))
    (k0_pay27 (k0_pay10 x0 x3) (k0_pay11 x0 x3) (k0_pay12 x0 x3) (k0_pay13 x2))
    (k0_pay28 (k0_pay10 x0 x3) (k0_pay11 x0 x3) (k0_pay13 x2))
    (k0_pay29 (k0_pay13 x2))

end Cert.KernelIdeal.HF

end
-- ==== Proof.KFrame.lean ====
/-
  The frame of the program around its one region.  At every grid point the body loads the five input blocks whole,
  loads the output buffer (a value it never uses) and stores one 128×1 block, `bodyVal` of the loaded blocks; so the
  output window's buffer after the body is that block, every input window's buffer is left as fetched, and the launch
  theorem for a region followed by host operations gives the run: every staged array at what its blocks were written
  with, every other buffer as the operations after the region leave it.
-/
import proofs.«133085_j17540646437328_1_alg».proof.Proof.KMain
import proofs.«133085_j17540646437328_1_alg».proof.Proof.KBody

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the output window's buffer -/

abbrev rPts : Rect S128x3x2048 := Rect.unit (s := S128x3x2048) ![0, 0, 0] S128x3x2048.size inb_S128x3x2048_S128x3x2048_0_0_0
abbrev rMat : Rect S128x3x3 := Rect.unit (s := S128x3x3) ![0, 0, 0] S128x3x3.size inb_S128x3x3_S128x3x3_0_0_0
abbrev rVec : Rect S128x3 := Rect.unit (s := S128x3) ![0, 0] S128x3.size inb_S128x3_S128x3_0_0
abbrev rOut : Rect S128x1 := Rect.unit (s := S128x1) ![0, 0] S128x1.size inb_S128x1_S128x1_0_0

/-- The output window's staging buffer after the body, from the input windows' blocks: its one store as a piece. -/
def outBlk (x0 : Vec F S128x3x2048 .f32) (x1 x2 : Vec F S128x3x3 .f32) (x3 x4 : Vec F S128x3 .f32) : Vec F S128x1 .f32 :=
  View.canon [⟨rOut, bodyVal (View.ld x0 rPts) (View.ld x1 rMat) (View.ld x2 rMat) (View.ld x3 rVec) (View.ld x4 rVec)⟩]

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_5 (c : Dev nD) (t : Fin cfg0.N) :
    (dats m 0 c).after 5 t = outBlk (iblk m c 0 t) (iblk m c 1 t) (iblk m c 2 t) (iblk m c 3 t) (iblk m c 4 t) := by dsimp only [dats]

/-- What the body leaves in each input window's buffer: the block it was handed. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input window's current staging buffer holds its block at every point: the window is fetched whole, is never
    idle, and the body leaves the block in place, so what is found there is what a fetch puts there. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body's triple -/

/-- The one store is of the whole 128×1 buffer, so it covers it. -/
theorem cover_out (p0 : Vec F S128x1 .f32) (y : S128x1.Idx) :
    ∃ pc ∈ ([⟨rOut, p0⟩] : List (View.Piece (Elt F) S128x1 .f32)), y ∈ pc.1.set :=
  View.cover_of_tiled [⟨rOut, p0⟩] S128x1.size (by rfl) y

set_option maxHeartbeats 1000000 in
/-- The kernel body on whole staging memrefs, the five inputs' at contents `x0 … x4` and the output's at anything, runs
    to the continuation holding the inputs' as they were and the output's at `outBlk` of the inputs': five whole loads,
    a load of the output buffer whose value goes nowhere, and one whole store of the composed value. -/
theorem sound_kernel (c : Dev nD) (E : Set ℕ) (i : grid0.Coords)
    (arg1 : Memref sig .tc .vmem S128x3x2048 .f32) (harg1 : arg1.IsWhole)
    (arg2 : Memref sig .tc .vmem S128x3x3 .f32) (harg2 : arg2.IsWhole)
    (arg3 : Memref sig .tc .vmem S128x3x3 .f32) (harg3 : arg3.IsWhole)
    (arg4 : Memref sig .tc .vmem S128x3 .f32) (harg4 : arg4.IsWhole)
    (arg5 : Memref sig .tc .vmem S128x3 .f32) (harg5 : arg5.IsWhole)
    (arg6 : Memref sig .tc .vmem S128x1 .f32) (harg6 : arg6.IsWhole)
    (x0 : Vec F S128x3x2048 .f32) (x1 x2 : Vec F S128x3x3 .f32) (x3 x4 : Vec F S128x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4)) -∗ K ⟨⟩))
      ⊢ wp frame (wpE (defs₀ (F := F)) Variants.none c none) E
          (cc0__reproj_kernel i arg1 harg1 arg2 harg2 arg3 harg3 arg4 harg4 arg5 harg5 arg6 harg6) K := by
  simp only [cc0__reproj_kernel_eq_skeleton]; unfold cc0__reproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The body obligation, at a generic point -/

/-- What the body is called with at point `t`: the invariant, the core's debt, and each window's current staging
    memref whole — an input's at what the pipeline put there, the output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the same with every memref at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- The run: every staged array at what the library computes from the proof data, every other unscoped buffer as the
    operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The argument arrays at the end -/

/-- The five buffers the operations after the region write: the flattened per-sample values, the two scalar constants,
    the sum and the mean. -/
def tailWrites : List (Ref sig .tc) := [main_v87, main_cst_16, main_v88, main_cst_17, main_v89]

/-- Every operation after the region writes one of them. -/
theorem tail_writes_sub : (([hostOps1] : List (List (HloOp τ sig (Elt F)))).flatten).Forall
    fun op => op.writes ⊆ (tailWrites.map (Proc.devRef (τ := τ) .tc)).toFinset := by
  simp only [hostOps1, List.flatten_cons, List.flatten_nil, List.append_nil, List.Forall, StableHlo.nullary_writes,
    StableHlo.binary_writes, StableHlo.reshape_writes, Finset.singleton_subset_iff, List.mem_toFinset]
  repeat' apply And.intro
  all_goals exact List.mem_map_of_mem (by decide)

/-- A buffer that is no array of the region and is written by no operation after it ends at its region-entry
    contents. -/
theorem tail_keeps (c : Dev nD) (b : Ref sig .tc) (hb : b ∉ tailWrites) (ha : ∀ w, Pipeline.arrRef spec0 w ≠ b) :
    Pipeline.afterTail₀ cfgs (dats m) 0 (V0 m) [hostOps1] c b = V m c b := by
  unfold Pipeline.afterTail₀
  rw [StableHlo.after_of_writes_sub _ _ tail_writes_sub hb, Pipeline.withArrays_of_ne _ c (V0 m c) _ b ha]

/-- The run's post read at the six argument arrays: the two the region stages as inputs (the target matrices and the
    predicted translations) are at their entry contents because an input array is never written back; the other four
    bypass the region and no later operation writes them; and at the region's entry every argument array is as launched. -/
theorem kept_of_post (r : PUnit × MemSt nD τ sig (Elt F))
    (h : Pipeline.FramePost cfgs (dats m) 0 (Pipeline.afterTail₀ cfgs (dats m) 0 (V0 m) [hostOps1]) r) : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := fun c =>
  ⟨((h c).1 3).trans (((dats m 0 c).arrAt_in 3 rfl _).trans ((A_eq m c 3).trans (V_main_arg0 m c))),
    ((h c).2 main_arg1 (Pipeline.mem_restRefs_of main_arg1 (by decide) (by decide))).trans
      ((tail_keeps m c main_arg1 (by decide) (by decide)).trans (V_main_arg1 m c)),
    ((h c).2 main_arg2 (Pipeline.mem_restRefs_of main_arg2 (by decide) (by decide))).trans
      ((tail_keeps m c main_arg2 (by decide) (by decide)).trans (V_main_arg2 m c)),
    ((h c).2 main_arg3 (Pipeline.mem_restRefs_of main_arg3 (by decide) (by decide))).trans
      ((tail_keeps m c main_arg3 (by decide) (by decide)).trans (V_main_arg3 m c)),
    ((h c).1 1).trans (((dats m 0 c).arrAt_in 1 rfl _).trans ((A_eq m c 1).trans (V_main_arg4 m c))),
    ((h c).2 main_arg5 (Pipeline.mem_restRefs_of main_arg5 (by decide) (by decide))).trans
      ((tail_keeps m c main_arg5 (by decide) (by decide)).trans (V_main_arg5 m c))⟩

/-- The frame: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h => kept_of_post m r h) (run_main m ρ)

end Cert.KernelIdeal.HF

end
-- ==== Proof.Spec.lean ====
/-
  The mathematics both programs compute, stated once over plain index types.

  A sample is a batch entry: two poses (a 3×3 matrix with a translation each) and 2048 world points.  A point `w` seen
  from a pose `(M, x)` has the camera-frame coordinates `cam M x w i = Σ_j M i j · (w j − x j)`; it is projected by
  dividing the first two coordinates by the third; the per-point error is the L1 distance of the two projections, and
  the per-sample value is the mean of that over the points, passed through `nan_to_num`.

  The extended reals have no NaN, so `nan_to_num` only replaces the two infinities by the largest finite floats.  The
  sums here are finite sums in an additive commutative monoid, so their order and grouping are free; no law that needs
  finiteness (distributivity, cancellation) is used anywhere, and the precondition is never opened.
-/
import Idealize.ShloMosaic.PureOps.Ideal
import Idealize.ShloMosaic.PureOps.Ideal.Laws
import Idealize.ShloMosaic.Lib.ValueIdx

noncomputable section

namespace Cert.Reproj

open Idealize.ShloMosaic

/-- Camera-frame coordinate `i` of the world point `w` seen from the pose `(M, x)`, the three products added left to
    right. -/
def cam (M : Fin 3 → Fin 3 → EReal) (x w : Fin 3 → EReal) (i : Fin 3) : EReal :=
  M i 0 * (w 0 - x 0) + M i 1 * (w 1 - x 1) + M i 2 * (w 2 - x 2)

/-- The same coordinate as a sum over the contracted axis with the factors in the other order. -/
def camSum (M : Fin 3 → Fin 3 → EReal) (x w : Fin 3 → EReal) (i : Fin 3) : EReal :=
  ∑ j : Fin 3, (w j - x j) * M i j

theorem camSum_eq_cam (M : Fin 3 → Fin 3 → EReal) (x w : Fin 3 → EReal) (i : Fin 3) : camSum M x w i = cam M x w i := by
  unfold camSum cam
  rw [Fin.sum_univ_three, mul_comm (w 0 - x 0), mul_comm (w 1 - x 1), mul_comm (w 2 - x 2)]

/-- Projected coordinate `k`: the quotient by the third camera-frame coordinate. -/
def proj (M : Fin 3 → Fin 3 → EReal) (x w : Fin 3 → EReal) (k : Fin 3) : EReal :=
  Ideal.div (cam M x w k) (cam M x w 2)

/-- Absolute value on the extended reals. -/
def eabs (a : EReal) : EReal := max a (-a)

/-- L1 distance between the projections of `w` from the pose `(R, px)` and from the pose `(c, tx)`. -/
def dist (c R : Fin 3 → Fin 3 → EReal) (tx px w : Fin 3 → EReal) : EReal :=
  eabs (proj R px w 0 - proj c tx w 0) + eabs (proj R px w 1 - proj c tx w 1)

/-- `nan_to_num` on an extended real: the NaN test is never true, `+∞` becomes the largest finite float and `−∞` the
    smallest. -/
def ntn (x : EReal) : EReal :=
  let a := Scalar.select (Ideal.cmp .one x x) (Ideal.ofBits .f32 0x00000000#32) x
  let b := Scalar.select (Ideal.cmp .oeq a (Ideal.ofBits .f32 0x7F800000#32)) (Ideal.ofBits .f32 0x7F7FFFFF#32) a
  Scalar.select (Ideal.cmp .oeq b (Ideal.ofBits .f32 0xFF800000#32)) (Ideal.ofBits .f32 0xFF7FFFFF#32) b

/-- The unordered not-equal test is the ordered one: nothing is unordered. -/
theorem cmp_une (x y : EReal) : Ideal.cmp .une x y = Ideal.cmp .one x y := rfl

/-- The per-sample value: the mean over the 2048 points of the L1 distance, through `nan_to_num`. -/
def perSample (c R : Fin 3 → Fin 3 → EReal) (tx px : Fin 3 → EReal) (w : Fin 2048 → Fin 3 → EReal) : EReal :=
  ntn (Ideal.div (∑ n : Fin 2048, dist c R tx px (w n)) (Ideal.ofBits .f32 0x45000000#32))

/-- The two-term sum from the float zero, as the reference's reduction over the last axis of extent 2 spells the L1
    distance. -/
theorem dist_eq_sum (c R : Fin 3 → Fin 3 → EReal) (tx px w : Fin 3 → EReal) (e : Fin 2 → EReal)
    (h0 : e 0 = eabs (proj R px w 0 - proj c tx w 0)) (h1 : e 1 = eabs (proj R px w 1 - proj c tx w 1)) :
    Ideal.ofBits .f32 0x00000000#32 + ∑ k : Fin 2, e k = dist c R tx px w := by
  rw [Ideal.ofBits_zero_f32, zero_add, Fin.sum_univ_two, h0, h1]; rfl

/-- The sum over the points from the float zero is the plain sum. -/
theorem zero_add_sum (f : Fin 2048 → EReal) : Ideal.ofBits .f32 0x00000000#32 + ∑ n : Fin 2048, f n = ∑ n : Fin 2048, f n := by
  rw [Ideal.ofBits_zero_f32, zero_add]

end Cert.Reproj

end
-- ==== Proof.KPay.lean ====
/-
  The value the kernel body stores, read at one sample.

  The body loads a block of 128 samples: 2048 world points each, two poses (a 3×3 matrix and a translation each).  For
  the sample in row `r` of the block, the stored value is the mean over the 2048 points of the L1 distance between the
  two pinhole projections of the point, passed through `nan_to_num`: exactly `Cert.Reproj.perSample` of that row's
  matrices, translations and points.

  The proof reads every piece of the body at a row `r` and a point `n`.  The pointwise operations read through
  element by element; a slice that keeps one coordinate or one matrix entry reads the operand at that coordinate; a
  shape cast that drops or adds a unit axis reads the operand at the same row-major position; a broadcast of a column
  along the points reads the column at the row; and the sum over the points is the finite sum of the summand over the
  point coordinate.  After these readings both sides are the same expression: the body multiplies matrix entry by
  coordinate difference and adds the three products left to right, as `cam` does, divides by the third camera
  coordinate as `proj` does, and subtracts the target's projection from the predicted one as `dist` does.
-/
import proofs.«133085_j17540646437328_1_alg».proof.Proof.KBody
import proofs.«133085_j17540646437328_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HF

open Idealize.ShloMosaic Idealize.ShloMosaic.ValueIdx Cert.KernelIdeal Cert.KernelIdeal.Gen

/-! ## Layout operations at a row and a point -/

section Layout
variable {α : Type}

/-- An `[a, 1, b]` array cast to `[a, b]` reads, at `(i, j)`, the operand at `(i, 0, j)`: the two positions have the
    same row-major rank. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, 1, 1]` array cast to `[a, 1]` reads, at `(i, u)`, the operand at `(i, 0, 0)`. -/
theorem shapeCast_a11_a1_apply {a : ℕ} (x : (⟨3, ![a, 1, 1]⟩ : Shape).Idx → α)
    (h : (⟨3, ![a, 1, 1]⟩ : Shape).ShapeCasts ⟨2, ![a, 1]⟩) (i : Fin a) (u : Fin 1) :
    shapeCast ⟨2, ![a, 1]⟩ x h (ix2 i u) = x (ix3 i (0 : Fin 1) (0 : Fin 1)) :=
  shapeCast_apply x h _ _ (by
    have hu : u.val = 0 := by omega
    rw [Shape.rowMajor_val_three, Shape.rowMajor_val_two]
    show (i.val * 1 + 0) * 1 + 0 = i.val * 1 + u.val
    omega)

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast along `b` points reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A `[a, m, m']` array cut to one entry `(p, q)` of each `m × m'` matrix reads, at `(i, 0, 0)`, the operand at
    `(i, p, q)`. -/
theorem slice3_entry_apply {a m m' : ℕ} (o o' : ℕ) (X : (⟨3, ![a, m, m']⟩ : Shape).Idx → α)
    (h : (⟨3, ![a, m, m']⟩ : Shape).Slices ![0, o, o'] ⟨3, ![a, 1, 1]⟩)
    (i : Fin a) (u u' : Fin 1) (p : Fin m) (q : Fin m') (hp : p.val = o) (hq : q.val = o') :
    extractStridedSlice ⟨3, ![a, 1, 1]⟩ ![0, o, o'] X h (ix3 i u u') = X (ix3 i p q) :=
  extractStridedSlice_apply _ _ _ _ _ (fun ax => by
    match ax with
    | ⟨0, _⟩ => exact (Nat.zero_add _).symm
    | ⟨1, _⟩ => show p.val = o + u.val; omega
    | ⟨2, _⟩ => show q.val = o' + u'.val; omega)

end Layout

/-! ## The sum over the points at a row -/

/-- The sum of an `[a, b]` array over its second axis reads, at row `i`, the finite sum over the second coordinate. -/
theorem sum_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction (F := Ideal) .add [1] ⟨1, ![a]⟩ src 0x00000000#32 h hφ hacc (ix1 i) = ∑ k : Fin b, src (ix2 i k) := by
  refine (Ideal.multiReduction_add_single src 0x00000000#32 h hφ hacc (ix1 i)).trans ?_
  show ∑ k : Fin b, src (h.lift (ix1 i) k) = ∑ k : Fin b, src (ix2 i k)
  refine Finset.sum_congr rfl fun k _ => congrArg src (funext fun c => ?_)
  match c with
  | ⟨0, _⟩ => exact Fin.ext rfl
  | ⟨1, _⟩ => exact Fin.ext rfl

/-! ## The body's pieces at a row and a point -/

section Pieces
variable (x0 : Vec Ideal S128x3x2048 .f32) (M : Vec Ideal S128x3x3 .f32) (t : Vec Ideal S128x3 .f32)
variable (r : Fin 128) (n : Fin 2048)

/-- The first coordinates of the points. -/
theorem pay3_apply : k0_pay3 (F := Ideal) x0 (ix2 r n) = x0 (ix3 r (0 : Fin 3) n) := by
  unfold k0_pay3 k0_pay2
  exact (shapeCast_a1b_ab_apply _ _ r n).trans
    ((slice3_axis1_apply 0 _ _ r (0 : Fin 1) n (0 : Fin 3) rfl).trans (congrFun (shapeCast_self x0 _) _))

/-- The second coordinates of the points. -/
theorem pay4_apply : k0_pay4 (F := Ideal) x0 (ix2 r n) = x0 (ix3 r (1 : Fin 3) n) := by
  unfold k0_pay4 k0_pay2
  exact (shapeCast_a1b_ab_apply _ _ r n).trans
    ((slice3_axis1_apply 1 _ _ r (0 : Fin 1) n (1 : Fin 3) rfl).trans (congrFun (shapeCast_self x0 _) _))

/-- The third coordinates of the points. -/
theorem pay5_apply : k0_pay5 (F := Ideal) x0 (ix2 r n) = x0 (ix3 r (2 : Fin 3) n) := by
  unfold k0_pay5 k0_pay2
  exact (shapeCast_a1b_ab_apply _ _ r n).trans
    ((slice3_axis1_apply 2 _ _ r (0 : Fin 1) n (2 : Fin 3) rfl).trans (congrFun (shapeCast_self x0 _) _))

/-- A translation's coordinate `c`, kept as a column and broadcast along the points, reads the translation of row `r`
    at `c`. -/
theorem col_bcast_apply (o : ℕ) (c : Fin 3) (hc : c.val = o) (h : S128x3.Slices ![0, o] S128x1)
    (hb : S128x1.Broadcasts S128x2048) :
    broadcastTo S128x2048 (extractStridedSlice S128x1 ![0, o] t h) hb (ix2 r n) = t (ix2 r c) :=
  (broadcastTo_a1_ab_apply _ _ r n).trans (slice2_axis1_apply o t h r (0 : Fin 1) c (by rw [hc]; rfl))

/-- The same through the identity shape cast the body puts on the target translations. -/
theorem pay6_apply (i : S128x3.Idx) : k0_pay6 (F := Ideal) t i = t i := by
  unfold k0_pay6
  exact congrFun (shapeCast_self t _) i

/-- First coordinate of a point minus the target translation's. -/
theorem pay7_apply : k0_pay7 (F := Ideal) x0 t (ix2 r n) = (x0 (ix3 r (0 : Fin 3) n) : EReal) - t (ix2 r (0 : Fin 3)) := by
  unfold k0_pay7
  exact congrArg₂ (fun a b : EReal => a - b) (pay3_apply x0 r n)
    ((col_bcast_apply _ r n 0 0 rfl _ _).trans (pay6_apply t _))

/-- Second coordinate of a point minus the target translation's. -/
theorem pay8_apply : k0_pay8 (F := Ideal) x0 t (ix2 r n) = (x0 (ix3 r (1 : Fin 3) n) : EReal) - t (ix2 r (1 : Fin 3)) := by
  unfold k0_pay8
  exact congrArg₂ (fun a b : EReal => a - b) (pay4_apply x0 r n)
    ((col_bcast_apply _ r n 1 1 rfl _ _).trans (pay6_apply t _))

/-- Third coordinate of a point minus the target translation's. -/
theorem pay9_apply : k0_pay9 (F := Ideal) x0 t (ix2 r n) = (x0 (ix3 r (2 : Fin 3) n) : EReal) - t (ix2 r (2 : Fin 3)) := by
  unfold k0_pay9
  exact congrArg₂ (fun a b : EReal => a - b) (pay5_apply x0 r n)
    ((col_bcast_apply _ r n 2 2 rfl _ _).trans (pay6_apply t _))

/-- First coordinate of a point minus the predicted translation's. -/
theorem pay10_apply : k0_pay10 (F := Ideal) x0 t (ix2 r n) = (x0 (ix3 r (0 : Fin 3) n) : EReal) - t (ix2 r (0 : Fin 3)) := by
  unfold k0_pay10
  exact congrArg₂ (fun a b : EReal => a - b) (pay3_apply x0 r n) (col_bcast_apply t r n 0 0 rfl _ _)

/-- Second coordinate of a point minus the predicted translation's. -/
theorem pay11_apply : k0_pay11 (F := Ideal) x0 t (ix2 r n) = (x0 (ix3 r (1 : Fin 3) n) : EReal) - t (ix2 r (1 : Fin 3)) := by
  unfold k0_pay11
  exact congrArg₂ (fun a b : EReal => a - b) (pay4_apply x0 r n) (col_bcast_apply t r n 1 1 rfl _ _)

/-- Third coordinate of a point minus the predicted translation's. -/
theorem pay12_apply : k0_pay12 (F := Ideal) x0 t (ix2 r n) = (x0 (ix3 r (2 : Fin 3) n) : EReal) - t (ix2 r (2 : Fin 3)) := by
  unfold k0_pay12
  exact congrArg₂ (fun a b : EReal => a - b) (pay5_apply x0 r n) (col_bcast_apply t r n 2 2 rfl _ _)

/-- The identity shape cast the body puts on the predicted matrices. -/
theorem pay13_apply (i : S128x3x3.Idx) : k0_pay13 (F := Ideal) M i = M i := by
  unfold k0_pay13
  exact congrFun (shapeCast_self M _) i

/-- One matrix entry `(p, q)`, kept as a column, reads the matrix of row `r` at `(p, q)`. -/
theorem entry_col_apply (o o' : ℕ) (p q : Fin 3) (hp : p.val = o) (hq : q.val = o')
    (h : S128x3x3.Slices ![0, o, o'] S128x1x1) (hc : S128x1x1.ShapeCasts S128x1) (u : Fin 1) :
    shapeCast S128x1 (extractStridedSlice S128x1x1 ![0, o, o'] M h) hc (ix2 r u) = M (ix3 r p q) :=
  (shapeCast_a11_a1_apply _ _ r u).trans (slice3_entry_apply o o' M h r 0 0 p q hp hq)

variable (u : Fin 1)

theorem pay14_apply : k0_pay14 (F := Ideal) M (ix2 r u) = M (ix3 r (0 : Fin 3) (0 : Fin 3)) := by
  unfold k0_pay14; exact entry_col_apply M r 0 0 0 0 rfl rfl _ _ u
theorem pay15_apply : k0_pay15 (F := Ideal) M (ix2 r u) = M (ix3 r (0 : Fin 3) (1 : Fin 3)) := by
  unfold k0_pay15; exact entry_col_apply M r 0 1 0 1 rfl rfl _ _ u
theorem pay16_apply : k0_pay16 (F := Ideal) M (ix2 r u) = M (ix3 r (0 : Fin 3) (2 : Fin 3)) := by
  unfold k0_pay16; exact entry_col_apply M r 0 2 0 2 rfl rfl _ _ u
theorem pay17_apply : k0_pay17 (F := Ideal) M (ix2 r u) = M (ix3 r (1 : Fin 3) (0 : Fin 3)) := by
  unfold k0_pay17; exact entry_col_apply M r 1 0 1 0 rfl rfl _ _ u
theorem pay18_apply : k0_pay18 (F := Ideal) M (ix2 r u) = M (ix3 r (1 : Fin 3) (1 : Fin 3)) := by
  unfold k0_pay18; exact entry_col_apply M r 1 1 1 1 rfl rfl _ _ u
theorem pay19_apply : k0_pay19 (F := Ideal) M (ix2 r u) = M (ix3 r (1 : Fin 3) (2 : Fin 3)) := by
  unfold k0_pay19; exact entry_col_apply M r 1 2 1 2 rfl rfl _ _ u
theorem pay20_apply : k0_pay20 (F := Ideal) M (ix2 r u) = M (ix3 r (2 : Fin 3) (0 : Fin 3)) := by
  unfold k0_pay20; exact entry_col_apply M r 2 0 2 0 rfl rfl _ _ u
theorem pay21_apply : k0_pay21 (F := Ideal) M (ix2 r u) = M (ix3 r (2 : Fin 3) (0 : Fin 3)) := by
  unfold k0_pay21; exact entry_col_apply M r 2 0 2 0 rfl rfl _ _ u
theorem pay22_apply : k0_pay22 (F := Ideal) M (ix2 r u) = M (ix3 r (2 : Fin 3) (1 : Fin 3)) := by
  unfold k0_pay22; exact entry_col_apply M r 2 1 2 1 rfl rfl _ _ u
theorem pay23_apply : k0_pay23 (F := Ideal) M (ix2 r u) = M (ix3 r (2 : Fin 3) (2 : Fin 3)) := by
  unfold k0_pay23; exact entry_col_apply M r 2 2 2 2 rfl rfl _ _ u

end Pieces

/-! ## The camera-frame coordinates and the stored value -/

section Camera
variable (a b c : FVec Ideal S128x1 .f32) (d e f : FVec Ideal S128x2048 .f32) (M : Vec Ideal S128x3x3 .f32)
variable (r : Fin 128) (n : Fin 2048)

/-- Three columns broadcast along the points, each times a block, the three products added left to right. -/
theorem cam3_apply (hb : S128x1.Broadcasts S128x2048) :
    addf (addf (mulf (broadcastTo S128x2048 a hb) d) (mulf (broadcastTo S128x2048 b hb) e))
        (mulf (broadcastTo S128x2048 c hb) f) (ix2 r n)
      = (a (ix2 r (0 : Fin 1)) : EReal) * d (ix2 r n) + b (ix2 r (0 : Fin 1)) * e (ix2 r n)
        + c (ix2 r (0 : Fin 1)) * f (ix2 r n) := by
  show (broadcastTo S128x2048 a hb (ix2 r n) : EReal) * d (ix2 r n) + broadcastTo S128x2048 b hb (ix2 r n) * e (ix2 r n)
      + broadcastTo S128x2048 c hb (ix2 r n) * f (ix2 r n) = _
  rw [broadcastTo_a1_ab_apply, broadcastTo_a1_ab_apply, broadcastTo_a1_ab_apply]

/-- One matrix entry `(p, q)` broadcast along the points reads the matrix of row `r` at `(p, q)`. -/
theorem entry_bcast_apply (o o' : ℕ) (p q : Fin 3) (hp : p.val = o) (hq : q.val = o')
    (h : S128x3x3.Slices ![0, o, o'] S128x1x1) (hc : S128x1x1.ShapeCasts S128x1) (hb : S128x1.Broadcasts S128x2048) :
    broadcastTo S128x2048 (shapeCast S128x1 (extractStridedSlice S128x1x1 ![0, o, o'] M h) hc) hb (ix2 r n)
      = M (ix3 r p q) :=
  (broadcastTo_a1_ab_apply _ _ r n).trans (entry_col_apply M r o o' p q hp hq h hc 0)

/-- First camera-frame coordinate from the target pose, its matrix entries given as columns. -/
theorem pay24_apply : k0_pay24 (F := Ideal) d e f a b c (ix2 r n)
    = (a (ix2 r (0 : Fin 1)) : EReal) * d (ix2 r n) + b (ix2 r (0 : Fin 1)) * e (ix2 r n)
      + c (ix2 r (0 : Fin 1)) * f (ix2 r n) := by
  unfold k0_pay24; exact cam3_apply a b c d e f r n _

/-- Second camera-frame coordinate from the target pose. -/
theorem pay25_apply : k0_pay25 (F := Ideal) d e f a b c (ix2 r n)
    = (a (ix2 r (0 : Fin 1)) : EReal) * d (ix2 r n) + b (ix2 r (0 : Fin 1)) * e (ix2 r n)
      + c (ix2 r (0 : Fin 1)) * f (ix2 r n) := by
  unfold k0_pay25; exact cam3_apply a b c d e f r n _

/-- Third camera-frame coordinate from the target pose: the first entry of the matrix's last row comes as a column,
    the other two are cut here. -/
theorem pay26_apply : k0_pay26 (F := Ideal) d e f M a (ix2 r n)
    = (a (ix2 r (0 : Fin 1)) : EReal) * d (ix2 r n) + M (ix3 r (2 : Fin 3) (1 : Fin 3)) * e (ix2 r n)
      + M (ix3 r (2 : Fin 3) (2 : Fin 3)) * f (ix2 r n) := by
  unfold k0_pay26
  refine (cam3_apply a _ _ d e f r n _).trans ?_
  rw [entry_col_apply M r 2 1 2 1 rfl rfl, entry_col_apply M r 2 2 2 2 rfl rfl]

/-- First camera-frame coordinate from the predicted pose. -/
theorem pay27_apply : k0_pay27 (F := Ideal) d e f M (ix2 r n)
    = (M (ix3 r (0 : Fin 3) (0 : Fin 3)) : EReal) * d (ix2 r n) + M (ix3 r (0 : Fin 3) (1 : Fin 3)) * e (ix2 r n)
      + M (ix3 r (0 : Fin 3) (2 : Fin 3)) * f (ix2 r n) := by
  unfold k0_pay27
  refine (cam3_apply _ _ _ d e f r n _).trans ?_
  rw [entry_col_apply M r 0 0 0 0 rfl rfl, entry_col_apply M r 0 1 0 1 rfl rfl, entry_col_apply M r 0 2 0 2 rfl rfl]

/-- The first two products of the second camera-frame coordinate from the predicted pose. -/
theorem pay28_apply : k0_pay28 (F := Ideal) d e M (ix2 r n)
    = (M (ix3 r (1 : Fin 3) (0 : Fin 3)) : EReal) * d (ix2 r n) + M (ix3 r (1 : Fin 3) (1 : Fin 3)) * e (ix2 r n) := by
  unfold k0_pay28
  exact congrArg₂ (fun x y : EReal => x + y)
    (congrArg (fun x : EReal => x * d (ix2 r n)) (entry_bcast_apply M r n 1 0 1 0 rfl rfl _ _ _))
    (congrArg (fun x : EReal => x * e (ix2 r n)) (entry_bcast_apply M r n 1 1 1 1 rfl rfl _ _ _))

/-- The last entry of the predicted matrix's second row, along the points. -/
theorem pay29_apply : k0_pay29 (F := Ideal) M (ix2 r n) = M (ix3 r (1 : Fin 3) (2 : Fin 3)) := by
  unfold k0_pay29; exact entry_bcast_apply M r n 1 2 1 2 rfl rfl _ _ _

end Camera

/-! ## The stored value at a row -/

section Stored
variable (v24 v26 v28 : FVec Ideal S128x2048 .f32) (v63 v65 v67 : FVec Ideal S128x1 .f32)
variable (v75 v83 v91 v99 v104 v105 : FVec Ideal S128x2048 .f32) (r : Fin 128)

/-- The sum over the points, kept as a column, reads at row `r` the finite sum over the point coordinate. -/
theorem colsum_apply (src : FVec Ideal S128x2048 .f32) (h₁ : S128x2048.Reduces [1] S128) (hφ : FKind.Formats .f32)
    (hacc : (0x00000000#32 : BitVec 32) = FKind.add.neutral .f32 hφ) (h₂ : S128.ShapeCasts S128x1) (u : Fin 1) :
    shapeCast S128x1 (multiReduction (F := Ideal) .add [1] S128 src 0x00000000#32 h₁ hφ hacc) h₂ (ix2 r u)
      = ∑ n : Fin 2048, src (ix2 r n) :=
  (shapeCast_a_a1_apply _ h₂ r u).trans (sum_axis1_apply src h₁ hφ hacc r)

/-- The L1 distance of the two projections at a row and a point, over any block `D` of third coordinates for the
    predicted pose: absolute values are `max a (−a)`, quotients the extended reals' division. -/
theorem err_apply (D : FVec Ideal S128x2048 .f32) (i : S128x2048.Idx) :
    addf (absf (subf (divf v99 D) (divf v75 v91))) (absf (subf (divf (addf v104 (mulf v105 v28)) D) (divf v83 v91))) i
      = Cert.Reproj.eabs (Ideal.div (v99 i) (D i) - Ideal.div (v75 i) (v91 i))
        + Cert.Reproj.eabs (Ideal.div ((v104 i : EReal) + v105 i * v28 i) (D i) - Ideal.div (v83 i) (v91 i)) := rfl

/-- The stored value at row `r`: the mean over the points of the L1 distance, through `nan_to_num`, from the body's
    twelve pieces. -/
theorem pay1_apply (u : Fin 1) :
    k0_pay1 (F := Ideal) v24 v26 v28 v63 v65 v67 v75 v83 v91 v99 v104 v105 (ix2 r u)
      = Cert.Reproj.ntn (Ideal.div (∑ n : Fin 2048,
          (Cert.Reproj.eabs
              (Ideal.div (v99 (ix2 r n))
                  ((v63 (ix2 r (0 : Fin 1)) : EReal) * v24 (ix2 r n) + v65 (ix2 r (0 : Fin 1)) * v26 (ix2 r n)
                    + v67 (ix2 r (0 : Fin 1)) * v28 (ix2 r n))
                - Ideal.div (v75 (ix2 r n)) (v91 (ix2 r n)))
            + Cert.Reproj.eabs
              (Ideal.div ((v104 (ix2 r n) : EReal) + v105 (ix2 r n) * v28 (ix2 r n))
                  ((v63 (ix2 r (0 : Fin 1)) : EReal) * v24 (ix2 r n) + v65 (ix2 r (0 : Fin 1)) * v26 (ix2 r n)
                    + v67 (ix2 r (0 : Fin 1)) * v28 (ix2 r n))
                - Ideal.div (v83 (ix2 r n)) (v91 (ix2 r n)))))
        (Ideal.ofBits .f32 0x45000000#32)) := by
  unfold k0_pay1
  show Cert.Reproj.ntn (Ideal.div (shapeCast S128x1 (multiReduction (F := Ideal) .add [1] S128 _ 0x00000000#32 _ _ _) _
      (ix2 r u)) (Ideal.ofBits .f32 0x45000000#32)) = _
  refine congrArg (fun s : EReal => Cert.Reproj.ntn (Ideal.div s (Ideal.ofBits .f32 0x45000000#32)))
    ((colsum_apply r _ _ _ _ _ u).trans (Finset.sum_congr rfl fun n _ => ?_))
  refine (err_apply v28 v75 v83 v91 v99 v104 v105 _ (ix2 r n)).trans ?_
  rw [cam3_apply]

end Stored

/-! ## The body's value at a sample -/

/-- The value the body stores for the sample in row `r` of a block is the per-sample value of that row's data: the
    target pose `(x1, x4)`, the predicted pose `(x2, x3)` and the row's 2048 points of `x0`. -/
theorem bodyVal_apply (x0 : Vec Ideal S128x3x2048 .f32) (x1 x2 : Vec Ideal S128x3x3 .f32) (x3 x4 : Vec Ideal S128x3 .f32)
    (r : Fin 128) :
    bodyVal (F := Ideal) x0 x1 x2 x3 x4 (ix2 r (0 : Fin 1))
      = Cert.Reproj.perSample (fun i j => x1 (ix3 r i j)) (fun i j => x2 (ix3 r i j))
          (fun j => x4 (ix2 r j)) (fun j => x3 (ix2 r j)) (fun n j => x0 (ix3 r j n)) := by
  unfold bodyVal
  refine (pay1_apply _ _ _ _ _ _ _ _ _ _ _ _ r 0).trans ?_
  unfold Cert.Reproj.perSample
  refine congrArg (fun s : EReal => Cert.Reproj.ntn (Ideal.div s (Ideal.ofBits .f32 0x45000000#32)))
    (Finset.sum_congr rfl fun n _ => ?_)
  rw [pay24_apply, pay25_apply, pay26_apply, pay27_apply, pay28_apply, pay29_apply,
    pay21_apply, pay22_apply, pay23_apply, pay14_apply, pay15_apply, pay16_apply, pay17_apply, pay18_apply,
    pay19_apply, pay20_apply, pay7_apply, pay8_apply, pay9_apply, pay10_apply, pay11_apply, pay12_apply]
  simp only [pay13_apply]
  rfl

end Cert.KernelIdeal.HF

end
-- ==== Proof.KValue.lean ====
/-
  From the blocks to the array.  The grid has 64 points; at point t every window's block is the rows 128·t … 128·t+127
  of its array (the other axes whole), and the body stores, in row r of the output block, the per-sample value of the
  sample whose data are row r of the five input blocks.  So the output array ends holding, in row b, the per-sample
  value of the sample whose data are row b of the five input arrays: the point that writes row b is b / 128, and the
  64 blocks of 128 rows cover the 8192 rows.
-/
import proofs.«133085_j17540646437328_1_alg».proof.Proof.KFrame
import proofs.«133085_j17540646437328_1_alg».proof.Proof.Spec
import Idealize.ShloMosaic.Lib.Pipeline.Value
import Idealize.ShloMosaic.Lib.ValueIdx

set_option maxRecDepth 16384

noncomputable section

namespace Cert.KernelIdeal.HF

open Idealize.ShloMosaic Idealize.ShloMosaic.TcCoe Idealize.SL.Sem
open Idealize.ShloMosaic.Pipeline (Dat)
open Idealize.ShloMosaic.ValueIdx
open Cert.KernelIdeal Cert.KernelIdeal.Gen

variable (m : (ℓ : Loc nD τ sig) → Buf (Elt Ideal) ℓ)

/-! ## The per-sample value as a function of whole arrays -/

/-- The per-sample value of sample b, its data read off row b of the five arrays: the target matrices, the predicted
    matrices, the target translations, the predicted translations and the world points (coordinate-major). -/
def sampleOf (tgtM prdM : S8192x3x3.Idx → EReal) (tgtT prdT : S8192x3.Idx → EReal) (pts : S8192x3x2048.Idx → EReal)
    (b : Fin 8192) : EReal :=
  Cert.Reproj.perSample (fun i j => tgtM (ix3 b i j)) (fun i j => prdM (ix3 b i j))
    (fun j => tgtT (ix2 b j)) (fun j => prdT (ix2 b j)) (fun n j => pts (ix3 b j n))

/-- The row of an index of the 8192×1 array, as a sample number. -/
def rowOf (y : S8192x1.Idx) : Fin 8192 := y 0

/-- The 8192×1 array of per-sample values of the five arrays. -/
def sampleArr (tgtM prdM : S8192x3x3.Idx → EReal) (tgtT prdT : S8192x3.Idx → EReal) (pts : S8192x3x2048.Idx → EReal) :
    S8192x1.Idx → EReal :=
  fun y => sampleOf tgtM prdM tgtT prdT pts (rowOf y)

/-- If row r of the five blocks is row b of the five arrays, the per-sample value of the blocks' row r is that of
    the arrays' row b. -/
theorem sample_of_rows (x0 : Vec Ideal S128x3x2048 .f32) (x1 x2 : Vec Ideal S128x3x3 .f32) (x3 x4 : Vec Ideal S128x3 .f32)
    (tgtM prdM : S8192x3x3.Idx → EReal) (tgtT prdT : S8192x3.Idx → EReal) (pts : S8192x3x2048.Idx → EReal)
    (r : Fin 128) (b : Fin 8192)
    (h0 : ∀ (j : Fin 3) (n : Fin 2048), x0 (ix3 r j n) = pts (ix3 b j n))
    (h1 : ∀ i j : Fin 3, x1 (ix3 r i j) = tgtM (ix3 b i j))
    (h2 : ∀ i j : Fin 3, x2 (ix3 r i j) = prdM (ix3 b i j))
    (h3 : ∀ j : Fin 3, x3 (ix2 r j) = prdT (ix2 b j))
    (h4 : ∀ j : Fin 3, x4 (ix2 r j) = tgtT (ix2 b j)) :
    Cert.Reproj.perSample (fun i j => x1 (ix3 r i j)) (fun i j => x2 (ix3 r i j))
        (fun j => x4 (ix2 r j)) (fun j => x3 (ix2 r j)) (fun n j => x0 (ix3 r j n))
      = sampleOf tgtM prdM tgtT prdT pts b := by
  unfold sampleOf
  rw [show (fun i j => x1 (ix3 r i j)) = fun i j => tgtM (ix3 b i j) from funext fun i => funext fun j => h1 i j,
    show (fun i j => x2 (ix3 r i j)) = fun i j => prdM (ix3 b i j) from funext fun i => funext fun j => h2 i j,
    show (fun j => x4 (ix2 r j)) = fun j => tgtT (ix2 b j) from funext fun j => h4 j,
    show (fun j => x3 (ix2 r j)) = fun j => prdT (ix2 b j) from funext fun j => h3 j,
    show (fun n j => x0 (ix3 r j n)) = fun n j => pts (ix3 b j n) from funext fun n => funext fun j => h0 j n]

/-! ## Where the blocks sit -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- At grid point t every window's block index is t on the sample axis and 0 on the others. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## Each input block is 128 rows of its array -/

/-- Row r of the points' block at point t is row 128·t + r of the points' array. -/
theorem pts_rows (c : Dev nD) (t : Fin cfg0.N) (r : Fin 128) (j : Fin 3) (n : Fin 2048) (b : Fin 8192)
    (hb : b.val = 128 * t.val + r.val) :
    (iblk m c 0 t : Vec Ideal S128x3x2048 .f32) (ix3 r j n) = (V m c main_v85 : S8192x3x2048.Idx → EReal) (ix3 b j n) := by
  obtain ⟨e0, e1, e2, -⟩ := block_index t
  unfold iblk
  rw [View.read_apply]
  show V m c main_v85 (((cfg0.win 0).blk t).view.emb (ix3 r j n)) = V m c main_v85 (ix3 b j n)
  refine congrArg _ (funext fun a => Fin.ext ?_)
  match a with
  | ⟨0, _⟩ => show win0_0.index t (0 : Fin 3) * 128 + 1 * r.val = b.val; omega
  | ⟨1, _⟩ => show win0_0.index t (1 : Fin 3) * 3 + 1 * j.val = j.val; omega
  | ⟨2, _⟩ => show win0_0.index t (2 : Fin 3) * 2048 + 1 * n.val = n.val; omega

/-- Row r of the target matrices' block at point t is row 128·t + r of their array. -/
theorem tgtMat_rows (c : Dev nD) (t : Fin cfg0.N) (r : Fin 128) (i j : Fin 3) (b : Fin 8192)
    (hb : b.val = 128 * t.val + r.val) :
    (iblk m c 1 t : Vec Ideal S128x3x3 .f32) (ix3 r i j) = (V m c main_arg4 : S8192x3x3.Idx → EReal) (ix3 b i j) := by
  obtain ⟨-, -, -, e0, e1, e2, -⟩ := block_index t
  unfold iblk
  rw [View.read_apply]
  show V m c main_arg4 (((cfg0.win 1).blk t).view.emb (ix3 r i j)) = V m c main_arg4 (ix3 b i j)
  refine congrArg _ (funext fun a => Fin.ext ?_)
  match a with
  | ⟨0, _⟩ => show win0_1.index t (0 : Fin 3) * 128 + 1 * r.val = b.val; omega
  | ⟨1, _⟩ => show win0_1.index t (1 : Fin 3) * 3 + 1 * i.val = i.val; omega
  | ⟨2, _⟩ => show win0_1.index t (2 : Fin 3) * 3 + 1 * j.val = j.val; omega

/-- Row r of the predicted matrices' block at point t is row 128·t + r of their array. -/
theorem prdMat_rows (c : Dev nD) (t : Fin cfg0.N) (r : Fin 128) (i j : Fin 3) (b : Fin 8192)
    (hb : b.val = 128 * t.val + r.val) :
    (iblk m c 2 t : Vec Ideal S128x3x3 .f32) (ix3 r i j) = (V m c main_v75 : S8192x3x3.Idx → EReal) (ix3 b i j) := by
  obtain ⟨-, -, -, -, -, -, e0, e1, e2, -⟩ := block_index t
  unfold iblk
  rw [View.read_apply]
  show V m c main_v75 (((cfg0.win 2).blk t).view.emb (ix3 r i j)) = V m c main_v75 (ix3 b i j)
  refine congrArg _ (funext fun a => Fin.ext ?_)
  match a with
  | ⟨0, _⟩ => show win0_2.index t (0 : Fin 3) * 128 + 1 * r.val = b.val; omega
  | ⟨1, _⟩ => show win0_2.index t (1 : Fin 3) * 3 + 1 * i.val = i.val; omega
  | ⟨2, _⟩ => show win0_2.index t (2 : Fin 3) * 3 + 1 * j.val = j.val; omega

/-- Row r of the predicted translations' block at point t is row 128·t + r of their array. -/
theorem prdTr_rows (c : Dev nD) (t : Fin cfg0.N) (r : Fin 128) (j : Fin 3) (b : Fin 8192)
    (hb : b.val = 128 * t.val + r.val) :
    (iblk m c 3 t : Vec Ideal S128x3 .f32) (ix2 r j) = (V m c main_arg0 : S8192x3.Idx → EReal) (ix2 b j) := by
  obtain ⟨-, -, -, -, -, -, -, -, -, e0, e1, -⟩ := block_index t
  unfold iblk
  rw [View.read_apply]
  show V m c main_arg0 (((cfg0.win 3).blk t).view.emb (ix2 r j)) = V m c main_arg0 (ix2 b j)
  refine congrArg _ (funext fun a => Fin.ext ?_)
  match a with
  | ⟨0, _⟩ => show win0_3.index t (0 : Fin 2) * 128 + 1 * r.val = b.val; omega
  | ⟨1, _⟩ => show win0_3.index t (1 : Fin 2) * 3 + 1 * j.val = j.val; omega

/-- Row r of the target translations' block at point t is row 128·t + r of their array. -/
theorem tgtTr_rows (c : Dev nD) (t : Fin cfg0.N) (r : Fin 128) (j : Fin 3) (b : Fin 8192)
    (hb : b.val = 128 * t.val + r.val) :
    (iblk m c 4 t : Vec Ideal S128x3 .f32) (ix2 r j) = (V m c main_v76 : S8192x3.Idx → EReal) (ix2 b j) := by
  obtain ⟨-, -, -, -, -, -, -, -, -, -, -, e0, e1, -⟩ := block_index t
  unfold iblk
  rw [View.read_apply]
  show V m c main_v76 (((cfg0.win 4).blk t).view.emb (ix2 r j)) = V m c main_v76 (ix2 b j)
  refine congrArg _ (funext fun a => Fin.ext ?_)
  match a with
  | ⟨0, _⟩ => show win0_4.index t (0 : Fin 2) * 128 + 1 * r.val = b.val; omega
  | ⟨1, _⟩ => show win0_4.index t (1 : Fin 2) * 3 + 1 * j.val = j.val; omega

/-! ## What a point writes back, the cover, and the array -/

section
variable (hpay : ∀ (x0 : Vec Ideal S128x3x2048 .f32) (x1 x2 : Vec Ideal S128x3x3 .f32) (x3 x4 : Vec Ideal S128x3 .f32) (r : Fin 128),
    bodyVal (F := Ideal) x0 x1 x2 x3 x4 (ix2 r (0 : Fin 1))
      = Cert.Reproj.perSample (fun i j => x1 (ix3 r i j)) (fun i j => x2 (ix3 r i j))
          (fun j => x4 (ix2 r j)) (fun j => x3 (ix2 r j)) (fun n j => x0 (ix3 r j n)))
include hpay

/-- The output array the run should leave: the per-sample values of the five arrays the region finds. -/
abbrev outArr (c : Dev nD) : S8192x1.Idx → EReal :=
  sampleArr (V m c main_arg4) (V m c main_v75) (V m c main_v76) (V m c main_arg0) (V m c main_v85)

/-- Row r of the stored block at point t is the per-sample value of sample 128·t + r. -/
theorem stored_row (c : Dev nD) (t : Fin cfg0.N) (y : S128x1.Idx) :
    bodyVal (F := Ideal) (iblk m c 0 t) (iblk m c 1 t) (iblk m c 2 t) (iblk m c 3 t) (iblk m c 4 t) y
      = outArr m c (((cfg0.win 5).blk t).view.emb y) := by
  obtain ⟨r, z, rfl⟩ : ∃ (r : Fin 128) (z : Fin 1), y = ix2 r z := ⟨y 0, y 1, eq_ix2 y⟩
  obtain rfl : z = 0 := Subsingleton.elim _ _
  obtain ⟨-, -, -, -, -, -, -, -, -, -, -, -, -, e0, e1⟩ := block_index t
  have hb : (rowOf (((cfg0.win 5).blk t).view.emb (ix2 r (0 : Fin 1)))).val = 128 * t.val + r.val := by
    show win0_5.index t (0 : Fin 2) * 128 + 1 * r.val = 128 * t.val + r.val
    omega
  refine (hpay (iblk m c 0 t) (iblk m c 1 t) (iblk m c 2 t) (iblk m c 3 t) (iblk m c 4 t) r).trans ?_
  exact sample_of_rows (iblk m c 0 t) (iblk m c 1 t) (iblk m c 2 t) (iblk m c 3 t) (iblk m c 4 t)
    (V m c main_arg4) (V m c main_v75) (V m c main_v76) (V m c main_arg0) (V m c main_v85) r _
    (fun j n => pts_rows m c t r j n _ hb) (fun i j => tgtMat_rows m c t r i j _ hb) (fun i j => prdMat_rows m c t r i j _ hb)
    (fun j => prdTr_rows m c t r j _ hb) (fun j => tgtTr_rows m c t r j _ hb)

/-- What point t writes back is block t of the array of per-sample values. -/
theorem flushed_eq (c : Dev nD) (t : Fin cfg0.N) :
    (dats (F := Ideal) m 0 c).flushed 5 t = ((cfg0.win 5).blk t).view.read (Elt Ideal) (outArr m c) := by
  show (cfg0.win 5).cut (grid0.coords t) ((dats m 0 c).after 5 t) = _
  rw [after0_5]
  unfold outBlk
  rw [View.canon_unit_zero zeros2]
  simp only [View.ld_unit_zero (S := S128x3x2048) zeros3, View.ld_unit_zero (S := S128x3x3) zeros3,
    View.ld_unit_zero (S := S128x3) zeros2]
  funext y
  exact stored_row m hpay c t y

omit hpay in
/-- An index of the output array is in point t's block iff each coordinate is in the block's range on its axis. -/
theorem mem_block (t : Fin cfg0.N) (y : S8192x1.Idx) :
    y ∈ ((cfg0.win 5).blk t).view.set ↔ ∀ a : Fin 2, win0_5.index t a * S128x1.size a ≤ (y a).val ∧ (y a).val < win0_5.index t a * S128x1.size a + S128x1.size a := by
  show y ∈ ((View.whole main_v86).slice (win0_5.rect t)).set ↔ _
  rw [View.set_slice_whole, Rect.mem_set_unit]
  exact Iff.rfl

omit hpay in
/-- Every row is in some point's block: row b in the block of point b / 128. -/
theorem rows_covered (y : S8192x1.Idx) :
    ∃ t : Fin cfg0.N, (cfg0.win 5).flush t = true ∧ y ∈ ((cfg0.win 5).blk t).view.set := by
  have h0 : (y 0).val < 8192 := (y 0).isLt
  have h1 : (y 1).val < 1 := (y 1).isLt
  have hN : cfg0.N = 64 := N_0
  have ht : (y 0).val / 128 < cfg0.N := by rw [hN]; omega
  obtain ⟨-, -, -, -, -, -, -, -, -, -, -, -, -, e0, e1⟩ := block_index ⟨(y 0).val / 128, ht⟩
  refine ⟨⟨(y 0).val / 128, ht⟩, flush0_5 _, ?_⟩
  rw [mem_block]
  intro a
  match a with
  | ⟨0, _⟩ =>
    show win0_5.index ⟨(y 0).val / 128, ht⟩ (0 : Fin 2) * 128 ≤ (y 0).val ∧ (y 0).val < win0_5.index ⟨(y 0).val / 128, ht⟩ (0 : Fin 2) * 128 + 128
    rw [e0]; show (y 0).val / 128 * 128 ≤ (y 0).val ∧ (y 0).val < (y 0).val / 128 * 128 + 128; omega
  | ⟨1, _⟩ =>
    show win0_5.index ⟨(y 0).val / 128, ht⟩ (1 : Fin 2) * 1 ≤ (y 1).val ∧ (y 1).val < win0_5.index ⟨(y 0).val / 128, ht⟩ (1 : Fin 2) * 1 + 1
    rw [e1]; omega

/-- The output array after the run is the array of per-sample values. -/
theorem final5 (c : Dev nD) : (dats (F := Ideal) m 0 c).arrAt 5 cfg0.N = outArr m c :=
  (dats m 0 c).arrAt_eq_of_cover 5 (outArr m c) (fun t _ => flushed_eq m hpay c t) rows_covered

/-- Row b of the output array after the run is the per-sample value of row b of the five arrays. -/
theorem final5_apply (c : Dev nD) (b : Fin 8192) :
    ((dats (F := Ideal) m 0 c).arrAt 5 cfg0.N : S8192x1.Idx → EReal) (ix2 b (0 : Fin 1))
      = Cert.Reproj.perSample
          (fun i j => (V m c main_arg4 : S8192x3x3.Idx → EReal) (ix3 b i j))
          (fun i j => (V m c main_v75 : S8192x3x3.Idx → EReal) (ix3 b i j))
          (fun j => (V m c main_v76 : S8192x3.Idx → EReal) (ix2 b j))
          (fun j => (V m c main_arg0 : S8192x3.Idx → EReal) (ix2 b j))
          (fun n j => (V m c main_v85 : S8192x3x2048.Idx → EReal) (ix3 b j n)) := by
  rw [final5 m hpay c]
  rfl

end

end Cert.KernelIdeal.HF

end
-- ==== Proof.KTail.lean ====
/-
  The program's values around its one region.

  After the region five operations remain: the per-sample column of 8192 values is flattened, summed from zero and
  divided by 8192.  None of them writes an array the region stages, so the flattened column is read off the region's
  output array, and the two pose losses, computed before the region and touched by nothing after it, end as the region
  found them.  Before the region two of its input arrays are prepared from arguments: the predicted translations are
  the argument of shape 8192×3×1 with its unit axis dropped, and the world points are the argument of shape
  8192×2048×3 with its last two axes exchanged.
-/
import proofs.«133085_j17540646437328_1_alg».proof.Proof.KFrame
import Idealize.ShloMosaic.Lib.Pipeline.FrameSuffix
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## After the region -/

/-- The batch mean: the region's output array, an 8192×1 column, read as a vector of 8192 entries, summed from zero,
    and the sum divided by 8192. -/
theorem tail_v89 (c : Dev nD) :
    Pipeline.afterTail₀ cfgs (dats m) 0 (V0 m) [hostOps1] c main_v89
      = (Host.divf
          (Host.reduceAdd
            (shapeCast S8192 ((dats m 0 c).arrAt 5 cfg0.N : S8192x1.Idx → Elt F .f32) shapeCasts_S8192x1_S8192 : (⟨S8192, .f32⟩ : BufTy).Contents (Elt F))
            (constant S_ .f32 0x00000000#32 : (⟨S_, .f32⟩ : BufTy).Contents (Elt F)) reducesTo_S8192_S_d0 h_S_ : (⟨S_, .f32⟩ : BufTy).Contents (Elt F))
          (constant S_ .f32 0x46000000#32 : (⟨S_, .f32⟩ : BufTy).Contents (Elt F)) : (⟨S_, .f32⟩ : BufTy).Contents (Elt F)) := by
  unfold Pipeline.afterTail₀
  show StableHlo.after hostOps1 _ (Proc.devRef .tc main_v89) = _
  after_results
  -- the flattening reads the region's sixth array, which the region leaves at what its blocks were written with
  have e : Pipeline.withArrays (cfgs 0).spec c (V0 m c) (fun w => (dats m 0 c).arrAt w (cfgs 0).N) (Proc.tc.devRef main_v86)
      = (dats m 0 c).arrAt 5 cfg0.N :=
    Pipeline.withArrays_arr spec0 launch0.win.arr_inj c (V0 m c) (fun w => (dats m 0 c).arrAt w cfg0.N) 5
  rw [e]
  rfl

/-- A buffer that no operation after the region writes and that is no array of the region ends at its region-entry
    contents. -/
theorem tail_same (c : Dev nD) (b : Ref sig .tc)
    (hw : ∀ op ∈ ([hostOps1] : List (List (HloOp τ sig (Elt F)))).flatten, Proc.devRef .tc b ∉ op.writes)
    (ha : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ hw, Pipeline.withArrays_of_ne spec0 c (V0 m c) _ b ha]

/-- The first pose loss passes the operations after the region unchanged. -/
theorem tail_v80 (c : Dev nD) : Pipeline.afterTail₀ cfgs (dats m) 0 (V0 m) [hostOps1] c main_v80 = V m c main_v80 :=
  tail_same m c main_v80 (List.forall_iff_forall_mem.mp (by
      simp only [hostOps1, List.flatten_cons, List.flatten_nil, List.append_nil, List.Forall, StableHlo.nullary_writes,
        StableHlo.binary_writes, StableHlo.reshape_writes, Finset.mem_singleton]
      repeat' apply And.intro
      all_goals exact StableHlo.devRef_ne_of_ne (by decide))) (by decide)

/-- So does the second. -/
theorem tail_v84 (c : Dev nD) : Pipeline.afterTail₀ cfgs (dats m) 0 (V0 m) [hostOps1] c main_v84 = V m c main_v84 :=
  tail_same m c main_v84 (List.forall_iff_forall_mem.mp (by
      simp only [hostOps1, List.flatten_cons, List.flatten_nil, List.append_nil, List.Forall, StableHlo.nullary_writes,
        StableHlo.binary_writes, StableHlo.reshape_writes, Finset.mem_singleton]
      repeat' apply And.intro
      all_goals exact StableHlo.devRef_ne_of_ne (by decide))) (by decide)

/-! ## The three results bypass the region: each is unscoped and is no array the region stages -/

theorem mem_v89 : main_v89 ∈ Pipeline.restRefs sig spec0 := Pipeline.mem_restRefs_of main_v89 rfl (by decide)
theorem mem_v80 : main_v80 ∈ Pipeline.restRefs sig spec0 := Pipeline.mem_restRefs_of main_v80 rfl (by decide)
theorem mem_v84 : main_v84 ∈ Pipeline.restRefs sig spec0 := Pipeline.mem_restRefs_of main_v84 rfl (by decide)

/-! ## Before the region: the two arrays prepared from arguments -/

/-- The predicted translations as the region finds them: the 8192×3×1 argument recast to 8192×3.  Of the operations
    before the region only the recast writes this buffer, and none writes the argument. -/
theorem V_v76_eq (c : Dev nD) :
    (V m c main_v76 : S8192x3.Idx → Elt F .f32)
      = shapeCast S8192x3 (m ((c : Thread nD τ).loc main_arg2) : S8192x3x1.Idx → Elt F .f32) shapeCasts_S8192x3x1_S8192x3 := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  rfl

/-- The world points as the region finds them: the 8192×2048×3 argument with its last two axes exchanged. -/
theorem V_v85_eq (c : Dev nD) :
    (V m c main_v85 : S8192x3x2048.Idx → Elt F .f32)
      = transpose S8192x3x2048 [0, 2, 1] (m ((c : Thread nD τ).loc main_arg5) : S8192x2048x3.Idx → Elt F .f32)
          transposes_S8192x2048x3_S8192x3x2048_0_2_1 := by
  dsimp only [V, V0]
  simp only [hostOps0, hostOps0_1, hostOps0_2, hostOps0_3, hostOps0_4, hostOps0_5, hostOps0_6, List.flatten_cons,
    List.flatten_nil, List.append_nil, List.cons_append, List.nil_append]
  after_results_simp

/-- Entry (b, j) of the predicted translations is entry (b, j, 0) of the argument: both sit at row-major position
    3·b + j. -/
theorem V_v76_apply (c : Dev nD) (b : Fin 8192) (j : Fin 3) :
    (V m c main_v76 : S8192x3.Idx → Elt F .f32) (ValueIdx.ix2 b j)
      = (m ((c : Thread nD τ).loc main_arg2) : S8192x3x1.Idx → Elt F .f32) (ValueIdx.ix3 b j (0 : Fin 1)) := by
  refine (congrFun (V_v76_eq m c) (ValueIdx.ix2 b j)).trans ?_
  refine shapeCast_apply (s := S8192x3x1) (t := S8192x3) _ shapeCasts_S8192x3x1_S8192x3 (ValueIdx.ix2 b j)
    (ValueIdx.ix3 b j (0 : Fin 1)) ?_
  rw [Shape.rowMajor_val_three, Shape.rowMajor_val_two]
  show (b.val * 3 + j.val) * 1 + 0 = b.val * 3 + j.val
  omega

/-- Coordinate j of point n of sample b, as the region finds it, is entry (b, n, j) of the argument. -/
theorem V_v85_apply (c : Dev nD) (b : Fin 8192) (j : Fin 3) (n : Fin 2048) :
    (V m c main_v85 : S8192x3x2048.Idx → Elt F .f32) (ValueIdx.ix3 b j n)
      = (m ((c : Thread nD τ).loc main_arg5) : S8192x2048x3.Idx → Elt F .f32) (ValueIdx.ix3 b n j) := by
  refine (congrFun (V_v85_eq m c) (ValueIdx.ix3 b j n)).trans ?_
  exact ValueIdx.transpose_ix3_021_apply (m := 8192) (a := 2048) (b := 3) _ transposes_S8192x2048x3_S8192x3x2048_0_2_1 b j n

end Cert.KernelIdeal.HF

end
-- ==== Proof.RefOps.lean ====
/-
  The reference program as a list of operations.

  The reference is a straight line of tensor operations on one device: the four private functions it calls are
  executed where they are called, on buffers of their own, so the whole program is one list of operations in program
  order.  The list is stated in two halves — everything up to and including the two pose losses, then the reprojection
  loss.
-/
import proofs.«133085_j17540646437328_1_alg».proof.Proof.Gen.ReferenceIdeal
import Idealize.ShloMosaic.Lib.StableHlo.Run

noncomputable section

namespace Cert.ReferenceIdeal.HRun

open Cert.ReferenceIdeal Cert.ReferenceIdeal.Gen Idealize.ShloMosaic Idealize.ShloMosaic.TcCoe Idealize.SL.Sem

variable {F : FTy → Type} [FloatOps F]

set_option maxHeartbeats 40000000 in
set_option maxRecDepth 8192 in
/-- The operations up to and including the second pose loss: the sign vector, the norm of the predicted quaternion
    (the first called function, inline), the normalised and conjugated quaternion, its four components, the nine
    entries of the rotation matrix, their concatenation and reshape, then the translation loss (the second called
    function inline, the sum over the batch and its division) and the quaternion loss (the third called function
    inline, likewise). -/
abbrev opsPre : List (HloOp τ sig (Elt F)) :=
  [ StableHlo.nullary main_cst (fun i => FloatOps.ofBits .f32 (lit0 (S4.rowMajor i))),
    StableHlo.TRef.binary (.of main_arg1 : StableHlo.TRef sig ⟨S8192x4, .f32⟩) (.of main_arg1 : StableHlo.TRef sig ⟨S8192x4, .f32⟩) (.of main_call0_v0 : StableHlo.TRef sig ⟨S8192x4, .f32⟩) mulf,
    StableHlo.TRef.nullary (.of main_call0_cst : StableHlo.TRef sig ⟨S_, .f32⟩) (constant S_ .f32 0x00000000#32),
    StableHlo.TRef.binary (.of main_call0_v0 : StableHlo.TRef sig ⟨S8192x4, .f32⟩) (.of main_call0_cst : StableHlo.TRef sig ⟨S_, .f32⟩) (.of main_call0_v1 : StableHlo.TRef sig ⟨S8192, .f32⟩) (fun x v => Host.reduceAdd x v reducesTo_S8192x4_S8192_d1 h_S_),
    StableHlo.TRef.unary (.of main_call0_v1 : StableHlo.TRef sig ⟨S8192, .f32⟩) (.of main_call0_v2 : StableHlo.TRef sig ⟨S8192x1, .f32⟩) (broadcastInDim S8192x1 ![0] bcast_S8192_S8192x1_0),
    StableHlo.TRef.unary (.of main_call0_v2 : StableHlo.TRef sig ⟨S8192x1, .f32⟩) (.of main_v0 : StableHlo.TRef sig ⟨S8192x1, .f32⟩) Host.sqrt,
    StableHlo.unary main_v0 main_v1 (broadcastInDim S8192x4 ![0, 1] bcast_S8192x1_S8192x4_0_1 : (⟨S8192x1, .f32⟩ : BufTy).Contents (Elt F) → (⟨S8192x4, .f32⟩ : BufTy).Contents (Elt F)),
    StableHlo.binary main_arg1 main_v1 main_v2 (Host.divf : (⟨S8192x4, .f32⟩ : BufTy).Contents (Elt F) → (⟨S8192x4, .f32⟩ : BufTy).Contents (Elt F) → (⟨S8192x4, .f32⟩ : BufTy).Contents (Elt F)),
    StableHlo.unary main_cst main_v3 (broadcastInDim S1x4 ![1] bcast_S4_S1x4_1 : (⟨S4, .f32⟩ : BufTy).Contents (Elt F) → (⟨S1x4, .f32⟩ : BufTy).Contents (Elt F)),
    StableHlo.unary main_v3 main_v4 (broadcastInDim S8192x4 ![0, 1] bcast_S1x4_S8192x4_0_1 : (⟨S1x4, .f32⟩ : BufTy).Contents (Elt F) → (⟨S8192x4, .f32⟩ : BufTy).Contents (Elt F)),
    StableHlo.binary main_v2 main_v4 main_v5 (mulf : (⟨S8192x4, .f32⟩ : BufTy).Contents (Elt F) → (⟨S8192x4, .f32⟩ : BufTy).Contents (Elt F) → (⟨S8192x4, .f32⟩ : BufTy).Contents (Elt F)),
    StableHlo.unary main_v5 main_v6 ((extractStridedSlice S8192x1 ![0, 0] · slices_S8192x4_S8192x1_0_0) : (⟨S8192x4, .f32⟩ : BufTy).Contents (Elt F) → (⟨S8192x1, .f32⟩ : BufTy).Contents (Elt F)),
    StableHlo.reshape main_v6 main_v7 rfl shapeCasts_S8192x1_S8192,
    StableHlo.unary main_v5 main_v8 ((extractStridedSlice S8192x1 ![0, 1] · slices_S8192x4_S8192x1_0_1) : (⟨S8192x4, .f32⟩ : BufTy).Contents (Elt F) → (⟨S8192x1, .f32⟩ : BufTy).Contents (Elt F)),
    StableHlo.reshape main_v8 main_v9 rfl shapeCasts_S8192x1_S8192,
    StableHlo.unary main_v5 main_v10 ((extractStridedSlice S8192x1 ![0, 2] · slices_S8192x4_S8192x1_0_2) : (⟨S8192x4, .f32⟩ : BufTy).Contents (Elt F) → (⟨S8192x1, .f32⟩ : BufTy).Contents (Elt F)),
    StableHlo.reshape main_v10 main_v11 rfl shapeCasts_S8192x1_S8192,
    StableHlo.unary main_v5 main_v12 ((extractStridedSlice S8192x1 ![0, 3] · slices_S8192x4_S8192x1_0_3) : (⟨S8192x4, .f32⟩ : BufTy).Contents (Elt F) → (⟨S8192x1, .f32⟩ : BufTy).Contents (Elt F)),
    StableHlo.reshape main_v12 main_v13 rfl shapeCasts_S8192x1_S8192,
    StableHlo.binary main_v11 main_v11 main_v14 (mulf : (⟨S8192, .f32⟩ : BufTy).Contents (Elt F) → (⟨S8192, .f32⟩ : BufTy).Contents (Elt F) → (⟨S8192, .f32⟩ : BufTy).Contents (Elt F)),
    StableHlo.binary main_v13 main_v13 main_v15 (mulf : (⟨S8192, .f32⟩ : BufTy).Contents (Elt F) → (⟨S8192, .f32⟩ : BufTy).Contents (Elt F) → (⟨S8192, .f32⟩ : BufTy).Contents (Elt F)),
    StableHlo.binary main_v14 main_v15 main_v16 (addf : (⟨S8192, .f32⟩ : BufTy).Contents (Elt F) → (⟨S8192, .f32⟩ : BufTy).Contents (Elt F) → (⟨S8192, .f32⟩ : BufTy).Contents (Elt F)),
    StableHlo.nullary main_cst_0 (constant S_ .f32 0x40000000#32),
    StableHlo.unary main_cst_0 main_v17 (broadcastInDim S8192 ![] bcast_S_S8192 : (⟨S_, .f32⟩ : BufTy).Contents (Elt F) → (⟨S8192, .f32⟩ : BufTy).Contents (Elt F)),
    StableHlo.binary main_v17 main_v16 main_v18 (mulf : (⟨S8192, .f32⟩ : BufTy).Contents (Elt F) → (⟨S8192, .f32⟩ : BufTy).Contents (Elt F) → (⟨S8192, .f32⟩ : BufTy).Contents (Elt F)),
    StableHlo.nullary main_cst_1 (constant S_ .f32 0x3F800000#32),
    StableHlo.unary main_cst_1 main_v19 (broadcastInDim S8192 ![] bcast_S_S8192 : (⟨S_, .f32⟩ : BufTy).Contents (Elt F) → (⟨S8192, .f32⟩ : BufTy).Contents (Elt F)),
    StableHlo.binary main_v19 main_v18 main_v20 (subf : (⟨S8192, .f32⟩ : BufTy).Contents (Elt F) → (⟨S8192, .f32⟩ : BufTy).Contents (Elt F) → (⟨S8192, .f32⟩ : BufTy).Contents (Elt F)),
    StableHlo.binary main_v9 main_v11 main_v21 (mulf : (⟨S8192, .f32⟩ : BufTy).Contents (Elt F) → (⟨S8192, .f32⟩ : BufTy).Contents (Elt F) → (⟨S8192, .f32⟩ : BufTy).Contents (Elt F)),
    StableHlo.binary main_v13 main_v7 main_v22 (mulf : (⟨S8192, .f32⟩ : BufTy).Contents (Elt F) → (⟨S8192, .f32⟩ : BufTy).Contents (Elt F) → (⟨S8192, .f32⟩ : BufTy).Contents (Elt F)),
    StableHlo.binary main_v21 main_v22 main_v23 (subf : (⟨S8192, .f32⟩ : BufTy).Contents (Elt F) → (⟨S8192, .f32⟩ : BufTy).Contents (Elt F) → (⟨S8192, .f32⟩ : BufTy).Contents (Elt F)),
    StableHlo.nullary main_cst_2 (constant S_ .f32 0x40000000#32),
    StableHlo.unary main_cst_2 main_v24 (broadcastInDim S8192 ![] bcast_S_S8192 : (⟨S_, .f32⟩ : BufTy).Contents (Elt F) → (⟨S8192, .f32⟩ : BufTy).Contents (Elt F)),
    StableHlo.binary main_v24 main_v23 main_v25 (mulf : (⟨S8192, .f32⟩ : BufTy).Contents (Elt F) → (⟨S8192, .f32⟩ : BufTy).Contents (Elt F) → (⟨S8192, .f32⟩ : BufTy).Contents (Elt F)),
    StableHlo.binary main_v9 main_v13 main_v26 (mulf : (⟨S8192, .f32⟩ : BufTy).Contents (Elt F) → (⟨S8192, .f32⟩ : BufTy).Contents (Elt F) → (⟨S8192, .f32⟩ : BufTy).Contents (Elt F)),
    StableHlo.binary main_v11 main_v7 main_v27 (mulf : (⟨S8192, .f32⟩ : BufTy).Contents (Elt F) → (⟨S8192, .f32⟩ : BufTy).Contents (Elt F) → (⟨S8192, .f32⟩ : BufTy).Contents (Elt F)),
    StableHlo.binary main_v26 main_v27 main_v28 (addf : (⟨S8192, .f32⟩ : BufTy).Contents (Elt F) → (⟨S8192, .f32⟩ : BufTy).Contents (Elt F) → (⟨S8192, .f32⟩ : BufTy).Contents (Elt F)),
    StableHlo.nullary main_cst_3 (constant S_ .f32 0x40000000#32),
    StableHlo.unary main_cst_3 main_v29 (broadcastInDim S8192 ![] bcast_S_S8192 : (⟨S_, .f32⟩ : BufTy).Contents (Elt F) → (⟨S8192, .f32⟩ : BufTy).Contents (Elt F)),
    StableHlo.binary main_v29 main_v28 main_v30 (mulf : (⟨S8192, .f32⟩ : BufTy).Contents (Elt F) → (⟨S8192, .f32⟩ : BufTy).Contents (Elt F) → (⟨S8192, .f32⟩ : BufTy).Contents (Elt F)),
    StableHlo.binary main_v9 main_v11 main_v31 (mulf : (⟨S8192, .f32⟩ : BufTy).Contents (Elt F) → (⟨S8192, .f32⟩ : BufTy).Contents (Elt F) → (⟨S8192, .f32⟩ : BufTy).Contents (Elt F)),
    StableHlo.binary main_v13 main_v7 main_v32 (mulf : (⟨S8192, .f32⟩ : BufTy).Contents (Elt F) → (⟨S8192, .f32⟩ : BufTy).Contents (Elt F) → (⟨S8192, .f32⟩ : BufTy).Contents (Elt F)),
    StableHlo.binary main_v31 main_v32 main_v33 (addf : (⟨S8192, .f32⟩ : BufTy).Contents (Elt F) → (⟨S8192, .f32⟩ : BufTy).Contents (Elt F) → (⟨S8192, .f32⟩ : BufTy).Contents (Elt F)),
    StableHlo.nullary main_cst_4 (constant S_ .f32 0x40000000#32),
    StableHlo.unary main_cst_4 main_v34 (broadcastInDim S8192 ![] bcast_S_S8192 : (⟨S_, .f32⟩ : BufTy).Contents (Elt F) → (⟨S8192, .f32⟩ : BufTy).Contents (Elt F)),
    StableHlo.binary main_v34 main_v33 main_v35 (mulf : (⟨S8192, .f32⟩ : BufTy).Contents (Elt F) → (⟨S8192, .f32⟩ : BufTy).Contents (Elt F) → (⟨S8192, .f32⟩ : BufTy).Contents (Elt F)),
    StableHlo.binary main_v9 main_v9 main_v36 (mulf : (⟨S8192, .f32⟩ : BufTy).Contents (Elt F) → (⟨S8192, .f32⟩ : BufTy).Contents (Elt F) → (⟨S8192, .f32⟩ : BufTy).Contents (Elt F)),
    StableHlo.binary main_v13 main_v13 main_v37 (mulf : (⟨S8192, .f32⟩ : BufTy).Contents (Elt F) → (⟨S8192, .f32⟩ : BufTy).Contents (Elt F) → (⟨S8192, .f32⟩ : BufTy).Contents (Elt F)),
    StableHlo.binary main_v36 main_v37 main_v38 (addf : (⟨S8192, .f32⟩ : BufTy).Contents (Elt F) → (⟨S8192, .f32⟩ : BufTy).Contents (Elt F) → (⟨S8192, .f32⟩ : BufTy).Contents (Elt F)),
    StableHlo.nullary main_cst_5 (constant S_ .f32 0x40000000#32),
    StableHlo.unary main_cst_5 main_v39 (broadcastInDim S8192 ![] bcast_S_S8192 : (⟨S_, .f32⟩ : BufTy).Contents (Elt F) → (⟨S8192, .f32⟩ : BufTy).Contents (Elt F)),
    StableHlo.binary main_v39 main_v38 main_v40 (mulf : (⟨S8192, .f32⟩ : BufTy).Contents (Elt F) → (⟨S8192, .f32⟩ : BufTy).Contents (Elt F) → (⟨S8192, .f32⟩ : BufTy).Contents (Elt F)),
    StableHlo.nullary main_cst_6 (constant S_ .f32 0x3F800000#32),
    StableHlo.unary main_cst_6 main_v41 (broadcastInDim S8192 ![] bcast_S_S8192 : (⟨S_, .f32⟩ : BufTy).Contents (Elt F) → (⟨S8192, .f32⟩ : BufTy).Contents (Elt F)),
    StableHlo.binary main_v41 main_v40 main_v42 (subf : (⟨S8192, .f32⟩ : BufTy).Contents (Elt F) → (⟨S8192, .f32⟩ : BufTy).Contents (Elt F) → (⟨S8192, .f32⟩ : BufTy).Contents (Elt F)),
    StableHlo.binary main_v11 main_v13 main_v43 (mulf : (⟨S8192, .f32⟩ : BufTy).Contents (Elt F) → (⟨S8192, .f32⟩ : BufTy).Contents (Elt F) → (⟨S8192, .f32⟩ : BufTy).Contents (Elt F)),
    StableHlo.binary main_v9 main_v7 main_v44 (mulf : (⟨S8192, .f32⟩ : BufTy).Contents (Elt F) → (⟨S8192, .f32⟩ : BufTy).Contents (Elt F) → (⟨S8192, .f32⟩ : BufTy).Contents (Elt F)),
    StableHlo.binary main_v43 main_v44 main_v45 (subf : (⟨S8192, .f32⟩ : BufTy).Contents (Elt F) → (⟨S8192, .f32⟩ : BufTy).Contents (Elt F) → (⟨S8192, .f32⟩ : BufTy).Contents (Elt F)),
    StableHlo.nullary main_cst_7 (constant S_ .f32 0x40000000#32),
    StableHlo.unary main_cst_7 main_v46 (broadcastInDim S8192 ![] bcast_S_S8192 : (⟨S_, .f32⟩ : BufTy).Contents (Elt F) → (⟨S8192, .f32⟩ : BufTy).Contents (Elt F)),
    StableHlo.binary main_v46 main_v45 main_v47 (mulf : (⟨S8192, .f32⟩ : BufTy).Contents (Elt F) → (⟨S8192, .f32⟩ : BufTy).Contents (Elt F) → (⟨S8192, .f32⟩ : BufTy).Contents (Elt F)),
    StableHlo.binary main_v9 main_v13 main_v48 (mulf : (⟨S8192, .f32⟩ : BufTy).Contents (Elt F) → (⟨S8192, .f32⟩ : BufTy).Contents (Elt F) → (⟨S8192, .f32⟩ : BufTy).Contents (Elt F)),
    StableHlo.binary main_v11 main_v7 main_v49 (mulf : (⟨S8192, .f32⟩ : BufTy).Contents (Elt F) → (⟨S8192, .f32⟩ : BufTy).Contents (Elt F) → (⟨S8192, .f32⟩ : BufTy).Contents (Elt F)),
    StableHlo.binary main_v48 main_v49 main_v50 (subf : (⟨S8192, .f32⟩ : BufTy).Contents (Elt F) → (⟨S8192, .f32⟩ : BufTy).Contents (Elt F) → (⟨S8192, .f32⟩ : BufTy).Contents (Elt F)),
    StableHlo.nullary main_cst_8 (constant S_ .f32 0x40000000#32),
    StableHlo.unary main_cst_8 main_v51 (broadcastInDim S8192 ![] bcast_S_S8192 : (⟨S_, .f32⟩ : BufTy).Contents (Elt F) → (⟨S8192, .f32⟩ : BufTy).Contents (Elt F)),
    StableHlo.binary main_v51 main_v50 main_v52 (mulf : (⟨S8192, .f32⟩ : BufTy).Contents (Elt F) → (⟨S8192, .f32⟩ : BufTy).Contents (Elt F) → (⟨S8192, .f32⟩ : BufTy).Contents (Elt F)),
    StableHlo.binary main_v11 main_v13 main_v53 (mulf : (⟨S8192, .f32⟩ : BufTy).Contents (Elt F) → (⟨S8192, .f32⟩ : BufTy).Contents (Elt F) → (⟨S8192, .f32⟩ : BufTy).Contents (Elt F)),
    StableHlo.binary main_v9 main_v7 main_v54 (mulf : (⟨S8192, .f32⟩ : BufTy).Contents (Elt F) → (⟨S8192, .f32⟩ : BufTy).Contents (Elt F) → (⟨S8192, .f32⟩ : BufTy).Contents (Elt F)),
    StableHlo.binary main_v53 main_v54 main_v55 (addf : (⟨S8192, .f32⟩ : BufTy).Contents (Elt F) → (⟨S8192, .f32⟩ : BufTy).Contents (Elt F) → (⟨S8192, .f32⟩ : BufTy).Contents (Elt F)),
    StableHlo.nullary main_cst_9 (constant S_ .f32 0x40000000#32),
    StableHlo.unary main_cst_9 main_v56 (broadcastInDim S8192 ![] bcast_S_S8192 : (⟨S_, .f32⟩ : BufTy).Contents (Elt F) → (⟨S8192, .f32⟩ : BufTy).Contents (Elt F)),
    StableHlo.binary main_v56 main_v55 main_v57 (mulf : (⟨S8192, .f32⟩ : BufTy).Contents (Elt F) → (⟨S8192, .f32⟩ : BufTy).Contents (Elt F) → (⟨S8192, .f32⟩ : BufTy).Contents (Elt F)),
    StableHlo.binary main_v9 main_v9 main_v58 (mulf : (⟨S8192, .f32⟩ : BufTy).Contents (Elt F) → (⟨S8192, .f32⟩ : BufTy).Contents (Elt F) → (⟨S8192, .f32⟩ : BufTy).Contents (Elt F)),
    StableHlo.binary main_v11 main_v11 main_v59 (mulf : (⟨S8192, .f32⟩ : BufTy).Contents (Elt F) → (⟨S8192, .f32⟩ : BufTy).Contents (Elt F) → (⟨S8192, .f32⟩ : BufTy).Contents (Elt F)),
    StableHlo.binary main_v58 main_v59 main_v60 (addf : (⟨S8192, .f32⟩ : BufTy).Contents (Elt F) → (⟨S8192, .f32⟩ : BufTy).Contents (Elt F) → (⟨S8192, .f32⟩ : BufTy).Contents (Elt F)),
    StableHlo.nullary main_cst_10 (constant S_ .f32 0x40000000#32),
    StableHlo.unary main_cst_10 main_v61 (broadcastInDim S8192 ![] bcast_S_S8192 : (⟨S_, .f32⟩ : BufTy).Contents (Elt F) → (⟨S8192, .f32⟩ : BufTy).Contents (Elt F)),
    StableHlo.binary main_v61 main_v60 main_v62 (mulf : (⟨S8192, .f32⟩ : BufTy).Contents (Elt F) → (⟨S8192, .f32⟩ : BufTy).Contents (Elt F) → (⟨S8192, .f32⟩ : BufTy).Contents (Elt F)),
    StableHlo.nullary main_cst_11 (constant S_ .f32 0x3F800000#32),
    StableHlo.unary main_cst_11 main_v63 (broadcastInDim S8192 ![] bcast_S_S8192 : (⟨S_, .f32⟩ : BufTy).Contents (Elt F) → (⟨S8192, .f32⟩ : BufTy).Contents (Elt F)),
    StableHlo.binary main_v63 main_v62 main_v64 (subf : (⟨S8192, .f32⟩ : BufTy).Contents (Elt F) → (⟨S8192, .f32⟩ : BufTy).Contents (Elt F) → (⟨S8192, .f32⟩ : BufTy).Contents (Elt F)),
    StableHlo.unary main_v20 main_v65 (broadcastInDim S8192x1 ![0] bcast_S8192_S8192x1_0 : (⟨S8192, .f32⟩ : BufTy).Contents (Elt F) → (⟨S8192x1, .f32⟩ : BufTy).Contents (Elt F)),
    StableHlo.unary main_v25 main_v66 (broadcastInDim S8192x1 ![0] bcast_S8192_S8192x1_0 : (⟨S8192, .f32⟩ : BufTy).Contents (Elt F) → (⟨S8192x1, .f32⟩ : BufTy).Contents (Elt F)),
    StableHlo.unary main_v30 main_v67 (broadcastInDim S8192x1 ![0] bcast_S8192_S8192x1_0 : (⟨S8192, .f32⟩ : BufTy).Contents (Elt F) → (⟨S8192x1, .f32⟩ : BufTy).Contents (Elt F)),
    StableHlo.unary main_v35 main_v68 (broadcastInDim S8192x1 ![0] bcast_S8192_S8192x1_0 : (⟨S8192, .f32⟩ : BufTy).Contents (Elt F) → (⟨S8192x1, .f32⟩ : BufTy).Contents (Elt F)),
    StableHlo.unary main_v42 main_v69 (broadcastInDim S8192x1 ![0] bcast_S8192_S8192x1_0 : (⟨S8192, .f32⟩ : BufTy).Contents (Elt F) → (⟨S8192x1, .f32⟩ : BufTy).Contents (Elt F)),
    StableHlo.unary main_v47 main_v70 (broadcastInDim S8192x1 ![0] bcast_S8192_S8192x1_0 : (⟨S8192, .f32⟩ : BufTy).Contents (Elt F) → (⟨S8192x1, .f32⟩ : BufTy).Contents (Elt F)),
    StableHlo.unary main_v52 main_v71 (broadcastInDim S8192x1 ![0] bcast_S8192_S8192x1_0 : (⟨S8192, .f32⟩ : BufTy).Contents (Elt F) → (⟨S8192x1, .f32⟩ : BufTy).Contents (Elt F)),
    StableHlo.unary main_v57 main_v72 (broadcastInDim S8192x1 ![0] bcast_S8192_S8192x1_0 : (⟨S8192, .f32⟩ : BufTy).Contents (Elt F) → (⟨S8192x1, .f32⟩ : BufTy).Contents (Elt F)),
    StableHlo.unary main_v64 main_v73 (broadcastInDim S8192x1 ![0] bcast_S8192_S8192x1_0 : (⟨S8192, .f32⟩ : BufTy).Contents (Elt F) → (⟨S8192x1, .f32⟩ : BufTy).Contents (Elt F)),
    StableHlo.nary ![main_v65, main_v66, main_v67, main_v68, main_v69, main_v70, main_v71, main_v72, main_v73] main_v74 (fun u => concatenate S8192x9 1 [⟨S8192x1, u 0⟩, ⟨S8192x1, u 1⟩, ⟨S8192x1, u 2⟩, ⟨S8192x1, u 3⟩, ⟨S8192x1, u 4⟩, ⟨S8192x1, u 5⟩, ⟨S8192x1, u 6⟩, ⟨S8192x1, u 7⟩, ⟨S8192x1, u 8⟩] concatenates_S8192x1_S8192x1_S8192x1_S8192x1_S8192x1_S8192x1_S8192x1_S8192x1_S8192x1_S8192x9_d1),
    StableHlo.reshape main_v74 main_v75 rfl shapeCasts_S8192x9_S8192x3x3,
    StableHlo.reshape main_arg2 main_v76 rfl shapeCasts_S8192x3x1_S8192x3,
    StableHlo.binary main_arg0 main_v76 main_v77 (subf : (⟨S8192x3, .f32⟩ : BufTy).Contents (Elt F) → (⟨S8192x3, .f32⟩ : BufTy).Contents (Elt F) → (⟨S8192x3, .f32⟩ : BufTy).Contents (Elt F)),
    StableHlo.TRef.binary (.of main_v77 : StableHlo.TRef sig ⟨S8192x3, .f32⟩) (.of main_v77 : StableHlo.TRef sig ⟨S8192x3, .f32⟩) (.of main_call1_v0 : StableHlo.TRef sig ⟨S8192x3, .f32⟩) mulf,
    StableHlo.TRef.nullary (.of main_call1_cst : StableHlo.TRef sig ⟨S_, .f32⟩) (constant S_ .f32 0x00000000#32),
    StableHlo.TRef.binary (.of main_call1_v0 : StableHlo.TRef sig ⟨S8192x3, .f32⟩) (.of main_call1_cst : StableHlo.TRef sig ⟨S_, .f32⟩) (.of main_call1_v1 : StableHlo.TRef sig ⟨S8192, .f32⟩) (fun x v => Host.reduceAdd x v reducesTo_S8192x3_S8192_d1 h_S_),
    StableHlo.TRef.unary (.of main_call1_v1 : StableHlo.TRef sig ⟨S8192, .f32⟩) (.of main_v78 : StableHlo.TRef sig ⟨S8192, .f32⟩) Host.sqrt,
    StableHlo.nullary main_cst_12 (constant S_ .f32 0x00000000#32),
    StableHlo.binary main_v78 main_cst_12 main_v79 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_13 (constant S_ .f32 0x46000000#32),
    StableHlo.binary main_v79 main_cst_13 main_v80 (Host.divf : (⟨S_, .f32⟩ : BufTy).Contents (Elt F) → (⟨S_, .f32⟩ : BufTy).Contents (Elt F) → (⟨S_, .f32⟩ : BufTy).Contents (Elt F)),
    StableHlo.binary main_v5 main_arg3 main_v81 (subf : (⟨S8192x4, .f32⟩ : BufTy).Contents (Elt F) → (⟨S8192x4, .f32⟩ : BufTy).Contents (Elt F) → (⟨S8192x4, .f32⟩ : BufTy).Contents (Elt F)),
    StableHlo.TRef.binary (.of main_v81 : StableHlo.TRef sig ⟨S8192x4, .f32⟩) (.of main_v81 : StableHlo.TRef sig ⟨S8192x4, .f32⟩) (.of main_call2_v0 : StableHlo.TRef sig ⟨S8192x4, .f32⟩) mulf,
    StableHlo.TRef.nullary (.of main_call2_cst : StableHlo.TRef sig ⟨S_, .f32⟩) (constant S_ .f32 0x00000000#32),
    StableHlo.TRef.binary (.of main_call2_v0 : StableHlo.TRef sig ⟨S8192x4, .f32⟩) (.of main_call2_cst : StableHlo.TRef sig ⟨S_, .f32⟩) (.of main_call2_v1 : StableHlo.TRef sig ⟨S8192, .f32⟩) (fun x v => Host.reduceAdd x v reducesTo_S8192x4_S8192_d1 h_S_),
    StableHlo.TRef.unary (.of main_call2_v1 : StableHlo.TRef sig ⟨S8192, .f32⟩) (.of main_v82 : StableHlo.TRef sig ⟨S8192, .f32⟩) Host.sqrt,
    StableHlo.nullary main_cst_14 (constant S_ .f32 0x00000000#32),
    StableHlo.binary main_v82 main_cst_14 main_v83 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_15 (constant S_ .f32 0x46000000#32),
    StableHlo.binary main_v83 main_cst_15 main_v84 (Host.divf : (⟨S_, .f32⟩ : BufTy).Contents (Elt F) → (⟨S_, .f32⟩ : BufTy).Contents (Elt F) → (⟨S_, .f32⟩ : BufTy).Contents (Elt F)) ]

set_option maxHeartbeats 40000000 in
set_option maxRecDepth 8192 in
/-- The rest, the reprojection loss: the world points taken relative to each pose's translation, the two batched
    products with the rotation matrices, each projection as the first two coordinates divided by the third, the
    absolute difference summed over the two coordinates and then over the points, the division by the number of
    points, the replacement of the non-numbers and the two infinities (the fourth called function inline, itself
    calling the selection function three times), and the mean over the batch. -/
abbrev opsTail : List (HloOp τ sig (Elt F)) :=
  [ StableHlo.reshape main_arg2 main_v85 rfl shapeCasts_S8192x3x1_S8192x3,
    StableHlo.unary main_v85 main_v86 (broadcastInDim S8192x1x3 ![0, 2] bcast_S8192x3_S8192x1x3_0_2 : (⟨S8192x3, .f32⟩ : BufTy).Contents (Elt F) → (⟨S8192x1x3, .f32⟩ : BufTy).Contents (Elt F)),
    StableHlo.unary main_v86 main_v87 (broadcastInDim S8192x2048x3 ![0, 1, 2] bcast_S8192x1x3_S8192x2048x3_0_1_2 : (⟨S8192x1x3, .f32⟩ : BufTy).Contents (Elt F) → (⟨S8192x2048x3, .f32⟩ : BufTy).Contents (Elt F)),
    StableHlo.binary main_arg5 main_v87 main_v88 (subf : (⟨S8192x2048x3, .f32⟩ : BufTy).Contents (Elt F) → (⟨S8192x2048x3, .f32⟩ : BufTy).Contents (Elt F) → (⟨S8192x2048x3, .f32⟩ : BufTy).Contents (Elt F)),
    StableHlo.unary main_arg0 main_v89 (broadcastInDim S8192x1x3 ![0, 2] bcast_S8192x3_S8192x1x3_0_2 : (⟨S8192x3, .f32⟩ : BufTy).Contents (Elt F) → (⟨S8192x1x3, .f32⟩ : BufTy).Contents (Elt F)),
    StableHlo.unary main_v89 main_v90 (broadcastInDim S8192x2048x3 ![0, 1, 2] bcast_S8192x1x3_S8192x2048x3_0_1_2 : (⟨S8192x1x3, .f32⟩ : BufTy).Contents (Elt F) → (⟨S8192x2048x3, .f32⟩ : BufTy).Contents (Elt F)),
    StableHlo.binary main_arg5 main_v90 main_v91 (subf : (⟨S8192x2048x3, .f32⟩ : BufTy).Contents (Elt F) → (⟨S8192x2048x3, .f32⟩ : BufTy).Contents (Elt F) → (⟨S8192x2048x3, .f32⟩ : BufTy).Contents (Elt F)),
    StableHlo.binary main_v88 main_arg4 main_v92 ((fun l r => Host.dotGeneral dot_S8192x2048x3_S8192x3x3_S8192x2048x3_2_2_1_1_0_0 none l r) : (⟨S8192x2048x3, .f32⟩ : BufTy).Contents (Elt F) → (⟨S8192x3x3, .f32⟩ : BufTy).Contents (Elt F) → (⟨S8192x2048x3, .f32⟩ : BufTy).Contents (Elt F)),
    StableHlo.binary main_v91 main_v75 main_v93 ((fun l r => Host.dotGeneral dot_S8192x2048x3_S8192x3x3_S8192x2048x3_2_2_1_1_0_0 none l r) : (⟨S8192x2048x3, .f32⟩ : BufTy).Contents (Elt F) → (⟨S8192x3x3, .f32⟩ : BufTy).Contents (Elt F) → (⟨S8192x2048x3, .f32⟩ : BufTy).Contents (Elt F)),
    StableHlo.unary main_v92 main_v94 ((extractStridedSlice S8192x2048x2 ![0, 0, 0] · slices_S8192x2048x3_S8192x2048x2_0_0_0) : (⟨S8192x2048x3, .f32⟩ : BufTy).Contents (Elt F) → (⟨S8192x2048x2, .f32⟩ : BufTy).Contents (Elt F)),
    StableHlo.unary main_v92 main_v95 ((extractStridedSlice S8192x2048x1 ![0, 0, 2] · slices_S8192x2048x3_S8192x2048x1_0_0_2) : (⟨S8192x2048x3, .f32⟩ : BufTy).Contents (Elt F) → (⟨S8192x2048x1, .f32⟩ : BufTy).Contents (Elt F)),
    StableHlo.unary main_v95 main_v96 (broadcastInDim S8192x2048x2 ![0, 1, 2] bcast_S8192x2048x1_S8192x2048x2_0_1_2 : (⟨S8192x2048x1, .f32⟩ : BufTy).Contents (Elt F) → (⟨S8192x2048x2, .f32⟩ : BufTy).Contents (Elt F)),
    StableHlo.binary main_v94 main_v96 main_v97 (Host.divf : (⟨S8192x2048x2, .f32⟩ : BufTy).Contents (Elt F) → (⟨S8192x2048x2, .f32⟩ : BufTy).Contents (Elt F) → (⟨S8192x2048x2, .f32⟩ : BufTy).Contents (Elt F)),
    StableHlo.unary main_v93 main_v98 ((extractStridedSlice S8192x2048x2 ![0, 0, 0] · slices_S8192x2048x3_S8192x2048x2_0_0_0) : (⟨S8192x2048x3, .f32⟩ : BufTy).Contents (Elt F) → (⟨S8192x2048x2, .f32⟩ : BufTy).Contents (Elt F)),
    StableHlo.unary main_v93 main_v99 ((extractStridedSlice S8192x2048x1 ![0, 0, 2] · slices_S8192x2048x3_S8192x2048x1_0_0_2) : (⟨S8192x2048x3, .f32⟩ : BufTy).Contents (Elt F) → (⟨S8192x2048x1, .f32⟩ : BufTy).Contents (Elt F)),
    StableHlo.unary main_v99 main_v100 (broadcastInDim S8192x2048x2 ![0, 1, 2] bcast_S8192x2048x1_S8192x2048x2_0_1_2 : (⟨S8192x2048x1, .f32⟩ : BufTy).Contents (Elt F) → (⟨S8192x2048x2, .f32⟩ : BufTy).Contents (Elt F)),
    StableHlo.binary main_v98 main_v100 main_v101 (Host.divf : (⟨S8192x2048x2, .f32⟩ : BufTy).Contents (Elt F) → (⟨S8192x2048x2, .f32⟩ : BufTy).Contents (Elt F) → (⟨S8192x2048x2, .f32⟩ : BufTy).Contents (Elt F)),
    StableHlo.binary main_v101 main_v97 main_v102 (subf : (⟨S8192x2048x2, .f32⟩ : BufTy).Contents (Elt F) → (⟨S8192x2048x2, .f32⟩ : BufTy).Contents (Elt F) → (⟨S8192x2048x2, .f32⟩ : BufTy).Contents (Elt F)),
    StableHlo.unary main_v102 main_v103 (Host.absf : (⟨S8192x2048x2, .f32⟩ : BufTy).Contents (Elt F) → (⟨S8192x2048x2, .f32⟩ : BufTy).Contents (Elt F)),
    StableHlo.nullary main_cst_16 (constant S_ .f32 0x00000000#32),
    StableHlo.binary main_v103 main_cst_16 main_v104 ((fun x v => Host.reduceAdd x v reducesTo_S8192x2048x2_S8192x2048_d2 h_S_) : (⟨S8192x2048x2, .f32⟩ : BufTy).Contents (Elt F) → (⟨S_, .f32⟩ : BufTy).Contents (Elt F) → (⟨S8192x2048, .f32⟩ : BufTy).Contents (Elt F)),
    StableHlo.nullary main_cst_17 (constant S_ .f32 0x00000000#32),
    StableHlo.binary main_v104 main_cst_17 main_v105 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    StableHlo.nullary main_cst_18 (constant S_ .f32 0x45000000#32),
    StableHlo.unary main_cst_18 main_v106 (broadcastInDim S8192 ![] bcast_S_S8192 : (⟨S_, .f32⟩ : BufTy).Contents (Elt F) → (⟨S8192, .f32⟩ : BufTy).Contents (Elt F)),
    StableHlo.binary main_v105 main_v106 main_v107 (Host.divf : (⟨S8192, .f32⟩ : BufTy).Contents (Elt F) → (⟨S8192, .f32⟩ : BufTy).Contents (Elt F) → (⟨S8192, .f32⟩ : BufTy).Contents (Elt F)),
    StableHlo.TRef.binary (.of main_v107 : StableHlo.TRef sig ⟨S8192, .f32⟩) (.of main_v107 : StableHlo.TRef sig ⟨S8192, .f32⟩) (.of main_call3_v0 : StableHlo.TRef sig ⟨S8192, .i1⟩) (cmpf .une),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_call0_v0 : StableHlo.TRef sig ⟨S8192, .f32⟩) (broadcastInDim S8192 ![] bcast_S_S8192),
    StableHlo.TRef.ternary (.of main_call3_v0 : StableHlo.TRef sig ⟨S8192, .i1⟩) (.of main_call3_call0_v0 : StableHlo.TRef sig ⟨S8192, .f32⟩) (.of main_v107 : StableHlo.TRef sig ⟨S8192, .f32⟩) (.of main_call3_v1 : StableHlo.TRef sig ⟨S8192, .f32⟩) select,
    StableHlo.TRef.nullary (.of main_call3_cst_0 : StableHlo.TRef sig ⟨S_, .f32⟩) (constant S_ .f32 0x7F800000#32),
    StableHlo.TRef.unary (.of main_call3_cst_0 : StableHlo.TRef sig ⟨S_, .f32⟩) (.of main_call3_v2 : StableHlo.TRef sig ⟨S8192, .f32⟩) (broadcastInDim S8192 ![] bcast_S_S8192),
    StableHlo.TRef.binary (.of main_call3_v1 : StableHlo.TRef sig ⟨S8192, .f32⟩) (.of main_call3_v2 : StableHlo.TRef sig ⟨S8192, .f32⟩) (.of main_call3_v3 : StableHlo.TRef sig ⟨S8192, .i1⟩) (cmpf .oeq),
    StableHlo.TRef.nullary (.of main_call3_cst_1 : StableHlo.TRef sig ⟨S_, .f32⟩) (constant S_ .f32 0x7F7FFFFF#32),
    StableHlo.TRef.unary (.of main_call3_cst_1 : StableHlo.TRef sig ⟨S_, .f32⟩) (.of main_call3_call1_v0 : StableHlo.TRef sig ⟨S8192, .f32⟩) (broadcastInDim S8192 ![] bcast_S_S8192),
    StableHlo.TRef.ternary (.of main_call3_v3 : StableHlo.TRef sig ⟨S8192, .i1⟩) (.of main_call3_call1_v0 : StableHlo.TRef sig ⟨S8192, .f32⟩) (.of main_call3_v1 : StableHlo.TRef sig ⟨S8192, .f32⟩) (.of main_call3_v4 : StableHlo.TRef sig ⟨S8192, .f32⟩) select,
    StableHlo.TRef.nullary (.of main_call3_cst_2 : StableHlo.TRef sig ⟨S_, .f32⟩) (constant S_ .f32 0xFF800000#32),
    StableHlo.TRef.unary (.of main_call3_cst_2 : StableHlo.TRef sig ⟨S_, .f32⟩) (.of main_call3_v5 : StableHlo.TRef sig ⟨S8192, .f32⟩) (broadcastInDim S8192 ![] bcast_S_S8192),
    StableHlo.TRef.binary (.of main_call3_v4 : StableHlo.TRef sig ⟨S8192, .f32⟩) (.of main_call3_v5 : StableHlo.TRef sig ⟨S8192, .f32⟩) (.of main_call3_v6 : StableHlo.TRef sig ⟨S8192, .i1⟩) (cmpf .oeq),
    StableHlo.TRef.nullary (.of main_call3_cst_3 : StableHlo.TRef sig ⟨S_, .f32⟩) (constant S_ .f32 0xFF7FFFFF#32),
    StableHlo.TRef.unary (.of main_call3_cst_3 : StableHlo.TRef sig ⟨S_, .f32⟩) (.of main_call3_call2_v0 : StableHlo.TRef sig ⟨S8192, .f32⟩) (broadcastInDim S8192 ![] bcast_S_S8192),
    StableHlo.TRef.ternary (.of main_call3_v6 : StableHlo.TRef sig ⟨S8192, .i1⟩) (.of main_call3_call2_v0 : StableHlo.TRef sig ⟨S8192, .f32⟩) (.of main_call3_v4 : StableHlo.TRef sig ⟨S8192, .f32⟩) (.of main_v108 : StableHlo.TRef sig ⟨S8192, .f32⟩) select,
    StableHlo.nullary main_cst_19 (constant S_ .f32 0x00000000#32),
    StableHlo.binary main_v108 main_cst_19 main_v109 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_20 (constant S_ .f32 0x46000000#32),
    StableHlo.binary main_v109 main_cst_20 main_v110 (Host.divf : (⟨S_, .f32⟩ : BufTy).Contents (Elt F) → (⟨S_, .f32⟩ : BufTy).Contents (Elt F) → (⟨S_, .f32⟩ : BufTy).Contents (Elt F)) ]

/-- The whole program: the two halves in order. -/
abbrev ops : List (HloOp τ sig (Elt F)) := opsPre ++ opsTail

end Cert.ReferenceIdeal.HRun

end
-- ==== Proof.RefRun.lean ====
/-
  The run of the reference program.

  The program is shown equal to its list of operations run in sequence.  From that, every fair execution terminates,
  and afterwards each buffer holds what folding the operations' results over the launch contents gives.
-/
import proofs.«133085_j17540646437328_1_alg».proof.Proof.RefOps

noncomputable section

namespace Cert.ReferenceIdeal.HRun

open Cert.ReferenceIdeal Cert.ReferenceIdeal.Gen Idealize.ShloMosaic Idealize.ShloMosaic.TcCoe Idealize.SL.Sem

variable {F : FTy → Type} [FloatOps F]

set_option maxHeartbeats 4000000 in
set_option maxRecDepth 8192 in
/-- The program is that list run in sequence: its three windows in order, each called function's body standing at
    its call over that call's own buffers, every statement one operation step followed by the rest. -/
theorem main_eq (c : Dev nD) : main (F := F) c = StableHlo.seq ops := rfl

/-- No buffer of the reference is scoped. -/
theorem scopedRefs_eq : (Finset.univ.filter fun b : Ref sig .tc => b.isScoped) = ∅ := by decide
/-- The reference has no semaphore, so none is scoped. -/
theorem scopedSems_eq : (Finset.univ.filter fun sm : SemLoc sig => sm.isScoped .tc) = ∅ := by decide

set_option maxRecDepth 8192 in
/-- Every operation of the first half reads and writes buffers of the device only. -/
theorem opsPre_sub : (opsPre : List (HloOp τ sig (Elt F))).Forall fun op => op.bufs ⊆ StableHlo.tcRefs τ sig :=
  ⟨StableHlo.nullary_bufs_sub ..,
    StableHlo.binary_bufs_sub .., StableHlo.nullary_bufs_sub .., StableHlo.binary_bufs_sub .., StableHlo.unary_bufs_sub .., StableHlo.unary_bufs_sub ..,
    StableHlo.unary_bufs_sub .., StableHlo.binary_bufs_sub .., StableHlo.unary_bufs_sub .., StableHlo.unary_bufs_sub .., StableHlo.binary_bufs_sub ..,
    StableHlo.unary_bufs_sub .., StableHlo.reshape_bufs_sub .., StableHlo.unary_bufs_sub .., StableHlo.reshape_bufs_sub ..,
    StableHlo.unary_bufs_sub .., StableHlo.reshape_bufs_sub .., StableHlo.unary_bufs_sub .., StableHlo.reshape_bufs_sub ..,
    StableHlo.binary_bufs_sub .., StableHlo.binary_bufs_sub .., StableHlo.binary_bufs_sub ..,
    StableHlo.nullary_bufs_sub .., StableHlo.unary_bufs_sub .., StableHlo.binary_bufs_sub ..,
    StableHlo.nullary_bufs_sub .., StableHlo.unary_bufs_sub .., StableHlo.binary_bufs_sub ..,
    StableHlo.binary_bufs_sub .., StableHlo.binary_bufs_sub .., StableHlo.binary_bufs_sub ..,
    StableHlo.nullary_bufs_sub .., StableHlo.unary_bufs_sub .., StableHlo.binary_bufs_sub ..,
    StableHlo.binary_bufs_sub .., StableHlo.binary_bufs_sub .., StableHlo.binary_bufs_sub ..,
    StableHlo.nullary_bufs_sub .., StableHlo.unary_bufs_sub .., StableHlo.binary_bufs_sub ..,
    StableHlo.binary_bufs_sub .., StableHlo.binary_bufs_sub .., StableHlo.binary_bufs_sub ..,
    StableHlo.nullary_bufs_sub .., StableHlo.unary_bufs_sub .., StableHlo.binary_bufs_sub ..,
    StableHlo.binary_bufs_sub .., StableHlo.binary_bufs_sub .., StableHlo.binary_bufs_sub ..,
    StableHlo.nullary_bufs_sub .., StableHlo.unary_bufs_sub .., StableHlo.binary_bufs_sub ..,
    StableHlo.nullary_bufs_sub .., StableHlo.unary_bufs_sub .., StableHlo.binary_bufs_sub ..,
    StableHlo.binary_bufs_sub .., StableHlo.binary_bufs_sub .., StableHlo.binary_bufs_sub ..,
    StableHlo.nullary_bufs_sub .., StableHlo.unary_bufs_sub .., StableHlo.binary_bufs_sub ..,
    StableHlo.binary_bufs_sub .., StableHlo.binary_bufs_sub .., StableHlo.binary_bufs_sub ..,
    StableHlo.nullary_bufs_sub .., StableHlo.unary_bufs_sub .., StableHlo.binary_bufs_sub ..,
    StableHlo.binary_bufs_sub .., StableHlo.binary_bufs_sub .., StableHlo.binary_bufs_sub ..,
    StableHlo.nullary_bufs_sub .., StableHlo.unary_bufs_sub .., StableHlo.binary_bufs_sub ..,
    StableHlo.binary_bufs_sub .., StableHlo.binary_bufs_sub .., StableHlo.binary_bufs_sub ..,
    StableHlo.nullary_bufs_sub .., StableHlo.unary_bufs_sub .., StableHlo.binary_bufs_sub ..,
    StableHlo.nullary_bufs_sub .., StableHlo.unary_bufs_sub .., StableHlo.binary_bufs_sub ..,
    StableHlo.unary_bufs_sub .., StableHlo.unary_bufs_sub .., StableHlo.unary_bufs_sub .., StableHlo.unary_bufs_sub .., StableHlo.unary_bufs_sub ..,
    StableHlo.unary_bufs_sub .., StableHlo.unary_bufs_sub .., StableHlo.unary_bufs_sub .., StableHlo.unary_bufs_sub ..,
    StableHlo.nary_bufs_sub ..,
    StableHlo.reshape_bufs_sub .., StableHlo.reshape_bufs_sub ..,
    StableHlo.binary_bufs_sub ..,
    StableHlo.binary_bufs_sub .., StableHlo.nullary_bufs_sub .., StableHlo.binary_bufs_sub .., StableHlo.unary_bufs_sub ..,
    StableHlo.nullary_bufs_sub .., StableHlo.binary_bufs_sub .., StableHlo.nullary_bufs_sub .., StableHlo.binary_bufs_sub ..,
    StableHlo.binary_bufs_sub ..,
    StableHlo.binary_bufs_sub .., StableHlo.nullary_bufs_sub .., StableHlo.binary_bufs_sub .., StableHlo.unary_bufs_sub ..,
    StableHlo.nullary_bufs_sub .., StableHlo.binary_bufs_sub .., StableHlo.nullary_bufs_sub .., StableHlo.binary_bufs_sub ..⟩

set_option maxRecDepth 8192 in
/-- Every operation of the second half reads and writes buffers of the device only. -/
theorem opsTail_sub : (opsTail : List (HloOp τ sig (Elt F))).Forall fun op => op.bufs ⊆ StableHlo.tcRefs τ sig :=
  ⟨StableHlo.reshape_bufs_sub .., StableHlo.unary_bufs_sub .., StableHlo.unary_bufs_sub .., StableHlo.binary_bufs_sub ..,
    StableHlo.unary_bufs_sub .., StableHlo.unary_bufs_sub .., StableHlo.binary_bufs_sub ..,
    StableHlo.binary_bufs_sub .., StableHlo.binary_bufs_sub ..,
    StableHlo.unary_bufs_sub .., StableHlo.unary_bufs_sub .., StableHlo.unary_bufs_sub .., StableHlo.binary_bufs_sub ..,
    StableHlo.unary_bufs_sub .., StableHlo.unary_bufs_sub .., StableHlo.unary_bufs_sub .., StableHlo.binary_bufs_sub ..,
    StableHlo.binary_bufs_sub ..,
    StableHlo.unary_bufs_sub ..,
    StableHlo.nullary_bufs_sub .., StableHlo.binary_bufs_sub .., StableHlo.nullary_bufs_sub .., StableHlo.binary_bufs_sub ..,
    StableHlo.nullary_bufs_sub .., StableHlo.unary_bufs_sub .., StableHlo.binary_bufs_sub ..,
    StableHlo.binary_bufs_sub .., StableHlo.nullary_bufs_sub .., StableHlo.unary_bufs_sub .., StableHlo.ternary_bufs_sub ..,
    StableHlo.nullary_bufs_sub .., StableHlo.unary_bufs_sub .., StableHlo.binary_bufs_sub ..,
    StableHlo.nullary_bufs_sub .., StableHlo.unary_bufs_sub .., StableHlo.ternary_bufs_sub ..,
    StableHlo.nullary_bufs_sub .., StableHlo.unary_bufs_sub .., StableHlo.binary_bufs_sub ..,
    StableHlo.nullary_bufs_sub .., StableHlo.unary_bufs_sub .., StableHlo.ternary_bufs_sub ..,
    StableHlo.nullary_bufs_sub .., StableHlo.binary_bufs_sub .., StableHlo.nullary_bufs_sub .., StableHlo.binary_bufs_sub ..⟩

/-- So does every operation of the program. -/
theorem ops_sub : (ops : List (HloOp τ sig (Elt F))).Forall fun op => op.bufs ⊆ StableHlo.tcRefs τ sig :=
  List.forall_iff_forall_mem.mpr fun op h => by
    rcases List.mem_append.mp h with h | h
    exacts [List.forall_iff_forall_mem.mp opsPre_sub op h, List.forall_iff_forall_mem.mp opsTail_sub op h]

/-- On the device, for any float values, from any memory with zero counters: every weakly fair execution of the
    reference terminates, and afterwards each buffer holds the fold of the operations' results over what the
    launch found in the buffers. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ

end Cert.ReferenceIdeal.HRun

end
-- ==== Proof.RefTail.lean ====
/-
  The reference's reprojection error, read at one batch sample.

  From the two poses' matrices and translations and the world points, the reference subtracts each translation from
  every point, contracts the differences with the pose's matrix (camera-frame coordinates), divides the first two
  coordinates by the third (the projection), takes the absolute difference of the two projections, adds over the two
  coordinates and then over the 2048 points, divides by 2048 and replaces the infinities by the largest finite floats.
  Here that chain is one function of the five arrays, and at a batch index it is the per-sample value of the shared
  specification.
-/
import proofs.«133085_j17540646437328_1_alg».proof.Proof.Gen.ReferenceIdeal
import proofs.«133085_j17540646437328_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.HTail

open Idealize.ShloMosaic Idealize.ShloMosaic.ValueIdx
open Cert.ReferenceIdeal
open Cert.ReferenceIdeal.Facts₀

/-- The operations %85 … %108 composed, as one function of the five arrays. -/
def perSampleArr (R c : FVec Ideal S8192x3x3 .f32) (px : FVec Ideal S8192x3 .f32) (tx3 : FVec Ideal S8192x3x1 .f32)
    (wP : FVec Ideal S8192x2048x3 .f32) : FVec Ideal S8192 .f32 :=
  let v85 : FVec Ideal S8192x3 .f32 := shapeCast S8192x3 tx3 shapeCasts_S8192x3x1_S8192x3
  let v86 : FVec Ideal S8192x1x3 .f32 := broadcastInDim S8192x1x3 ![0, 2] bcast_S8192x3_S8192x1x3_0_2 v85
  let v87 : FVec Ideal S8192x2048x3 .f32 := broadcastInDim S8192x2048x3 ![0, 1, 2] bcast_S8192x1x3_S8192x2048x3_0_1_2 v86
  let v88 : FVec Ideal S8192x2048x3 .f32 := subf wP v87
  let v89 : FVec Ideal S8192x1x3 .f32 := broadcastInDim S8192x1x3 ![0, 2] bcast_S8192x3_S8192x1x3_0_2 px
  let v90 : FVec Ideal S8192x2048x3 .f32 := broadcastInDim S8192x2048x3 ![0, 1, 2] bcast_S8192x1x3_S8192x2048x3_0_1_2 v89
  let v91 : FVec Ideal S8192x2048x3 .f32 := subf wP v90
  let v92 : FVec Ideal S8192x2048x3 .f32 := Host.dotGeneral (F := Ideal) dot_S8192x2048x3_S8192x3x3_S8192x2048x3_2_2_1_1_0_0 none v88 c
  let v93 : FVec Ideal S8192x2048x3 .f32 := Host.dotGeneral (F := Ideal) dot_S8192x2048x3_S8192x3x3_S8192x2048x3_2_2_1_1_0_0 none v91 R
  let v94 : FVec Ideal S8192x2048x2 .f32 := extractStridedSlice S8192x2048x2 ![0, 0, 0] v92 slices_S8192x2048x3_S8192x2048x2_0_0_0
  let v95 : FVec Ideal S8192x2048x1 .f32 := extractStridedSlice S8192x2048x1 ![0, 0, 2] v92 slices_S8192x2048x3_S8192x2048x1_0_0_2
  let v96 : FVec Ideal S8192x2048x2 .f32 := broadcastInDim S8192x2048x2 ![0, 1, 2] bcast_S8192x2048x1_S8192x2048x2_0_1_2 v95
  let v97 : FVec Ideal S8192x2048x2 .f32 := Host.divf (F := Ideal) v94 v96
  let v98 : FVec Ideal S8192x2048x2 .f32 := extractStridedSlice S8192x2048x2 ![0, 0, 0] v93 slices_S8192x2048x3_S8192x2048x2_0_0_0
  let v99 : FVec Ideal S8192x2048x1 .f32 := extractStridedSlice S8192x2048x1 ![0, 0, 2] v93 slices_S8192x2048x3_S8192x2048x1_0_0_2
  let v100 : FVec Ideal S8192x2048x2 .f32 := broadcastInDim S8192x2048x2 ![0, 1, 2] bcast_S8192x2048x1_S8192x2048x2_0_1_2 v99
  let v101 : FVec Ideal S8192x2048x2 .f32 := Host.divf (F := Ideal) v98 v100
  let v102 : FVec Ideal S8192x2048x2 .f32 := subf v101 v97
  let v103 : FVec Ideal S8192x2048x2 .f32 := Host.absf (F := Ideal) v102
  let v104 : FVec Ideal S8192x2048 .f32 :=
    Host.reduceAdd (F := Ideal) v103 (constant (F := Ideal) S_ .f32 0x00000000#32) reducesTo_S8192x2048x2_S8192x2048_d2 h_S_
  let v105 : FVec Ideal S8192 .f32 :=
    Host.reduceAdd (F := Ideal) v104 (constant (F := Ideal) S_ .f32 0x00000000#32) reducesTo_S8192x2048_S8192_d1 h_S_
  let v106 : FVec Ideal S8192 .f32 := broadcastInDim S8192 ![] bcast_S_S8192 (constant (F := Ideal) S_ .f32 0x45000000#32)
  let v107 : FVec Ideal S8192 .f32 := Host.divf (F := Ideal) v105 v106
  -- nan_to_num: three selects
  let n0 : IVec S8192 1 := cmpf .une v107 v107
  let n1 : FVec Ideal S8192 .f32 :=
    select n0 (broadcastInDim S8192 ![] bcast_S_S8192 (constant (F := Ideal) S_ .f32 0x00000000#32)) v107
  let n2 : FVec Ideal S8192 .f32 := broadcastInDim S8192 ![] bcast_S_S8192 (constant (F := Ideal) S_ .f32 0x7F800000#32)
  let n3 : IVec S8192 1 := cmpf .oeq n1 n2
  let n4 : FVec Ideal S8192 .f32 :=
    select n3 (broadcastInDim S8192 ![] bcast_S_S8192 (constant (F := Ideal) S_ .f32 0x7F7FFFFF#32)) n1
  let n5 : FVec Ideal S8192 .f32 := broadcastInDim S8192 ![] bcast_S_S8192 (constant (F := Ideal) S_ .f32 0xFF800000#32)
  let n6 : IVec S8192 1 := cmpf .oeq n4 n5
  select n6 (broadcastInDim S8192 ![] bcast_S_S8192 (constant (F := Ideal) S_ .f32 0xFF7FFFFF#32)) n4

/-! ## The stages read at an index -/

/-- A translation broadcast over the points: every point of sample b sees the translation of sample b. -/
theorem bcast_trans_apply (x : FVec Ideal S8192x3 .f32) (b : Fin 8192) (n : Fin 2048) (j : Fin 3) :
    broadcastInDim S8192x2048x3 ![0, 1, 2] bcast_S8192x1x3_S8192x2048x3_0_1_2
        (broadcastInDim S8192x1x3 ![0, 2] bcast_S8192x3_S8192x1x3_0_2 x) (ix3 b n j) = x (ix2 b j) := by
  refine (broadcastInDim_apply _ _ _ (ix3 b n j) (ix3 b (0 : Fin 1) j) fun a => ?_).trans ?_
  · match a with
    | ⟨0, _⟩ => rfl
    | ⟨1, _⟩ => rfl
    | ⟨2, _⟩ => rfl
  · refine broadcastInDim_apply _ _ _ (ix3 b (0 : Fin 1) j) (ix2 b j) fun a => ?_
    match a with
    | ⟨0, _⟩ => rfl
    | ⟨1, _⟩ => rfl

/-- The target translation, stored as a column, read as a row entry. -/
theorem reshape_apply (tx3 : FVec Ideal S8192x3x1 .f32) (b : Fin 8192) (j : Fin 3) :
    shapeCast S8192x3 tx3 shapeCasts_S8192x3x1_S8192x3 (ix2 b j) = tx3 (ix3 b j (0 : Fin 1)) := by
  refine shapeCast_apply _ _ (ix2 b j) (ix3 b j (0 : Fin 1)) ?_
  rw [Shape.rowMajor_val_three, Shape.rowMajor_val_two]
  show (b.val * 3 + j.val) * 1 + 0 = b.val * 3 + j.val
  omega

/-- The dimension numbers of the two contractions: batch axis 0 of both operands, the points' axis and the matrix's row
    axis kept, the last axes contracted. -/
abbrev DD : DotDims S8192x2048x3 S8192x3x3 S8192x2048x3 := dot_S8192x2048x3_S8192x3x3_S8192x2048x3_2_2_1_1_0_0

theorem lhs_0 (j : S8192x2048x3.Idx) (k : DD.contr.Idx) : (DD.lhsIdx j k (0 : Fin 3)).val = (j (0 : Fin 3)).val := rfl
theorem lhs_1 (j : S8192x2048x3.Idx) (k : DD.contr.Idx) : (DD.lhsIdx j k (1 : Fin 3)).val = (j (1 : Fin 3)).val := rfl
theorem lhs_2 (j : S8192x2048x3.Idx) (k : DD.contr.Idx) : (DD.lhsIdx j k (2 : Fin 3)).val = (k ⟨0, by decide⟩).val :=
  DD.lhsIdx_val_of_single (cl := (2 : Fin 3)) rfl j k
theorem rhs_0 (j : S8192x2048x3.Idx) (k : DD.contr.Idx) : (DD.rhsIdx j k (0 : Fin 3)).val = (j (0 : Fin 3)).val := rfl
theorem rhs_1 (j : S8192x2048x3.Idx) (k : DD.contr.Idx) : (DD.rhsIdx j k (1 : Fin 3)).val = (j (2 : Fin 3)).val := rfl
theorem rhs_2 (j : S8192x2048x3.Idx) (k : DD.contr.Idx) : (DD.rhsIdx j k (2 : Fin 3)).val = (k ⟨0, by decide⟩).val :=
  DD.rhsIdx_val_of_single (cr := (2 : Fin 3)) rfl j k

/-- The contraction at (b, n, i): the sum over j of the left operand at (b, n, j) times the matrix at (b, i, j). -/
theorem dot_apply (l : FVec Ideal S8192x2048x3 .f32) (M : FVec Ideal S8192x3x3 .f32) (b : Fin 8192) (n : Fin 2048) (i : Fin 3) :
    Host.dotGeneral (F := Ideal) DD none l M (ix3 b n i) = ∑ j : Fin 3, l (ix3 b n j) * M (ix3 b i j) := by
  show FloatOps.dotGeneral DD none .single l M (ix3 b n i) = _
  rw [Ideal.dotGeneral_apply, ← Equiv.sum_comp (contrEquiv1 DD 3 rfl rfl).symm]
  refine Finset.sum_congr rfl fun j _ => ?_
  have hl : DD.lhsIdx (ix3 b n i) ((contrEquiv1 DD 3 rfl rfl).symm j) = ix3 b n j := funext fun a => Fin.ext (by
    match a with
    | ⟨0, _⟩ => exact lhs_0 _ _
    | ⟨1, _⟩ => exact lhs_1 _ _
    | ⟨2, _⟩ => exact (lhs_2 _ _).trans (contrEquiv1_symm_val DD 3 rfl rfl j))
  have hr : DD.rhsIdx (ix3 b n i) ((contrEquiv1 DD 3 rfl rfl).symm j) = ix3 b i j := funext fun a => Fin.ext (by
    match a with
    | ⟨0, _⟩ => exact rhs_0 _ _
    | ⟨1, _⟩ => exact rhs_1 _ _
    | ⟨2, _⟩ => exact (rhs_2 _ _).trans (contrEquiv1_symm_val DD 3 rfl rfl j))
  rw [hl, hr]

/-- The first two camera-frame coordinates kept. -/
theorem slice2_apply (v : FVec Ideal S8192x2048x3 .f32) (b : Fin 8192) (n : Fin 2048) (k : Fin 2) :
    extractStridedSlice S8192x2048x2 ![0, 0, 0] v slices_S8192x2048x3_S8192x2048x2_0_0_0 (ix3 b n k)
      = v (ix3 b n (Fin.castLE (by decide : 2 ≤ 3) k)) := by
  refine extractStridedSlice_apply _ _ _ (ix3 b n k) _ fun a => ?_
  match a with
  | ⟨0, _⟩ => show b.val = 0 + b.val; omega
  | ⟨1, _⟩ => show n.val = 0 + n.val; omega
  | ⟨2, _⟩ => show k.val = 0 + k.val; omega

/-- The third camera-frame coordinate kept, as a column. -/
theorem slice1_apply (v : FVec Ideal S8192x2048x3 .f32) (b : Fin 8192) (n : Fin 2048) :
    extractStridedSlice S8192x2048x1 ![0, 0, 2] v slices_S8192x2048x3_S8192x2048x1_0_0_2 (ix3 b n (0 : Fin 1))
      = v (ix3 b n (2 : Fin 3)) := by
  refine extractStridedSlice_apply _ _ _ (ix3 b n (0 : Fin 1)) _ fun a => ?_
  match a with
  | ⟨0, _⟩ => show b.val = 0 + b.val; omega
  | ⟨1, _⟩ => show n.val = 0 + n.val; omega
  | ⟨2, _⟩ => rfl

/-- The depth column broadcast over the two projected coordinates. -/
theorem bcast_depth_apply (x : FVec Ideal S8192x2048x1 .f32) (b : Fin 8192) (n : Fin 2048) (k : Fin 2) :
    broadcastInDim S8192x2048x2 ![0, 1, 2] bcast_S8192x2048x1_S8192x2048x2_0_1_2 x (ix3 b n k) = x (ix3 b n (0 : Fin 1)) := by
  refine broadcastInDim_apply _ _ _ (ix3 b n k) (ix3 b n (0 : Fin 1)) fun a => ?_
  match a with
  | ⟨0, _⟩ => rfl
  | ⟨1, _⟩ => rfl
  | ⟨2, _⟩ => rfl

/-- The sum over the two projected coordinates, from the float zero. -/
theorem sum2_apply (x : FVec Ideal S8192x2048x2 .f32) (b : Fin 8192) (n : Fin 2048) :
    Host.reduceAdd (F := Ideal) x (constant (F := Ideal) S_ .f32 0x00000000#32) reducesTo_S8192x2048x2_S8192x2048_d2 h_S_ (ix2 b n)
      = Ideal.ofBits .f32 0x00000000#32 + ∑ k : Fin 2, x (ix3 b n k) := by
  have h : S8192x2048x2.Reduces [(2 : Fin 3)] S8192x2048 := by decide
  show Ideal.hostReduceAdd reducesTo_S8192x2048x2_S8192x2048_d2 x (Ideal.ofBits .f32 0x00000000#32) (ix2 b n) = _
  rw [Ideal.hostReduceAdd_single _ h]
  show _ + ∑ k : Fin 2, x (h.lift (ix2 b n) k) = _
  congr 1
  refine Finset.sum_congr rfl fun k _ => congrArg x (funext fun a => Fin.ext ?_)
  match a with
  | ⟨0, _⟩ => rfl
  | ⟨1, _⟩ => rfl
  | ⟨2, _⟩ => rfl

/-- The sum over the 2048 points, from the float zero. -/
theorem sum2048_apply (x : FVec Ideal S8192x2048 .f32) (b : Fin 8192) :
    Host.reduceAdd (F := Ideal) x (constant (F := Ideal) S_ .f32 0x00000000#32) reducesTo_S8192x2048_S8192_d1 h_S_ (ix1 b)
      = Ideal.ofBits .f32 0x00000000#32 + ∑ n : Fin 2048, x (ix2 b n) := by
  have h : S8192x2048.Reduces [(1 : Fin 2)] S8192 := by decide
  show Ideal.hostReduceAdd reducesTo_S8192x2048_S8192_d1 x (Ideal.ofBits .f32 0x00000000#32) (ix1 b) = _
  rw [Ideal.hostReduceAdd_single _ h]
  show _ + ∑ n : Fin 2048, x (h.lift (ix1 b) n) = _
  congr 1
  refine Finset.sum_congr rfl fun n _ => congrArg x (funext fun a => Fin.ext ?_)
  match a with
  | ⟨0, _⟩ => rfl
  | ⟨1, _⟩ => rfl

/-! ## The chain as a composition of its four parts -/

/-- Camera-frame coordinates of every point of every sample from the poses (M, x): the translation subtracted from
    the points, then the contraction with the matrix. -/
def camArr (M : FVec Ideal S8192x3x3 .f32) (x : FVec Ideal S8192x3 .f32) (wP : FVec Ideal S8192x2048x3 .f32) :
    FVec Ideal S8192x2048x3 .f32 :=
  Host.dotGeneral (F := Ideal) dot_S8192x2048x3_S8192x3x3_S8192x2048x3_2_2_1_1_0_0 none
    (subf wP (broadcastInDim S8192x2048x3 ![0, 1, 2] bcast_S8192x1x3_S8192x2048x3_0_1_2
      (broadcastInDim S8192x1x3 ![0, 2] bcast_S8192x3_S8192x1x3_0_2 x))) M

/-- The projection: the first two camera-frame coordinates over the third. -/
def projArr (v : FVec Ideal S8192x2048x3 .f32) : FVec Ideal S8192x2048x2 .f32 :=
  Host.divf (F := Ideal) (extractStridedSlice S8192x2048x2 ![0, 0, 0] v slices_S8192x2048x3_S8192x2048x2_0_0_0)
    (broadcastInDim S8192x2048x2 ![0, 1, 2] bcast_S8192x2048x1_S8192x2048x2_0_1_2
      (extractStridedSlice S8192x2048x1 ![0, 0, 2] v slices_S8192x2048x3_S8192x2048x1_0_0_2))

/-- The mean over the points of the L1 distance of two projections. -/
def meanArr (p q : FVec Ideal S8192x2048x2 .f32) : FVec Ideal S8192 .f32 :=
  Host.divf (F := Ideal)
    (Host.reduceAdd (F := Ideal)
      (Host.reduceAdd (F := Ideal) (Host.absf (F := Ideal) (subf p q)) (constant (F := Ideal) S_ .f32 0x00000000#32)
        reducesTo_S8192x2048x2_S8192x2048_d2 h_S_)
      (constant (F := Ideal) S_ .f32 0x00000000#32) reducesTo_S8192x2048_S8192_d1 h_S_)
    (broadcastInDim S8192 ![] bcast_S_S8192 (constant (F := Ideal) S_ .f32 0x45000000#32))

/-- nan_to_num on the per-sample values: three selects. -/
def ntnArr (x : FVec Ideal S8192 .f32) : FVec Ideal S8192 .f32 :=
  let n0 : IVec S8192 1 := cmpf .une x x
  let n1 : FVec Ideal S8192 .f32 :=
    select n0 (broadcastInDim S8192 ![] bcast_S_S8192 (constant (F := Ideal) S_ .f32 0x00000000#32)) x
  let n2 : FVec Ideal S8192 .f32 := broadcastInDim S8192 ![] bcast_S_S8192 (constant (F := Ideal) S_ .f32 0x7F800000#32)
  let n3 : IVec S8192 1 := cmpf .oeq n1 n2
  let n4 : FVec Ideal S8192 .f32 :=
    select n3 (broadcastInDim S8192 ![] bcast_S_S8192 (constant (F := Ideal) S_ .f32 0x7F7FFFFF#32)) n1
  let n5 : FVec Ideal S8192 .f32 := broadcastInDim S8192 ![] bcast_S_S8192 (constant (F := Ideal) S_ .f32 0xFF800000#32)
  let n6 : IVec S8192 1 := cmpf .oeq n4 n5
  select n6 (broadcastInDim S8192 ![] bcast_S_S8192 (constant (F := Ideal) S_ .f32 0xFF7FFFFF#32)) n4

/-- The chain is the composition: the predicted pose's projection against the target pose's. -/
theorem perSampleArr_eq (R c : FVec Ideal S8192x3x3 .f32) (px : FVec Ideal S8192x3 .f32) (tx3 : FVec Ideal S8192x3x1 .f32)
    (wP : FVec Ideal S8192x2048x3 .f32) :
    perSampleArr R c px tx3 wP
      = ntnArr (meanArr (projArr (camArr R px wP))
          (projArr (camArr c (shapeCast S8192x3 tx3 shapeCasts_S8192x3x1_S8192x3) wP))) := rfl

theorem camArr_apply (M : FVec Ideal S8192x3x3 .f32) (x : FVec Ideal S8192x3 .f32) (wP : FVec Ideal S8192x2048x3 .f32)
    (b : Fin 8192) (n : Fin 2048) (i : Fin 3) :
    camArr M x wP (ix3 b n i)
      = Cert.Reproj.cam (fun i j => M (ix3 b i j)) (fun j => x (ix2 b j)) (fun j => wP (ix3 b n j)) i := by
  unfold camArr
  rw [dot_apply, ← Cert.Reproj.camSum_eq_cam]
  unfold Cert.Reproj.camSum
  refine Finset.sum_congr rfl fun j _ => ?_
  rw [subf_apply, bcast_trans_apply]

theorem projArr_apply (v : FVec Ideal S8192x2048x3 .f32) (b : Fin 8192) (n : Fin 2048) (k : Fin 2) :
    projArr v (ix3 b n k) = Ideal.div (v (ix3 b n (Fin.castLE (by decide : 2 ≤ 3) k))) (v (ix3 b n (2 : Fin 3))) := by
  show Ideal.div (extractStridedSlice S8192x2048x2 ![0, 0, 0] v slices_S8192x2048x3_S8192x2048x2_0_0_0 (ix3 b n k))
      (broadcastInDim S8192x2048x2 ![0, 1, 2] bcast_S8192x2048x1_S8192x2048x2_0_1_2
        (extractStridedSlice S8192x2048x1 ![0, 0, 2] v slices_S8192x2048x3_S8192x2048x1_0_0_2) (ix3 b n k)) = _
  rw [slice2_apply, bcast_depth_apply, slice1_apply]

theorem meanArr_apply (p q : FVec Ideal S8192x2048x2 .f32) (b : Fin 8192) :
    meanArr p q (ix1 b)
      = Ideal.div (∑ n : Fin 2048, (Ideal.ofBits .f32 0x00000000#32
            + ∑ k : Fin 2, Cert.Reproj.eabs (p (ix3 b n k) - q (ix3 b n k))))
          (Ideal.ofBits .f32 0x45000000#32) := by
  show Ideal.div (Host.reduceAdd (F := Ideal)
      (Host.reduceAdd (F := Ideal) (Host.absf (F := Ideal) (subf p q)) (constant (F := Ideal) S_ .f32 0x00000000#32)
        reducesTo_S8192x2048x2_S8192x2048_d2 h_S_)
      (constant (F := Ideal) S_ .f32 0x00000000#32) reducesTo_S8192x2048_S8192_d1 h_S_ (ix1 b)) (Ideal.ofBits .f32 0x45000000#32) = _
  rw [sum2048_apply, Cert.Reproj.zero_add_sum]
  congr 1
  refine Finset.sum_congr rfl fun n _ => ?_
  rw [sum2_apply]
  rfl

theorem ntnArr_apply (x : FVec Ideal S8192 .f32) (b : Fin 8192) : ntnArr x (ix1 b) = Cert.Reproj.ntn (x (ix1 b)) := rfl

/-- At a batch sample the chain is the specification's per-sample value of that sample's two poses and points. -/
theorem perSampleArr_apply (R c : FVec Ideal S8192x3x3 .f32) (px : FVec Ideal S8192x3 .f32) (tx3 : FVec Ideal S8192x3x1 .f32)
    (wP : FVec Ideal S8192x2048x3 .f32) (b : Fin 8192) :
    perSampleArr R c px tx3 wP (ix1 b)
      = Cert.Reproj.perSample (fun i j => c (ix3 b i j)) (fun i j => R (ix3 b i j))
          (fun j => tx3 (ix3 b j (0 : Fin 1))) (fun j => px (ix2 b j)) (fun n j => wP (ix3 b n j)) := by
  rw [perSampleArr_eq, ntnArr_apply, meanArr_apply]
  unfold Cert.Reproj.perSample
  congr 2
  refine Finset.sum_congr rfl fun n _ => ?_
  refine Cert.Reproj.dist_eq_sum _ _ _ _ _ _ ?_ ?_
  · rw [projArr_apply, projArr_apply, camArr_apply, camArr_apply, camArr_apply, camArr_apply]
    simp only [reshape_apply]
    rfl
  · rw [projArr_apply, projArr_apply, camArr_apply, camArr_apply, camArr_apply, camArr_apply]
    simp only [reshape_apply]
    rfl

end Cert.ReferenceIdeal.HTail

end
-- ==== Proof.RefLink.lean ====
/-
  The reference run read at the buffers the certificate needs.

  The run ends with every buffer at the fold of the program's operations over the launch contents.  The operations are
  two lines, one after the other: the first builds the predicted rotation matrices and the two pose losses, the second
  the reprojection loss.  Read at the per-sample values, the fold of the second line is the reprojection chain applied to
  the predicted matrices the first line left and to four argument arrays, which no operation writes; the final mean is
  the sum of the per-sample values over the batch divided by the batch size; the two pose losses are what the first
  line left, since the second line does not write them.
-/
import proofs.«133085_j17540646437328_1_alg».proof.Proof.RefOps
import proofs.«133085_j17540646437328_1_alg».proof.Proof.RefTail
import Idealize.ShloMosaic.Lib.StableHlo.Run

noncomputable section

namespace Cert.ReferenceIdeal.HLink

open Cert.ReferenceIdeal Idealize.ShloMosaic Idealize.ShloMosaic.TcCoe Idealize.SL.Sem
open Cert.ReferenceIdeal.Facts₀

/-- Two lines run one after the other: the fold of the concatenation is the second line's fold over the first's. -/
theorem after_append {F : FTy → Type} [FloatOps F] (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => rw [List.cons_append, StableHlo.after_cons, StableHlo.after_cons, ih]

/-! ## The second line read at the per-sample values -/

set_option maxHeartbeats 4000000 in
set_option maxRecDepth 8192 in
/-- From any contents, the second line leaves at the per-sample values the reprojection chain of the predicted
    matrices, the target matrices, the two translations and the world points it found. -/
theorem tail108 (V : Valuation τ sig (Elt Ideal)) :
    StableHlo.after (HRun.opsTail (F := Ideal)) V (Proc.devRef .tc main_v108)
      = HTail.perSampleArr (V (Proc.devRef .tc main_v75)) (V (Proc.devRef .tc main_arg4)) (V (Proc.devRef .tc main_arg0))
          (V (Proc.devRef .tc main_arg2)) (V (Proc.devRef .tc main_arg5)) := by
  simp only [HRun.opsTail]
  after_results_simp
  rfl

/-! ## What neither line writes -/

/-- The six argument arrays. -/
abbrev argRefs : List (Ref sig .tc) := [main_arg0, main_arg1, main_arg2, main_arg3, main_arg4, main_arg5]
/-- The argument arrays and the two pose losses. -/
abbrev keptRefs : List (Ref sig .tc) := [main_arg0, main_arg1, main_arg2, main_arg3, main_arg4, main_arg5, main_v80, main_v84]

/-- For a line given as a literal list: every operation writes one buffer, its own result, and that result is none of
    the listed references. -/
local macro "line_keeps" : tactic =>
  `(tactic| (simp only [List.Forall]
             repeat' constructor
             all_goals
               intro r hr
               simp only [StableHlo.nullary_writes, StableHlo.unary_writes, StableHlo.binary_writes, StableHlo.ternary_writes,
                 StableHlo.reshape_writes, StableHlo.nary_writes, Finset.mem_singleton]
               exact StableHlo.devRef_ne_of_ne (ne_of_mem_of_not_mem hr (by decide))))

set_option maxHeartbeats 4000000 in
set_option maxRecDepth 8192 in
/-- The first line writes no argument array. -/
theorem opsPre_keeps : (HRun.opsPre (F := Ideal)).Forall fun op => ∀ r ∈ argRefs, Proc.devRef .tc r ∉ op.writes := by
  line_keeps

set_option maxHeartbeats 4000000 in
set_option maxRecDepth 8192 in
/-- The second line writes no argument array and neither pose loss. -/
theorem opsTail_keeps : (HRun.opsTail (F := Ideal)).Forall fun op => ∀ r ∈ keptRefs, Proc.devRef .tc r ∉ op.writes := by
  line_keeps

/-- A buffer the first line does not write holds after it what it held before. -/
theorem pre_arg {r : Ref sig .tc} (hr : r ∈ argRefs) (V : Valuation τ sig (Elt Ideal)) :
    StableHlo.after (HRun.opsPre (F := Ideal)) V (Proc.devRef .tc r) = V (Proc.devRef .tc r) :=
  StableHlo.after_of_forall_not_mem _ _ fun op hop => (List.forall_iff_forall_mem.mp opsPre_keeps) op hop r hr

/-- A buffer the second line does not write holds after it what it held before. -/
theorem tail_kept {r : Ref sig .tc} (hr : r ∈ keptRefs) (V : Valuation τ sig (Elt Ideal)) :
    StableHlo.after (HRun.opsTail (F := Ideal)) V (Proc.devRef .tc r) = V (Proc.devRef .tc r) :=
  StableHlo.after_of_forall_not_mem _ _ fun op hop => (List.forall_iff_forall_mem.mp opsTail_keeps) op hop r hr

set_option maxHeartbeats 4000000 in
set_option maxRecDepth 8192 in
/-- From any contents, the second line leaves at the result the sum of the per-sample values over the batch, from the
    float zero, divided by the batch size. -/
theorem tail110 (V : Valuation τ sig (Elt Ideal)) :
    StableHlo.after (HRun.opsTail (F := Ideal)) V (Proc.devRef .tc main_v110)
      = Host.divf (F := Ideal)
          (Host.reduceAdd (F := Ideal) (StableHlo.after (HRun.opsTail (F := Ideal)) V (Proc.devRef .tc main_v108))
            (constant (F := Ideal) S_ .f32 0x00000000#32) reducesTo_S8192_S_d0 h_S_)
          (constant (F := Ideal) S_ .f32 0x46000000#32) := by
  simp only [HRun.opsTail]
  after_results_simp <;> rfl

/-! ## The whole run -/

section Run

variable (m' : (ℓ : Loc nD τ sig) → Buf (Elt Ideal) ℓ) (c : Dev nD)

/-- What device c's buffers hold at the launch. -/
abbrev VR : Valuation τ sig (Elt Ideal) := StableHlo.launchContents m' c
/-- What they hold after the first line. -/
abbrev W : Valuation τ sig (Elt Ideal) := StableHlo.after (HRun.opsPre (F := Ideal)) (VR m' c)

/-- The program is its two lines in order. -/
theorem ops_eq : HRun.ops (F := Ideal) = HRun.opsPre ++ HRun.opsTail := rfl

/-- The per-sample values at the end of the run: the reprojection chain of the predicted matrices the first line left
    and of the argument arrays as launched. -/
theorem link108 :
    StableHlo.after (HRun.ops (F := Ideal)) (VR m' c) (Proc.devRef .tc main_v108)
      = HTail.perSampleArr (W m' c (Proc.devRef .tc main_v75)) (m' ((c.tc : Thread nD τ).loc main_arg4))
          (m' ((c.tc : Thread nD τ).loc main_arg0)) (m' ((c.tc : Thread nD τ).loc main_arg2))
          (m' ((c.tc : Thread nD τ).loc main_arg5)) := by
  rw [ops_eq, after_append, tail108, pre_arg (r := main_arg4) (by decide), pre_arg (r := main_arg0) (by decide),
    pre_arg (r := main_arg2) (by decide), pre_arg (r := main_arg5) (by decide)]

/-- The result at the end of the run: the mean of the per-sample values over the batch. -/
theorem link110 :
    StableHlo.after (HRun.ops (F := Ideal)) (VR m' c) (Proc.devRef .tc main_v110)
      = Host.divf (F := Ideal)
          (Host.reduceAdd (F := Ideal) (StableHlo.after (HRun.ops (F := Ideal)) (VR m' c) (Proc.devRef .tc main_v108))
            (constant (F := Ideal) S_ .f32 0x00000000#32) reducesTo_S8192_S_d0 h_S_)
          (constant (F := Ideal) S_ .f32 0x46000000#32) := by
  rw [ops_eq, after_append]
  exact tail110 _

/-- The translation loss at the end of the run is what the first line left. -/
theorem link80 : StableHlo.after (HRun.ops (F := Ideal)) (VR m' c) (Proc.devRef .tc main_v80) = W m' c (Proc.devRef .tc main_v80) := by
  rw [ops_eq, after_append]
  exact tail_kept (by decide) _

/-- The quaternion loss at the end of the run is what the first line left. -/
theorem link84 : StableHlo.after (HRun.ops (F := Ideal)) (VR m' c) (Proc.devRef .tc main_v84) = W m' c (Proc.devRef .tc main_v84) := by
  rw [ops_eq, after_append]
  exact tail_kept (by decide) _

/-- An argument array holds at the end of the run what it held at the launch. -/
theorem kept {r : Ref sig .tc} (hr : r ∈ argRefs) :
    StableHlo.after (HRun.ops (F := Ideal)) (VR m' c) (Proc.devRef .tc r) = m' ((c.tc : Thread nD τ).loc r) := by
  rw [ops_eq, after_append, tail_kept (List.mem_append_left [main_v80, main_v84] hr), pre_arg hr]

theorem kept0 : StableHlo.after (HRun.ops (F := Ideal)) (VR m' c) (Proc.devRef .tc main_arg0) = m' ((c.tc : Thread nD τ).loc main_arg0) :=
  kept m' c (by decide)
theorem kept1 : StableHlo.after (HRun.ops (F := Ideal)) (VR m' c) (Proc.devRef .tc main_arg1) = m' ((c.tc : Thread nD τ).loc main_arg1) :=
  kept m' c (by decide)
theorem kept2 : StableHlo.after (HRun.ops (F := Ideal)) (VR m' c) (Proc.devRef .tc main_arg2) = m' ((c.tc : Thread nD τ).loc main_arg2) :=
  kept m' c (by decide)
theorem kept3 : StableHlo.after (HRun.ops (F := Ideal)) (VR m' c) (Proc.devRef .tc main_arg3) = m' ((c.tc : Thread nD τ).loc main_arg3) :=
  kept m' c (by decide)
theorem kept4 : StableHlo.after (HRun.ops (F := Ideal)) (VR m' c) (Proc.devRef .tc main_arg4) = m' ((c.tc : Thread nD τ).loc main_arg4) :=
  kept m' c (by decide)
theorem kept5 : StableHlo.after (HRun.ops (F := Ideal)) (VR m' c) (Proc.devRef .tc main_arg5) = m' ((c.tc : Thread nD τ).loc main_arg5) :=
  kept m' c (by decide)

end Run

end Cert.ReferenceIdeal.HLink

end
-- ==== Proof.AgreeLoss.lean ====
/-
  The two programs begin with the same tensor operations, over two different sets of buffers: the predicted
  quaternion is normalised and conjugated, the nine entries of its rotation matrix are formed and broadcast to
  columns, and the two pose losses are computed (the mean over the batch of the norm of the translation error, and of
  the norm of the quaternion error).  From launch memories that agree on the arguments, each of these values is
  therefore the same in both programs when it has been computed: on either side the buffer holds the composition of the
  operations that feed it, applied to the argument arrays, and the two compositions are the same term.
-/
import proofs.«133085_j17540646437328_1_alg».proof.Proof.KMain
import proofs.«133085_j17540646437328_1_alg».proof.Proof.RefOps
import Idealize.ShloMosaic.Lib.StableHlo.Run

set_option maxRecDepth 16384

noncomputable section

namespace Cert.Agree

open Idealize.ShloMosaic Idealize.ShloMosaic.TcCoe Idealize.SL.Sem

variable {F : FTy → Type} [FloatOps F]

set_option maxHeartbeats 4000000 in
/-- The translation loss, the mean over the batch of the Euclidean norm of the predicted translation minus the target
    translation, is the same value in both programs: on either side it is the same composition (the difference, its
    square, the sum over the three coordinates, the square root, the sum over the batch, the division by 8192) of the
    first and third argument arrays. -/
theorem agree_v80 (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.HF.V m c Cert.KernelIdeal.main_v80
      = StableHlo.after Cert.ReferenceIdeal.HRun.opsPre (StableHlo.launchContents m' c) (Proc.devRef .tc Cert.ReferenceIdeal.main_v80) := by
  have h0' : StableHlo.launchContents m' c (Proc.devRef .tc Cert.ReferenceIdeal.main_arg0) = m (c, Proc.devRef .tc Cert.KernelIdeal.main_arg0) := h0
  have h2' : StableHlo.launchContents m' c (Proc.devRef .tc Cert.ReferenceIdeal.main_arg2) = m (c, Proc.devRef .tc Cert.KernelIdeal.main_arg2) := h2
  dsimp only [Cert.KernelIdeal.HF.V, Cert.KernelIdeal.HF.V0]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.ReferenceIdeal.HRun.opsPre,
    List.flatten_cons, List.flatten_nil, List.append_nil, List.cons_append, List.nil_append]
  after_results_simp
  rw [h0', h2']
  rfl

set_option maxHeartbeats 4000000 in
/-- The quaternion loss, the mean over the batch of the Euclidean norm of the normalised and conjugated predicted
    quaternion minus the target quaternion, is the same value in both programs: on either side it is the same
    composition of the second and fourth argument arrays (the predicted quaternion divided by its norm and multiplied
    by the sign vector, the difference with the target, then the norm and the mean as for the translation loss). -/
theorem agree_v84 (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.HF.V m c Cert.KernelIdeal.main_v84
      = StableHlo.after Cert.ReferenceIdeal.HRun.opsPre (StableHlo.launchContents m' c) (Proc.devRef .tc Cert.ReferenceIdeal.main_v84) := by
  have h1' : StableHlo.launchContents m' c (Proc.devRef .tc Cert.ReferenceIdeal.main_arg1) = m (c, Proc.devRef .tc Cert.KernelIdeal.main_arg1) := h1
  have h3' : StableHlo.launchContents m' c (Proc.devRef .tc Cert.ReferenceIdeal.main_arg3) = m (c, Proc.devRef .tc Cert.KernelIdeal.main_arg3) := h3
  dsimp only [Cert.KernelIdeal.HF.V, Cert.KernelIdeal.HF.V0]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.ReferenceIdeal.HRun.opsPre,
    List.flatten_cons, List.flatten_nil, List.append_nil, List.cons_append, List.nil_append]
  after_results_simp
  rw [h1', h3']
  rfl

end Cert.Agree

end
-- ==== Proof.AgreeColsA.lean ====
/-
  The first three entries of the predicted rotation matrix, as columns over the batch, are the same values in the
  two programs.  Both programs normalise the predicted quaternion, conjugate it, take its four components, in order w, x, y, z,
  and form the entries of the rotation matrix from them; the first row is
      1 − 2(y² + z²),   2(xy − zw),   2(xz + yw),
  each broadcast to a column of one entry per sample.  From launch memories that agree on the predicted quaternion,
  each column is on either side the same composition of operations applied to that one argument array.
-/
import proofs.«133085_j17540646437328_1_alg».proof.Proof.KMain
import proofs.«133085_j17540646437328_1_alg».proof.Proof.RefOps
import Idealize.ShloMosaic.Lib.StableHlo.Run

set_option maxRecDepth 16384

noncomputable section

namespace Cert.Agree

open Idealize.ShloMosaic Idealize.ShloMosaic.TcCoe Idealize.SL.Sem

variable {F : FTy → Type} [FloatOps F]

set_option maxHeartbeats 4000000 in
/-- The column of the entry 1 − 2(y² + z²) is the same in both programs. -/
theorem agree_v65 (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.HF.V m c Cert.KernelIdeal.main_v65
      = StableHlo.after Cert.ReferenceIdeal.HRun.opsPre (StableHlo.launchContents m' c) (Proc.devRef .tc Cert.ReferenceIdeal.main_v65) := by
  have h1' : StableHlo.launchContents m' c (Proc.devRef .tc Cert.ReferenceIdeal.main_arg1) = m (c, Proc.devRef .tc Cert.KernelIdeal.main_arg1) := h1
  dsimp only [Cert.KernelIdeal.HF.V, Cert.KernelIdeal.HF.V0]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.ReferenceIdeal.HRun.opsPre,
    List.flatten_cons, List.flatten_nil, List.append_nil, List.cons_append, List.nil_append]
  after_results_simp
  rw [h1']
  rfl

set_option maxHeartbeats 4000000 in
/-- The column of the entry 2(xy − zw) is the same in both programs. -/
theorem agree_v66 (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.HF.V m c Cert.KernelIdeal.main_v66
      = StableHlo.after Cert.ReferenceIdeal.HRun.opsPre (StableHlo.launchContents m' c) (Proc.devRef .tc Cert.ReferenceIdeal.main_v66) := by
  have h1' : StableHlo.launchContents m' c (Proc.devRef .tc Cert.ReferenceIdeal.main_arg1) = m (c, Proc.devRef .tc Cert.KernelIdeal.main_arg1) := h1
  dsimp only [Cert.KernelIdeal.HF.V, Cert.KernelIdeal.HF.V0]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.ReferenceIdeal.HRun.opsPre,
    List.flatten_cons, List.flatten_nil, List.append_nil, List.cons_append, List.nil_append]
  after_results_simp
  rw [h1']
  rfl

set_option maxHeartbeats 4000000 in
/-- The column of the entry 2(xz + yw) is the same in both programs. -/
theorem agree_v67 (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.HF.V m c Cert.KernelIdeal.main_v67
      = StableHlo.after Cert.ReferenceIdeal.HRun.opsPre (StableHlo.launchContents m' c) (Proc.devRef .tc Cert.ReferenceIdeal.main_v67) := by
  have h1' : StableHlo.launchContents m' c (Proc.devRef .tc Cert.ReferenceIdeal.main_arg1) = m (c, Proc.devRef .tc Cert.KernelIdeal.main_arg1) := h1
  dsimp only [Cert.KernelIdeal.HF.V, Cert.KernelIdeal.HF.V0]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.ReferenceIdeal.HRun.opsPre,
    List.flatten_cons, List.flatten_nil, List.append_nil, List.cons_append, List.nil_append]
  after_results_simp
  rw [h1']
  rfl

end Cert.Agree

end
-- ==== Proof.AgreeColsB.lean ====
/-
  The two programs begin with the same host operations: the quaternion normalised and conjugated, and the nine entries
  of the rotation matrix it defines, each broadcast to a column.  Run from launch contents that agree on the argument
  arrays, both programs therefore hold the same values in those columns.  Here: three of the nine columns, the
  matrix entries written over the four components `q₀ … q₃` of the normalised, conjugated quaternion.
-/
import proofs.«133085_j17540646437328_1_alg».proof.Proof.KMain
import proofs.«133085_j17540646437328_1_alg».proof.Proof.RefOps
import Idealize.ShloMosaic.Lib.StableHlo.Run

set_option maxRecDepth 16384

noncomputable section

namespace Cert.Agree

open Idealize.ShloMosaic Idealize.ShloMosaic.TcCoe Idealize.SL.Sem

variable {F : FTy → Type} [FloatOps F]

set_option maxHeartbeats 4000000 in
/-- Column `%68` — the matrix entry `2·(q₁q₂ + q₃q₀)`, as a column — is the same in both programs. -/
theorem agree_v68 (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.HF.V m c Cert.KernelIdeal.main_v68
      = StableHlo.after Cert.ReferenceIdeal.HRun.opsPre (StableHlo.launchContents m' c) (Proc.devRef .tc Cert.ReferenceIdeal.main_v68) := by
  have h1' : StableHlo.launchContents m' c (Proc.devRef .tc Cert.ReferenceIdeal.main_arg1) = m (c, Proc.devRef .tc Cert.KernelIdeal.main_arg1) := h1
  dsimp only [Cert.KernelIdeal.HF.V, Cert.KernelIdeal.HF.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.ReferenceIdeal.HRun.opsPre, List.flatten_cons, List.flatten_nil,
    List.append_nil, List.cons_append, List.nil_append]
  after_results_simp
  rw [h1']
  rfl

set_option maxHeartbeats 4000000 in
/-- Column `%69` — the matrix entry `1 − 2·(q₁² + q₃²)`, as a column — is the same in both programs. -/
theorem agree_v69 (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.HF.V m c Cert.KernelIdeal.main_v69
      = StableHlo.after Cert.ReferenceIdeal.HRun.opsPre (StableHlo.launchContents m' c) (Proc.devRef .tc Cert.ReferenceIdeal.main_v69) := by
  have h1' : StableHlo.launchContents m' c (Proc.devRef .tc Cert.ReferenceIdeal.main_arg1) = m (c, Proc.devRef .tc Cert.KernelIdeal.main_arg1) := h1
  dsimp only [Cert.KernelIdeal.HF.V, Cert.KernelIdeal.HF.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.ReferenceIdeal.HRun.opsPre, List.flatten_cons, List.flatten_nil,
    List.append_nil, List.cons_append, List.nil_append]
  after_results_simp
  rw [h1']
  rfl

set_option maxHeartbeats 4000000 in
/-- Column `%70` — the matrix entry `2·(q₂q₃ − q₁q₀)`, as a column — is the same in both programs. -/
theorem agree_v70 (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.HF.V m c Cert.KernelIdeal.main_v70
      = StableHlo.after Cert.ReferenceIdeal.HRun.opsPre (StableHlo.launchContents m' c) (Proc.devRef .tc Cert.ReferenceIdeal.main_v70) := by
  have h1' : StableHlo.launchContents m' c (Proc.devRef .tc Cert.ReferenceIdeal.main_arg1) = m (c, Proc.devRef .tc Cert.KernelIdeal.main_arg1) := h1
  dsimp only [Cert.KernelIdeal.HF.V, Cert.KernelIdeal.HF.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.ReferenceIdeal.HRun.opsPre, List.flatten_cons, List.flatten_nil,
    List.append_nil, List.cons_append, List.nil_append]
  after_results_simp
  rw [h1']
  rfl

end Cert.Agree

end
-- ==== Proof.AgreeColsC.lean ====
/-
  The two programs' shared host prefix computes the same values: three columns of the rotation matrix.

  The kernel's program and the reference begin with the same operations, text for text: the predicted quaternion is
  divided by its norm and conjugated, its four components are cut out, and each entry of the rotation matrix is a
  polynomial in the components, broadcast to a column.  Each program names its buffers in its own signature, but a
  column's value is one composed function of the launch contents of the quaternion argument, the same function on
  both sides.  So when the two launch memories agree on the arguments, the column the kernel's program holds when its
  region is entered is the column the reference holds after its prefix.
-/
import proofs.«133085_j17540646437328_1_alg».proof.Proof.KMain
import proofs.«133085_j17540646437328_1_alg».proof.Proof.RefOps
import Idealize.ShloMosaic.Lib.StableHlo.Run

set_option maxRecDepth 16384

noncomputable section

namespace Cert.Agree

open Idealize.ShloMosaic Idealize.ShloMosaic.TcCoe Idealize.SL.Sem

variable {F : FTy → Type} [FloatOps F]

set_option maxHeartbeats 4000000 in
/-- The third row's first entry, `2 (q₁ q₃ − q₂ q₀)` of the normalised conjugated quaternion, as a column. -/
theorem agree_v71 (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.KernelIdeal.HF.V m c Cert.KernelIdeal.main_v71
      = StableHlo.after Cert.ReferenceIdeal.HRun.opsPre (StableHlo.launchContents m' c)
          (Proc.devRef .tc Cert.ReferenceIdeal.main_v71) := by
  have h1' : m' (c, Proc.devRef .tc Cert.ReferenceIdeal.main_arg1) = m (c, Proc.devRef .tc Cert.KernelIdeal.main_arg1) := h1
  dsimp only [Cert.KernelIdeal.HF.V, Cert.KernelIdeal.HF.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, List.flatten_cons, List.flatten_nil, List.append_nil, List.cons_append,
    List.nil_append, Cert.ReferenceIdeal.HRun.opsPre]
  after_results_simp
  dsimp only [StableHlo.launchContents]
  rw [h1']
  rfl

set_option maxHeartbeats 4000000 in
/-- The third row's second entry, `2 (q₂ q₃ + q₁ q₀)` of the normalised conjugated quaternion, as a column. -/
theorem agree_v72 (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.KernelIdeal.HF.V m c Cert.KernelIdeal.main_v72
      = StableHlo.after Cert.ReferenceIdeal.HRun.opsPre (StableHlo.launchContents m' c)
          (Proc.devRef .tc Cert.ReferenceIdeal.main_v72) := by
  have h1' : m' (c, Proc.devRef .tc Cert.ReferenceIdeal.main_arg1) = m (c, Proc.devRef .tc Cert.KernelIdeal.main_arg1) := h1
  dsimp only [Cert.KernelIdeal.HF.V, Cert.KernelIdeal.HF.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, List.flatten_cons, List.flatten_nil, List.append_nil, List.cons_append,
    List.nil_append, Cert.ReferenceIdeal.HRun.opsPre]
  after_results_simp
  dsimp only [StableHlo.launchContents]
  rw [h1']
  rfl

set_option maxHeartbeats 4000000 in
/-- The third row's third entry, `1 − 2 (q₁ q₁ + q₂ q₂)` of the normalised conjugated quaternion, as a column. -/
theorem agree_v73 (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.KernelIdeal.HF.V m c Cert.KernelIdeal.main_v73
      = StableHlo.after Cert.ReferenceIdeal.HRun.opsPre (StableHlo.launchContents m' c)
          (Proc.devRef .tc Cert.ReferenceIdeal.main_v73) := by
  have h1' : m' (c, Proc.devRef .tc Cert.ReferenceIdeal.main_arg1) = m (c, Proc.devRef .tc Cert.KernelIdeal.main_arg1) := h1
  dsimp only [Cert.KernelIdeal.HF.V, Cert.KernelIdeal.HF.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, List.flatten_cons, List.flatten_nil, List.append_nil, List.cons_append,
    List.nil_append, Cert.ReferenceIdeal.HRun.opsPre]
  after_results_simp
  dsimp only [StableHlo.launchContents]
  rw [h1']
  rfl

end Cert.Agree

end
-- ==== Proof.LibCut.lean ====
/-
  Cutting a straight line of host operations at a several-operand operation followed by a reshape.

  The buffer contents after a list of operations are a fold over the list.  When a late result is a reshape of, say, a
  concatenation of operands computed much earlier, reading that result by unfolding the whole fold is costly and
  pointless: the result depends on the earlier operations only through the operands' contents.  The lemma here states
  exactly that, for any signature and any value type, from three checkable side conditions: where the list is cut, which
  buffers the operations after the reshape write, and that the operands, the intermediate and the result are distinct
  buffers.
-/
import Idealize.ShloMosaic.Lib.StableHlo.Run

noncomputable section

namespace Cert.LibCut

open Idealize.ShloMosaic Idealize.ShloMosaic.TcCoe Idealize.SL.Sem

variable {τ : Topo} {sig : RefSig} {Val : EltTy → Type}

/-- The contents after two lines of host operations run one after the other: the second line's from the first line's. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- An operation that writes exactly one buffer writes only buffers of any list holding that buffer. -/
theorem writes_sub_of {op : HloOp τ sig Val} {y : Ref sig .tc} {Wl : List (Ref sig .tc)}
    (h : op.writes = {Proc.devRef .tc y}) (hy : y ∈ Wl) :
    op.writes ⊆ (Wl.map (Proc.devRef (τ := τ) .tc)).toFinset := by
  rw [h, Finset.singleton_subset_iff, List.mem_toFinset]
  exact List.mem_map_of_mem hy

/-- A line of host operations cut just before a several-operand operation (a concatenation, say) that is followed by a
    reshape of its result: if the operations after the reshape write only buffers of a list `Wl` holding neither the
    reshape's result nor any operand, and no operand is the intermediate or the result, then the result after the WHOLE
    line is the reshape of the operation's function applied to the operands' contents after the whole line.  The
    operations before the cut are never looked at. -/
theorem after_cut_nary_reshape (ops : List (HloOp τ sig Val)) (k : Nat) {n : Nat} (xs : Fin n → Ref sig .tc) (y z : Ref sig .tc)
    (f : ((j : Fin n) → (xs j).ty.Contents Val) → y.ty.Contents Val) (hxs hy)
    (he : y.ty.elt = z.ty.elt) (hn : y.ty.shape.ShapeCasts z.ty.shape) (hx hz)
    (rest : List (HloOp τ sig Val)) (Wl : List (Ref sig .tc))
    (hdrop : List.drop k ops = StableHlo.nary xs y f hxs hy :: StableHlo.reshape y z he hn hx hz :: rest)
    (hW : rest.Forall fun op => op.writes ⊆ (Wl.map (Proc.devRef (τ := τ) .tc)).toFinset)
    (hzW : z ∉ Wl) (hxW : ∀ j, xs j ∉ Wl) (hxy : ∀ j, xs j ≠ y) (hxz : ∀ j, xs j ≠ z)
    (V : Valuation τ sig Val) :
    StableHlo.after ops V (Proc.devRef .tc z)
      = fun i => he ▸ shapeCast z.ty.shape (f fun j => StableHlo.after ops V (Proc.devRef .tc (xs j))) hn i := by
  have hsplit : ∀ b, StableHlo.after ops V b
      = StableHlo.after (List.drop k ops) (StableHlo.after (List.take k ops) V) b := fun b => by
    rw [← after_append, List.take_append_drop]
  have hc : ∀ j, StableHlo.after ops V (Proc.devRef .tc (xs j))
      = StableHlo.after (List.take k ops) V (Proc.devRef .tc (xs j)) := fun j => by
    rw [hsplit, hdrop, StableHlo.after_cons, StableHlo.after_cons, StableHlo.after_of_writes_sub rest _ hW (hxW j),
      StableHlo.reshape_result_ne _ _ _ _ _ _ _ (hxz j), StableHlo.nary_result_ne _ _ _ _ _ _ (hxy j)]
  rw [hsplit, hdrop, StableHlo.after_cons, StableHlo.after_cons, StableHlo.after_of_writes_sub rest _ hW hzW,
    StableHlo.reshape_result, StableHlo.nary_result]
  simp only [hc]

end Cert.LibCut

end
-- ==== Proof.Cols75.lean ====
/-
  The predicted rotation matrices, in both programs, as one function of their nine entries.

  In the reference and in the host part of the kernel's program alike, the batch of 3×3 matrices is obtained by laying
  nine columns over the batch side by side and reading each row of nine as three rows of three; the columns are
  computed earlier, and nothing after touches them or the result.  So on each side the matrices are the same function
  of that side's nine columns, and if the columns agree across the two programs the matrices agree.  Neither side's
  arithmetic below the columns is looked at: each operation list is cut just before the concatenation, and what the
  operations before the cut leave is treated as an unknown.
-/
import proofs.«133085_j17540646437328_1_alg».proof.Proof.KMain
import proofs.«133085_j17540646437328_1_alg».proof.Proof.RefOps
import proofs.«133085_j17540646437328_1_alg».proof.Proof.LibCut
import Idealize.ShloMosaic.Lib.StableHlo.Run

noncomputable section

namespace Cert.Agree

open Idealize.ShloMosaic Idealize.ShloMosaic.TcCoe Idealize.SL.Sem Cert.LibCut

variable {F : FTy → Type} [FloatOps F]

/-- The batch of 3×3 matrices as a function of its nine entries, each entry a column over the batch: the nine columns
    laid side by side, and each row of nine then read as three rows of three. -/
def matOf (c0 c1 c2 c3 c4 c5 c6 c7 c8 : (⟨Cert.ReferenceIdeal.S8192x1, .f32⟩ : BufTy).Contents (Elt F)) :
    (⟨Cert.ReferenceIdeal.S8192x3x3, .f32⟩ : BufTy).Contents (Elt F) :=
  shapeCast Cert.ReferenceIdeal.S8192x3x3
    (concatenate Cert.ReferenceIdeal.S8192x9 1
      [⟨Cert.ReferenceIdeal.S8192x1, c0⟩, ⟨Cert.ReferenceIdeal.S8192x1, c1⟩, ⟨Cert.ReferenceIdeal.S8192x1, c2⟩,
        ⟨Cert.ReferenceIdeal.S8192x1, c3⟩, ⟨Cert.ReferenceIdeal.S8192x1, c4⟩, ⟨Cert.ReferenceIdeal.S8192x1, c5⟩,
        ⟨Cert.ReferenceIdeal.S8192x1, c6⟩, ⟨Cert.ReferenceIdeal.S8192x1, c7⟩, ⟨Cert.ReferenceIdeal.S8192x1, c8⟩]
      Cert.ReferenceIdeal.Gen.concatenates_S8192x1_S8192x1_S8192x1_S8192x1_S8192x1_S8192x1_S8192x1_S8192x1_S8192x1_S8192x9_d1)
    Cert.ReferenceIdeal.Gen.shapeCasts_S8192x9_S8192x3x3

/-! ## The reference -/

open Cert.ReferenceIdeal in
/-- What the reference's operations after the matrices' reshape write, up to the end of the two pose losses. -/
abbrev wlR : List (Ref Cert.ReferenceIdeal.sig .tc) :=
  [main_v76, main_v77, main_call1_v0, main_call1_cst, main_call1_v1, main_v78, main_cst_12, main_v79, main_cst_13, main_v80,
    main_v81, main_call2_v0, main_call2_cst, main_call2_v1, main_v82, main_cst_14, main_v83, main_cst_15, main_v84]

set_option maxRecDepth 8192 in
/-- In the reference the matrices are that function of the nine columns: the concatenation reads the columns as the
    operations before it left them, the reshape reads the concatenation, and nothing later writes any of the eleven
    buffers. -/
theorem colsR (m' : (ℓ : Loc Cert.ReferenceIdeal.nD Cert.ReferenceIdeal.τ Cert.ReferenceIdeal.sig) → Buf (Elt F) ℓ)
    (c : Dev Cert.ReferenceIdeal.nD) :
    StableHlo.after Cert.ReferenceIdeal.HRun.opsPre (StableHlo.launchContents m' c) (Proc.devRef .tc Cert.ReferenceIdeal.main_v75)
      = matOf
          (StableHlo.after Cert.ReferenceIdeal.HRun.opsPre (StableHlo.launchContents m' c) (Proc.devRef .tc Cert.ReferenceIdeal.main_v65))
          (StableHlo.after Cert.ReferenceIdeal.HRun.opsPre (StableHlo.launchContents m' c) (Proc.devRef .tc Cert.ReferenceIdeal.main_v66))
          (StableHlo.after Cert.ReferenceIdeal.HRun.opsPre (StableHlo.launchContents m' c) (Proc.devRef .tc Cert.ReferenceIdeal.main_v67))
          (StableHlo.after Cert.ReferenceIdeal.HRun.opsPre (StableHlo.launchContents m' c) (Proc.devRef .tc Cert.ReferenceIdeal.main_v68))
          (StableHlo.after Cert.ReferenceIdeal.HRun.opsPre (StableHlo.launchContents m' c) (Proc.devRef .tc Cert.ReferenceIdeal.main_v69))
          (StableHlo.after Cert.ReferenceIdeal.HRun.opsPre (StableHlo.launchContents m' c) (Proc.devRef .tc Cert.ReferenceIdeal.main_v70))
          (StableHlo.after Cert.ReferenceIdeal.HRun.opsPre (StableHlo.launchContents m' c) (Proc.devRef .tc Cert.ReferenceIdeal.main_v71))
          (StableHlo.after Cert.ReferenceIdeal.HRun.opsPre (StableHlo.launchContents m' c) (Proc.devRef .tc Cert.ReferenceIdeal.main_v72))
          (StableHlo.after Cert.ReferenceIdeal.HRun.opsPre (StableHlo.launchContents m' c) (Proc.devRef .tc Cert.ReferenceIdeal.main_v73)) :=
  (after_cut_nary_reshape Cert.ReferenceIdeal.HRun.opsPre 91 _ _ _ _ _ _ _ _ _ _ _ wlR rfl
    ⟨writes_sub_of rfl (by decide), writes_sub_of rfl (by decide), writes_sub_of rfl (by decide), writes_sub_of rfl (by decide),
      writes_sub_of rfl (by decide), writes_sub_of rfl (by decide), writes_sub_of rfl (by decide), writes_sub_of rfl (by decide),
      writes_sub_of rfl (by decide), writes_sub_of rfl (by decide), writes_sub_of rfl (by decide), writes_sub_of rfl (by decide),
      writes_sub_of rfl (by decide), writes_sub_of rfl (by decide), writes_sub_of rfl (by decide), writes_sub_of rfl (by decide),
      writes_sub_of rfl (by decide), writes_sub_of rfl (by decide), writes_sub_of rfl (by decide)⟩
    (by decide) (by decide) (by decide) (by decide) _).trans rfl

/-! ## The kernel's program -/

open Cert.KernelIdeal in
/-- What the host operations of the kernel's program after the matrices' reshape write, up to the kernel's launch. -/
abbrev wlK : List (Ref Cert.KernelIdeal.sig .tc) :=
  [main_v76, main_v77, main_call1_v0, main_call1_cst, main_call1_v1, main_v78, main_cst_12, main_v79, main_cst_13, main_v80,
    main_v81, main_call2_v0, main_call2_cst, main_call2_v1, main_v82, main_cst_14, main_v83, main_cst_15, main_v84, main_v85]

set_option maxRecDepth 8192 in
/-- In the kernel's program, when the kernel is launched, the matrices are the same function of the nine columns, for
    the same reason. -/
theorem colsK (m : (ℓ : Loc Cert.KernelIdeal.nD Cert.KernelIdeal.τ Cert.KernelIdeal.sig) → Buf (Elt F) ℓ)
    (c : Dev Cert.KernelIdeal.nD) :
    Cert.KernelIdeal.HF.V m c Cert.KernelIdeal.main_v75
      = matOf (Cert.KernelIdeal.HF.V m c Cert.KernelIdeal.main_v65) (Cert.KernelIdeal.HF.V m c Cert.KernelIdeal.main_v66)
          (Cert.KernelIdeal.HF.V m c Cert.KernelIdeal.main_v67) (Cert.KernelIdeal.HF.V m c Cert.KernelIdeal.main_v68)
          (Cert.KernelIdeal.HF.V m c Cert.KernelIdeal.main_v69) (Cert.KernelIdeal.HF.V m c Cert.KernelIdeal.main_v70)
          (Cert.KernelIdeal.HF.V m c Cert.KernelIdeal.main_v71) (Cert.KernelIdeal.HF.V m c Cert.KernelIdeal.main_v72)
          (Cert.KernelIdeal.HF.V m c Cert.KernelIdeal.main_v73) :=
  (after_cut_nary_reshape
    (List.flatten [Cert.KernelIdeal.Gen.hostOps0, Cert.KernelIdeal.Gen.hostOps0_1, Cert.KernelIdeal.Gen.hostOps0_2,
      Cert.KernelIdeal.Gen.hostOps0_3, Cert.KernelIdeal.Gen.hostOps0_4, Cert.KernelIdeal.Gen.hostOps0_5,
      Cert.KernelIdeal.Gen.hostOps0_6]) 91 _ _ _ _ _ _ _ _ _ _ _ wlK rfl
    ⟨writes_sub_of rfl (by decide), writes_sub_of rfl (by decide), writes_sub_of rfl (by decide), writes_sub_of rfl (by decide),
      writes_sub_of rfl (by decide), writes_sub_of rfl (by decide), writes_sub_of rfl (by decide), writes_sub_of rfl (by decide),
      writes_sub_of rfl (by decide), writes_sub_of rfl (by decide), writes_sub_of rfl (by decide), writes_sub_of rfl (by decide),
      writes_sub_of rfl (by decide), writes_sub_of rfl (by decide), writes_sub_of rfl (by decide), writes_sub_of rfl (by decide),
      writes_sub_of rfl (by decide), writes_sub_of rfl (by decide), writes_sub_of rfl (by decide), writes_sub_of rfl (by decide)⟩
    (by decide) (by decide) (by decide) (by decide) _).trans rfl

/-! ## The two agree -/

/-- If the nine columns agree across the two programs, so do the matrices. -/
theorem agree_v75_of (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (h65 : Cert.KernelIdeal.HF.V m c Cert.KernelIdeal.main_v65 = StableHlo.after Cert.ReferenceIdeal.HRun.opsPre (StableHlo.launchContents m' c) (Proc.devRef .tc Cert.ReferenceIdeal.main_v65))
    (h66 : Cert.KernelIdeal.HF.V m c Cert.KernelIdeal.main_v66 = StableHlo.after Cert.ReferenceIdeal.HRun.opsPre (StableHlo.launchContents m' c) (Proc.devRef .tc Cert.ReferenceIdeal.main_v66))
    (h67 : Cert.KernelIdeal.HF.V m c Cert.KernelIdeal.main_v67 = StableHlo.after Cert.ReferenceIdeal.HRun.opsPre (StableHlo.launchContents m' c) (Proc.devRef .tc Cert.ReferenceIdeal.main_v67))
    (h68 : Cert.KernelIdeal.HF.V m c Cert.KernelIdeal.main_v68 = StableHlo.after Cert.ReferenceIdeal.HRun.opsPre (StableHlo.launchContents m' c) (Proc.devRef .tc Cert.ReferenceIdeal.main_v68))
    (h69 : Cert.KernelIdeal.HF.V m c Cert.KernelIdeal.main_v69 = StableHlo.after Cert.ReferenceIdeal.HRun.opsPre (StableHlo.launchContents m' c) (Proc.devRef .tc Cert.ReferenceIdeal.main_v69))
    (h70 : Cert.KernelIdeal.HF.V m c Cert.KernelIdeal.main_v70 = StableHlo.after Cert.ReferenceIdeal.HRun.opsPre (StableHlo.launchContents m' c) (Proc.devRef .tc Cert.ReferenceIdeal.main_v70))
    (h71 : Cert.KernelIdeal.HF.V m c Cert.KernelIdeal.main_v71 = StableHlo.after Cert.ReferenceIdeal.HRun.opsPre (StableHlo.launchContents m' c) (Proc.devRef .tc Cert.ReferenceIdeal.main_v71))
    (h72 : Cert.KernelIdeal.HF.V m c Cert.KernelIdeal.main_v72 = StableHlo.after Cert.ReferenceIdeal.HRun.opsPre (StableHlo.launchContents m' c) (Proc.devRef .tc Cert.ReferenceIdeal.main_v72))
    (h73 : Cert.KernelIdeal.HF.V m c Cert.KernelIdeal.main_v73 = StableHlo.after Cert.ReferenceIdeal.HRun.opsPre (StableHlo.launchContents m' c) (Proc.devRef .tc Cert.ReferenceIdeal.main_v73)) :
    Cert.KernelIdeal.HF.V m c Cert.KernelIdeal.main_v75
      = StableHlo.after Cert.ReferenceIdeal.HRun.opsPre (StableHlo.launchContents m' c) (Proc.devRef .tc Cert.ReferenceIdeal.main_v75) := by
  rw [colsK, colsR, h65, h66, h67, h68, h69, h70, h71, h72, h73]

end Cert.Agree

end
-- ==== Proof.lean ====
/-
  The certificate's five claims for the reprojection-error kernel against its reference.

  Both programs take two poses per batch sample (a predicted quaternion and translation, a target rotation matrix and
  translation) and 2048 world points, and return three scalars: the batch mean of the per-sample reprojection error and
  two pose losses.  They share, operation for operation, the host computation of the predicted rotation matrices from
  the normalised, conjugated quaternion and of the two pose losses; they differ only in how the per-sample error is
  computed.  The kernel transposes the points so that they lie along the lanes and, for blocks of 128 samples, forms the
  six camera-frame coordinates as explicit three-term sums, projects, takes the L1 distance, averages over the points and
  applies `nan_to_num`.  The reference does the same with two batched contractions over the coordinate axis and two
  reductions.  On the extended reals both are the per-sample value of the shared specification: a finite sum in a
  commutative monoid does not depend on its arrangement, the float zero is zero, and the NaN test of `nan_to_num` is never
  true, whichever of its two spellings a program uses.  No law that needs finiteness is used, so the precondition is
  never opened.

  The three frames: each kernel program runs through its one region by the launch theorem for a region among host
  operations, the body storing one block per grid point and leaving the argument arrays alone; the reference is a
  straight line of host operations none of which writes an argument.  The idealization rewrote nothing, so the second
  program is the first read at the extended reals and there is nothing to preserve.  For the value claim the results
  are named after the kernel's run — the batch mean as the five closing host operations applied to the array the region
  wrote, the two losses as the region found them — and the reference's run is shown to end at the same three values:
  the losses because the shared operations compute the same terms from agreeing arguments, the batch mean because the
  two per-sample arrays agree sample by sample, the predicted rotation matrices agreeing as arrays (column by column)
  and the transposed points and reshaped target translations being the arguments re-indexed.
-/
import proofs.«133085_j17540646437328_1_alg».proof.Defs
import proofs.«133085_j17540646437328_1_alg».proof.Proof.Gen.Kernel
import proofs.«133085_j17540646437328_1_alg».proof.Proof.Gen.KernelIdeal
import proofs.«133085_j17540646437328_1_alg».proof.Proof.Gen.ReferenceIdeal
import proofs.«133085_j17540646437328_1_alg».proof.Proof.Gen.Pre_finite_inputs
import proofs.«133085_j17540646437328_1_alg».proof.Proof.KFrameBits
import proofs.«133085_j17540646437328_1_alg».proof.Proof.KFrame
import proofs.«133085_j17540646437328_1_alg».proof.Proof.KPay
import proofs.«133085_j17540646437328_1_alg».proof.Proof.KValue
import proofs.«133085_j17540646437328_1_alg».proof.Proof.KTail
import proofs.«133085_j17540646437328_1_alg».proof.Proof.RefRun
import proofs.«133085_j17540646437328_1_alg».proof.Proof.RefTail
import proofs.«133085_j17540646437328_1_alg».proof.Proof.RefLink
import proofs.«133085_j17540646437328_1_alg».proof.Proof.AgreeLoss
import proofs.«133085_j17540646437328_1_alg».proof.Proof.AgreeColsA
import proofs.«133085_j17540646437328_1_alg».proof.Proof.AgreeColsB
import proofs.«133085_j17540646437328_1_alg».proof.Proof.AgreeColsC
import proofs.«133085_j17540646437328_1_alg».proof.Proof.Cols75
import Idealize.ShloMosaic.Adequacy
import Idealize.ShloMosaic.Init

noncomputable section

namespace Cert.Proof

open Idealize.ShloMosaic Idealize.SL.Sem Idealize.ShloMosaic.ValueIdx

/-- A column of 8192 values read as a vector: entry `b` of the vector is entry `(b, 0)` of the column. -/
theorem column_apply {α : Type} (y : Cert.KernelIdeal.S8192x1.Idx → α) (h : Cert.KernelIdeal.S8192x1.ShapeCasts Cert.KernelIdeal.S8192) (b : Fin 8192) :
    shapeCast Cert.KernelIdeal.S8192 y h (ix1 b) = y (ix2 b (0 : Fin 1)) :=
  shapeCast_apply y h _ _ (by
    rw [Shape.rowMajor_val_one, Shape.rowMajor_val_two]
    show b.val * 1 + 0 = b.val
    omega)

theorem frame_k : Cert.frame_Kernel (hKernel := Cert.Kernel.Gen.facts) (hPre_finite_inputs := Cert.Pre_finite_inputs.Gen.facts) :=
  fun m ρ _ => Cert.Kernel.HF.frame m ρ

theorem frame_ki : Cert.frame_KernelIdeal (hKernelIdeal := Cert.KernelIdeal.Gen.facts) (hPre_finite_inputs := Cert.Pre_finite_inputs.Gen.facts) :=
  fun m ρ _ => Cert.KernelIdeal.HF.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c _).trans (Cert.ReferenceIdeal.HLink.kept0 m c), (h c _).trans (Cert.ReferenceIdeal.HLink.kept1 m c), (h c _).trans (Cert.ReferenceIdeal.HLink.kept2 m c),
     (h c _).trans (Cert.ReferenceIdeal.HLink.kept3 m c), (h c _).trans (Cert.ReferenceIdeal.HLink.kept4 m c), (h c _).trans (Cert.ReferenceIdeal.HLink.kept5 m c)⟩)
    (Cert.ReferenceIdeal.HRun.run (F := Ideal) m ρ)

set_option maxHeartbeats 1000000 in
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Pipeline.afterTail₀ Cert.KernelIdeal.cfgs (Cert.KernelIdeal.HF.dats m) 0 (Cert.KernelIdeal.HF.V0 m) [Cert.KernelIdeal.Gen.hostOps1] c Cert.KernelIdeal.main_v89,
    fun c => Pipeline.afterTail₀ Cert.KernelIdeal.cfgs (Cert.KernelIdeal.HF.dats m) 0 (Cert.KernelIdeal.HF.V0 m) [Cert.KernelIdeal.Gen.hostOps1] c Cert.KernelIdeal.main_v80,
    fun c => Pipeline.afterTail₀ Cert.KernelIdeal.cfgs (Cert.KernelIdeal.HF.dats m) 0 (Cert.KernelIdeal.HF.V0 m) [Cert.KernelIdeal.Gen.hostOps1] c Cert.KernelIdeal.main_v84, ?_, ?_⟩
  · refine (θ_run Cert.KernelIdeal.defs _ _).mono (fun r h c => ?_) (Cert.KernelIdeal.HF.run_main (F := Ideal) m ρ)
    exact ⟨(h c).2 _ Cert.KernelIdeal.HF.mem_v89, (h c).2 _ Cert.KernelIdeal.HF.mem_v80, (h c).2 _ Cert.KernelIdeal.HF.mem_v84, Cert.KernelIdeal.HF.kept_of_post m r h c⟩
  · refine (θ_run Cert.ReferenceIdeal.defs _ _).mono (fun r h c => ?_) (Cert.ReferenceIdeal.HRun.run (F := Ideal) m' ρ')
    obtain ⟨a0, a1, a2, a3, a4, a5⟩ := hagree c
    refine ⟨(h c _).trans ?_, (h c _).trans ?_, (h c _).trans ?_, (h c _).trans (Cert.ReferenceIdeal.HLink.kept0 m' c), (h c _).trans (Cert.ReferenceIdeal.HLink.kept1 m' c),
      (h c _).trans (Cert.ReferenceIdeal.HLink.kept2 m' c), (h c _).trans (Cert.ReferenceIdeal.HLink.kept3 m' c), (h c _).trans (Cert.ReferenceIdeal.HLink.kept4 m' c), (h c _).trans (Cert.ReferenceIdeal.HLink.kept5 m' c)⟩
    · -- the batch mean: both programs average the same per-sample values
      have hX : StableHlo.after Cert.ReferenceIdeal.HRun.ops (StableHlo.launchContents m' c) (Proc.devRef .tc Cert.ReferenceIdeal.main_v108)
          = shapeCast Cert.KernelIdeal.S8192 ((Cert.KernelIdeal.HF.dats m 0 c).arrAt 5 Cert.KernelIdeal.cfg0.N : Cert.KernelIdeal.S8192x1.Idx → Elt Ideal .f32) Cert.KernelIdeal.Facts₀.shapeCasts_S8192x1_S8192 := by
        funext i
        obtain ⟨b, rfl⟩ : ∃ b : Fin 8192, i = ix1 b := ⟨i 0, eq_ix1 i⟩
        rw [Cert.ReferenceIdeal.HLink.link108 m' c, Cert.ReferenceIdeal.HTail.perSampleArr_apply, column_apply,
          Cert.KernelIdeal.HF.final5_apply m Cert.KernelIdeal.HF.bodyVal_apply c b]
        rw [Cert.KernelIdeal.HF.V_main_arg4 m c, Cert.KernelIdeal.HF.V_main_arg0 m c, (Cert.Agree.agree_v75_of m m' c
          (Cert.Agree.agree_v65 m m' c a0 a1 a2 a3) (Cert.Agree.agree_v66 m m' c a0 a1 a2 a3) (Cert.Agree.agree_v67 m m' c a0 a1 a2 a3)
          (Cert.Agree.agree_v68 m m' c a0 a1 a2 a3) (Cert.Agree.agree_v69 m m' c a0 a1 a2 a3) (Cert.Agree.agree_v70 m m' c a0 a1 a2 a3)
          (Cert.Agree.agree_v71 m m' c a0 a1 a2 a3) (Cert.Agree.agree_v72 m m' c a0 a1 a2 a3) (Cert.Agree.agree_v73 m m' c a0 a1 a2 a3))]
        simp only [Cert.KernelIdeal.HF.V_v76_apply m c, Cert.KernelIdeal.HF.V_v85_apply m c]
        rw [a0, a2, a4, a5]
      beta_reduce
      rw [Cert.ReferenceIdeal.HLink.link110 m' c, Cert.KernelIdeal.HF.tail_v89 m c, hX]
    · beta_reduce
      rw [Cert.ReferenceIdeal.HLink.link80 m' c, Cert.KernelIdeal.HF.tail_v80 m c]
      exact (Cert.Agree.agree_v80 m m' c a0 a1 a2 a3).symm
    · beta_reduce
      rw [Cert.ReferenceIdeal.HLink.link84 m' c, Cert.KernelIdeal.HF.tail_v84 m c]
      exact (Cert.Agree.agree_v84 m m' c a0 a1 a2 a3).symm

theorem claim : Cert.Claim :=
  ⟨Cert.Kernel.Gen.facts, Cert.KernelIdeal.Gen.facts, Cert.ReferenceIdeal.Gen.facts, Cert.Pre_finite_inputs.Gen.facts, frame_k, frame_ki, frame_ri, trivial, algebraic⟩

end Cert.Proof

end
